-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S2048x1024 : Shape := ⟨2, ![2048, 1024]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S512x2048 .f32) (main_arg1 : FVec F S2048x1024 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S512x2048 : Shape := ⟨2, ![512, 2048]⟩
abbrev S2048x1024 : Shape := ⟨2, ![2048, 1024]⟩
abbrev S2048x64x16 : Shape := ⟨3, ![2048, 64, 16]⟩
abbrev S2048x16x64 : Shape := ⟨3, ![2048, 16, 64]⟩
abbrev S512x1024 : Shape := ⟨2, ![512, 1024]⟩
abbrev S128x512 : Shape := ⟨2, ![128, 512]⟩
abbrev S128x1024 : Shape := ⟨2, ![128, 1024]⟩
abbrev S512x16x64 : Shape := ⟨3, ![512, 16, 64]⟩
abbrev S512x64 : Shape := ⟨2, ![512, 64]⟩
abbrev S128x16x64 : Shape := ⟨3, ![128, 16, 64]⟩
abbrev S8x16x64 : Shape := ⟨3, ![8, 16, 64]⟩
abbrev S128x64 : Shape := ⟨2, ![128, 64]⟩
abbrev S128x1x16x64 : Shape := ⟨4, ![128, 1, 16, 64]⟩
abbrev S1x8x16x64 : Shape := ⟨4, ![1, 8, 16, 64]⟩
abbrev S128x8x16x64 : Shape := ⟨4, ![128, 8, 16, 64]⟩
abbrev S128x8x64 : Shape := ⟨3, ![128, 8, 64]⟩
abbrev S512x2112 : Shape := ⟨2, ![512, 2112]⟩

abbrev nBuf : Space → Nat
  | .hbm => 9
  | .vmem => 13
  | .smem => 0
  | _ => 0

abbrev bufTy : (tb : Table) → Fin (tcTables nBuf tb) → BufTy
  | .hbm, ⟨0, _⟩ => ⟨S512x2048, .f32⟩
  | .hbm, ⟨1, _⟩ => ⟨S2048x1024, .f32⟩
  | .hbm, ⟨2, _⟩ => ⟨S2048x64x16, .f32⟩
  | .hbm, ⟨3, _⟩ => ⟨S2048x16x64, .f32⟩
  | .hbm, ⟨4, _⟩ => ⟨S2048x1024, .f32⟩
  | .hbm, ⟨5, _⟩ => ⟨S512x1024, .f32⟩
  | .hbm, ⟨6, _⟩ => ⟨S512x16x64, .f32⟩
  | .hbm, ⟨7, _⟩ => ⟨S512x64, .f32⟩
  | .hbm, ⟨8, _⟩ => ⟨S512x2112, .f32⟩
  | .local _ .vmem, ⟨0, _⟩ => ⟨S128x512, .f32⟩
  | .local _ .vmem, ⟨1, _⟩ => ⟨S128x512, .f32⟩
  | .local _ .vmem, ⟨2, _⟩ => ⟨S512x1024, .f32⟩
  | .local _ .vmem, ⟨3, _⟩ => ⟨S512x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x16x64, .f32⟩
  | .local _ .vmem, ⟨8, _⟩ => ⟨S128x16x64, .f32⟩
  | .local _ .vmem, ⟨9, _⟩ => ⟨S8x16x64, .f32⟩
  | .local _ .vmem, ⟨10, _⟩ => ⟨S8x16x64, .f32⟩
  | .local _ .vmem, ⟨11, _⟩ => ⟨S128x64, .f32⟩
  | .local _ .vmem, ⟨12, _⟩ => ⟨S128x64, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S2048x1024_S2048x64x16 : S2048x1024.ShapeCasts S2048x64x16
  transposes_S2048x64x16_S2048x16x64_0_2_1 : S2048x64x16.Transposes [0, 2, 1] S2048x16x64
  shapeCasts_S2048x16x64_S2048x1024 : S2048x16x64.ShapeCasts S2048x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x1024_S512x16x64 : S512x1024.ShapeCasts S512x16x64
  inb_S128x64_S128x64_0_0 : ∀ a, (![0, 0] : Fin 2 → Nat) a + S128x64.size a ≤ S128x64.size a
  h_S128x64 : 0 < S128x64.numel
  inb_S128x16x64_S128x16x64_0_0_0 : ∀ a, (![0, 0, 0] : Fin 3 → Nat) a + S128x16x64.size a ≤ S128x16x64.size a
  h_S128x16x64 : 0 < S128x16x64.numel
  shapeCasts_S128x16x64_S128x16x64 : S128x16x64.ShapeCasts S128x16x64
  inb_S8x16x64_S8x16x64_0_0_0 : ∀ a, (![0, 0, 0] : Fin 3 → Nat) a + S8x16x64.size a ≤ S8x16x64.size a
  h_S8x16x64 : 0 < S8x16x64.numel
  shapeCasts_S8x16x64_S8x16x64 : S8x16x64.ShapeCasts S8x16x64
  shapeCasts_S128x16x64_S128x1x16x64 : S128x16x64.ShapeCasts S128x1x16x64
  shapeCasts_S8x16x64_S1x8x16x64 : S8x16x64.ShapeCasts S1x8x16x64
  broadcasts_S128x1x16x64_S128x8x16x64 : S128x1x16x64.Broadcasts S128x8x16x64
  broadcasts_S1x8x16x64_S128x8x16x64 : S1x8x16x64.Broadcasts S128x8x16x64
  reduces_S128x8x16x64_S128x8x64 : S128x8x16x64.Reduces [2] S128x8x64
  shapeCasts_S128x64_S128x64 : S128x64.ShapeCasts S128x64
  reduces_S128x8x64_S128x64 : S128x8x64.Reduces [1] S128x64
  concatenates_S512x2048_S512x64_S512x2112_d1 : Shape.Concatenates [S512x2048, S512x64] S512x2112 1
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x2048.size a
  hwx0_0 : ∀ i : grid0.Coords, EltTy.bits .f32 = 32 ∨ (Rect.block (s := S512x2048) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16x64.size a ≤ S512x16x64.size a
  hwx1_0 : ∀ i : grid1.Coords, EltTy.bits .f32 = 32 ∨ (Rect.block (s := S512x16x64) S128x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x16x64.size a ≤ S512x16x64.size a
  hwx1_1 : ∀ i : grid1.Coords, EltTy.bits .f32 = 32 ∨ (Rect.block (s := S512x16x64) S8x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S512x64.size a
  hwx1_2 : ∀ i : grid1.Coords, EltTy.bits .f32 = 32 ∨ (Rect.block (s := S512x64) S128x64.size (cc1_transform_2 i) (hinb1_2 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v4) S128x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x2048 : Shape := ⟨2, ![512, 2048]⟩
abbrev S2048x1024 : Shape := ⟨2, ![2048, 1024]⟩
abbrev S512x1024 : Shape := ⟨2, ![512, 1024]⟩
abbrev S512x64x16 : Shape := ⟨3, ![512, 64, 16]⟩
abbrev S512x1x64x16 : Shape := ⟨4, ![512, 1, 64, 16]⟩
abbrev S1x512x64x16 : Shape := ⟨4, ![1, 512, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x2112 : Shape := ⟨2, ![512, 2112]⟩

abbrev nBuf : Space → Nat
  | .hbm => 17
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x1024, .f32⟩
  | .hbm, ⟨2, _⟩ => ⟨S512x1024, .f32⟩
  | .hbm, ⟨3, _⟩ => ⟨S512x64x16, .f32⟩
  | .hbm, ⟨4, _⟩ => ⟨S512x1x64x16, .f32⟩
  | .hbm, ⟨5, _⟩ => ⟨S1x512x64x16, .f32⟩
  | .hbm, ⟨6, _⟩ => ⟨S512x512x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S_, .f32⟩
  | .hbm, ⟨11, _⟩ => ⟨S512x512x64, .f32⟩
  | .hbm, ⟨12, _⟩ => ⟨S512x512x64, .f32⟩
  | .hbm, ⟨13, _⟩ => ⟨S512x512x64, .f32⟩
  | .hbm, ⟨14, _⟩ => ⟨S_, .f32⟩
  | .hbm, ⟨15, _⟩ => ⟨S512x64, .f32⟩
  | .hbm, ⟨16, _⟩ => ⟨S512x2112, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S512x1024_S512x64x16 : S512x1024.ShapeCasts S512x64x16
  bcast_S512x64x16_S512x1x64x16_0_2_3 : S512x64x16.BroadcastsInDim S512x1x64x16 (![0, 2, 3] : Fin 3 → Fin S512x1x64x16.rank)
  bcast_S512x64x16_S1x512x64x16_1_2_3 : S512x64x16.BroadcastsInDim S1x512x64x16 (![1, 2, 3] : Fin 3 → Fin S1x512x64x16.rank)
  bcast_S512x1x64x16_S512x512x64x16_0_1_2_3 : S512x1x64x16.BroadcastsInDim S512x512x64x16 (![0, 1, 2, 3] : Fin 4 → Fin S512x512x64x16.rank)
  bcast_S1x512x64x16_S512x512x64x16_0_1_2_3 : S1x512x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d1 : S512x512x64.ReducesTo [1] S512x64
  concatenates_S512x2048_S512x64_S512x2112_d1 : Shape.Concatenates [S512x2048, S512x64] S512x2112 1
  dot_S512x2048_S2048x1024_S512x1024_1_0_0_1_n_n_wf : DotDims.WF S512x2048 S2048x1024 S512x1024 [1] [0] [0] [1] [] []

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

class Facts : Prop extends Facts₀ where

variable [Facts]
-- ==== Proof.MatmulRegion.lean ====
/-
# The projection region: `x @ T'` accumulated over four blocks of the contracted axis

The grid is 4 x 4, point `t = 4 i + k`: row block `i` (128 rows of `x`), block `k` (512 of the 2048
contracted coordinates). The body keeps a 128 x 1024 accumulator in a scratch buffer across the four points of a
row block: at `k = 0` it is reset to zero, at every point the product of the two blocks is added to it, and at
`k = 3` it is copied into the output block, which is written back there; at the other points the output's
staging buffer is left as it was found.

This module fixes WHAT each buffer holds between points (`acc`, the proof data `dat`, the invariant `PhiM`) and
states the body obligation; the values are read elsewhere.
-/
import proofs.«180718_j58179626991726_1_alg».proof.Proof.Gen.KernelIdeal.Launch
import proofs.«180718_j58179626991726_1_alg».proof.Proof.Gen.KernelIdeal.Skeleton
import proofs.«180718_j58179626991726_1_alg».proof.Proof.Gen.KernelIdeal.Points
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions and the output window's idle table, in closed form over the grid -/

/-- The condition of the first `scf.if` (the reset), from the grid coordinates. -/
abbrev cond1 (i : grid0.Coords) : Prop :=
  (Scalar.cmpi .ne (Scalar.extui (Scalar.cmpi .eq (BitVec.ofNat 32 (i 1).val) 0#32)) 0#32) = 1#1
/-- It holds exactly at the first point of a row block. -/
theorem hcond1 : ∀ t : Fin cfg0.N, cond1 (grid0.coords t) ↔ t.val % 4 = 0 :=
  (by decide +kernel : ∀ t : Fin grid0.N, cond1 (grid0.coords t) ↔ t.val % 4 = 0)

/-- The condition of the second `scf.if` (the copy into the output block). -/
abbrev cond2 (i : grid0.Coords) : Prop := k0_cond2 i = 1#1
/-- It holds exactly at the last point of a row block. -/
theorem hcond2 : ∀ t : Fin cfg0.N, cond2 (grid0.coords t) ↔ t.val % 4 = 3 :=
  (by decide +kernel : ∀ t : Fin grid0.N, cond2 (grid0.coords t) ↔ t.val % 4 = 3)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- The output window is idle away from the last point of a row block, and is not written back there; -/
theorem idle2 : ∀ t : Fin cfg0.N, t.val % 4 ≠ 3 → cfg0.idle 2 (grid0.coords t) = true :=
  (by decide +kernel : ∀ t : Fin grid0.N, t.val % 4 ≠ 3 → idle0 2 (grid0.coords t) = true)
theorem noFlush2 (t : Fin cfg0.N) (h : t.val % 4 ≠ 3) : (cfg0.win 2).flush t = false := by
  cases hf : (cfg0.win 2).flush t
  · rfl
  · exact absurd ((flush0_2 t).mp hf) h
/-- at the last point of a row block it is live. -/
theorem live2 : ∀ t : Fin cfg0.N, t.val % 4 = 3 → cfg0.idle 2 (grid0.coords t) = false :=
  (by decide +kernel : ∀ t : Fin grid0.N, t.val % 4 = 3 → idle0 2 (grid0.coords t) = false)

/- The region is stated at a PARAMETER: the contents of the core's unscoped buffers when the region is entered. -/
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 128 x 512 block of `x` at point `t` (rows of block `i`, contracted coordinates of block `k`). -/
abbrev xblk (c : Dev nD) (t : Fin cfg0.N) : Vec F S128x512 .f32 := blk V c 0 t
/-- The 512 x 1024 block of the permuted `T` at point `t` (contracted coordinates of block `k`, every column). -/
abbrev wblk (c : Dev nD) (t : Fin cfg0.N) : Vec F S512x1024 .f32 := blk V c 1 t

/-- THE ACCUMULATOR after the body at point `n`: the point's product added to what the point before left, or to
    zero at the first point of a row block (`n ≡ 0 mod 4`). -/
def acc (c : Dev nD) : (n : ℕ) → n < cfg0.N → Vec F S128x1024 .f32
  | 0, h => k0_pay2 (xblk V c ⟨0, h⟩) (wblk V c ⟨0, h⟩) (k0_pay1 (F := F))
  | n + 1, h => k0_pay2 (xblk V c ⟨n + 1, h⟩) (wblk V c ⟨n + 1, h⟩)
      (if (n + 1) % 4 = 0 then k0_pay1 (F := F) else acc c n (Nat.lt_of_succ_lt h))

theorem acc_reset (c : Dev nD) (t : Fin cfg0.N) (h : t.val % 4 = 0) :
    acc V c t.val t.isLt = k0_pay2 (xblk V c t) (wblk V c t) (k0_pay1 (F := F)) := by
  obtain ⟨n, hn⟩ := t
  cases n with
  | zero => rfl
  | succ n =>
    show k0_pay2 _ _ (if (n + 1) % 4 = 0 then k0_pay1 (F := F) else acc V c n _) = _
    rw [if_pos h]

theorem acc_step (c : Dev nD) (t : Fin cfg0.N) (h : t.val % 4 ≠ 0) :
    acc V c t.val t.isLt = k0_pay2 (xblk V c t) (wblk V c t)
      (acc V c (t.val - 1) (Nat.lt_of_le_of_lt (Nat.sub_le _ _) t.isLt)) := by
  obtain ⟨n, hn⟩ := t
  cases n with
  | zero => exact absurd (Nat.zero_mod 4) h
  | succ n =>
    show k0_pay2 _ _ (if (n + 1) % 4 = 0 then k0_pay1 (F := F) else acc V c n _) = _
    rw [if_neg h]; rfl

/-- The accumulator's buffer. -/
abbrev scM : Memref sig .tc .vmem S128x1024 .f32 := Memref.whole cc0_scratch0

/-- The scoped buffers this region does not use (the other region's staging buffers), each whole at some contents. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's entry invariant (the scoped rest and the generator register) with the accumulator's buffer named. -/
theorem PhiA_eq (c : Dev nD) :
    (Pipeline.ΦA spec0 c : sProp 𝕄)
      = iprop(((∃ d, owns (c : Thread nD τ) scM fullShare d) ∗ otherScoped (F := F) c) ∗ (∃ r, prngReg c r)) := by
  unfold Pipeline.ΦA otherScoped; rw [scopedRest0_eq]; simp only [scM, owns_whole]; try rfl

/-- The invariant before position `n`: before the first point the entry invariant; afterwards the accumulator's
    buffer at what the point before left, the unused scoped buffers at anything, the generator register at some state. -/
def PhiM (c : Dev nD) : (n : ℕ) → n ≤ cfg0.N → sProp 𝕄
  | 0, _ => Pipeline.ΦA spec0 c
  | n + 1, hn => iprop((owns (c : Thread nD τ) scM fullShare (acc V c n hn) ∗ otherScoped (F := F) c) ∗ (∃ r, prngReg c r))

/-- Before the first point the invariant is the entry invariant. -/
theorem PhiM_zero (c : Dev nD) (n : ℕ) (h : n ≤ cfg0.N) (hz : n = 0) : PhiM V c n h = Pipeline.ΦA spec0 c := by
  subst hz; rfl

/-- After point `n`: the accumulator's buffer at that point's contents. -/
theorem PhiM_succ (c : Dev nD) (n : ℕ) (hn : n < cfg0.N) :
    PhiM V c (n + 1) hn
      = iprop((owns (c : Thread nD τ) scM fullShare (acc V c n hn) ∗ otherScoped (F := F) c) ∗ (∃ r, prngReg c r)) := rfl

/-- Before a point that is not the first: the accumulator's buffer at what the point before left. -/
theorem PhiM_pos (c : Dev nD) (n : ℕ) (h : n ≤ cfg0.N) (hz : n ≠ 0) :
    PhiM V c n h
      = iprop((owns (c : Thread nD τ) scM fullShare (acc V c (n - 1) (by omega)) ∗ otherScoped (F := F) c) ∗ (∃ r, prngReg c r)) := by
  cases n with
  | zero => exact absurd rfl hz
  | succ n => rfl

/-- At any position the invariant yields the accumulator's buffer at SOME contents — all a reset needs of it, and
    all the region's exit keeps of it. -/
theorem PhiM_forget (c : Dev nD) (n : ℕ) (h : n ≤ cfg0.N) :
    PhiM V c n h
      ⊢ iprop(((∃ s, owns (c : Thread nD τ) scM fullShare s) ∗ otherScoped (F := F) c) ∗ (∃ r, prngReg c r)) := by
  cases n with
  | zero => rw [PhiM_zero V c 0 h rfl, PhiA_eq]
  | succ n =>
    rw [PhiM_succ]
    iintro ⟨⟨HS, Hoth⟩, Hg⟩
    isplitl [HS Hoth]
    · isplitl [HS]
      · iexists _; iexact HS
      iexact Hoth
    iexact Hg

/-- The proof data of the projection region on core `c`: the arrays as the region finds them; after the body each
    input's buffer at its block, the output's at the accumulator (consulted only where the body stores it:
    `k = 3`); the invariant `PhiM`; full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => acc V c t.val t.isLt
  Φ t := PhiM V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = acc V c t.val t.isLt := by dsimp only [dat]

/-! ## The kernel function on arbitrary whole memrefs, one triple per control case

The buffers' contents are variables; what the accumulator's buffer holds afterwards is named by the payloads. A
whole-buffer store read back through the whole-buffer rectangle is the stored value, and a whole-buffer load of a
buffer reads its contents. -/

/-- The zero offsets of a whole-buffer rectangle of rank two. -/
theorem zeroOffsets : (![0, 0] : Fin 2 → ℕ) = fun _ => 0 := by
  funext a; fin_cases a <;> rfl

set_option maxHeartbeats 1000000 in
/-- Neither the reset nor the copy: the accumulator `s` becomes `s` plus the product of the two blocks. The
    output's buffer is not touched (the caller keeps it). -/
theorem run_step (c : Dev nD) (i : grid0.Coords)
    (a2 : Memref sig .tc .vmem S128x512 .f32) (ha2 : a2.IsWhole)
    (a3 : Memref sig .tc .vmem S512x1024 .f32) (ha3 : a3.IsWhole)
    (a4 : Memref sig .tc .vmem S128x1024 .f32) (ha4 : a4.IsWhole)
    (a5 : Memref sig .tc .vmem S128x1024 .f32) (ha5 : a5.IsWhole)
    (hc1 : ¬cond1 i) (hc2 : ¬cond2 i)
    (x : Vec F S128x512 .f32) (w : Vec F S512x1024 .f32) (s : Vec F S128x1024 .f32)
    (E : Set ℕ) (K : PUnit → sProp 𝕄) :
    iprop(owns (c : Thread nD τ) a2 fullShare x ∗ owns (c : Thread nD τ) a3 fullShare w
        ∗ owns (c : Thread nD τ) a5 fullShare s
        ∗ (iprop(owns (c : Thread nD τ) a2 fullShare x ∗ owns (c : Thread nD τ) a3 fullShare w
            ∗ owns (c : Thread nD τ) a5 fullShare (k0_pay2 x w s)) -∗ K ⟨⟩))
      ⊢ wp frame (wpE (defs₀ (F := F)) Variants.none c none) E (cc0__matmul_kernel i a2 ha2 a3 ha3 a4 ha4 a5 ha5) K := by
  simp only [cc0__matmul_kernel_eq_skeleton]; unfold cc0__matmul_kernel_skel
  unfold owns
  iintro ⟨⟨%f2, %hf2, H2⟩, ⟨%f3, %hf3, H3⟩, ⟨%f5, %hf5, H5⟩, Hk⟩
  obtain rfl := ha2.eq_unread hf2; obtain rfl := ha3.eq_unread hf3; obtain rfl := ha5.eq_unread hf5
  sl_exec (disch := first | exact hc1 | exact hc2)
  sl_step
  iapply Hk
  isplitl [H2]
  · iexists _; isplitr; · ipureintro; exact ha2.read_unread _
    iexact H2
  isplitl [H3]
  · iexists _; isplitr; · ipureintro; exact ha3.read_unread _
    iexact H3
  iexists _; isplitr
  swap; · iexact H5
  ipureintro
  rw [View.read_writes_eq_canon _ _ _ (fun y => ⟨_, List.mem_singleton_self _, View.mem_set_unit_zero zeroOffsets inb_S128x1024_S128x1024_0_0 y⟩),
    View.canon_unit_zero zeroOffsets]
  simp only [View.readAt_eq_ld, ha2.read_unread, ha3.read_unread, ha5.read_unread,
    View.ld_unit_zero (S := S128x512) zeroOffsets, View.ld_unit_zero (S := S512x1024) zeroOffsets, View.ld_unit_zero (S := S128x1024) zeroOffsets]

set_option maxHeartbeats 1000000 in
/-- The reset: whatever the accumulator's buffer held, it ends at zero plus the product of the two blocks (the zero
    stored first is what the load after it reads). The output's buffer is not touched. -/
theorem run_reset (c : Dev nD) (i : grid0.Coords)
    (a2 : Memref sig .tc .vmem S128x512 .f32) (ha2 : a2.IsWhole)
    (a3 : Memref sig .tc .vmem S512x1024 .f32) (ha3 : a3.IsWhole)
    (a4 : Memref sig .tc .vmem S128x1024 .f32) (ha4 : a4.IsWhole)
    (a5 : Memref sig .tc .vmem S128x1024 .f32) (ha5 : a5.IsWhole)
    (hc1 : cond1 i) (hc2 : ¬cond2 i)
    (x : Vec F S128x512 .f32) (w : Vec F S512x1024 .f32) (s : Vec F S128x1024 .f32)
    (E : Set ℕ) (K : PUnit → sProp 𝕄) :
    iprop(owns (c : Thread nD τ) a2 fullShare x ∗ owns (c : Thread nD τ) a3 fullShare w
        ∗ owns (c : Thread nD τ) a5 fullShare s
        ∗ (iprop(owns (c : Thread nD τ) a2 fullShare x ∗ owns (c : Thread nD τ) a3 fullShare w
            ∗ owns (c : Thread nD τ) a5 fullShare (k0_pay2 x w (k0_pay1 (F := F)))) -∗ K ⟨⟩))
      ⊢ wp frame (wpE (defs₀ (F := F)) Variants.none c none) E (cc0__matmul_kernel i a2 ha2 a3 ha3 a4 ha4 a5 ha5) K := by
  simp only [cc0__matmul_kernel_eq_skeleton]; unfold cc0__matmul_kernel_skel
  unfold owns
  iintro ⟨⟨%f2, %hf2, H2⟩, ⟨%f3, %hf3, H3⟩, ⟨%f5, %hf5, H5⟩, Hk⟩
  obtain rfl := ha2.eq_unread hf2; obtain rfl := ha3.eq_unread hf3; obtain rfl := ha5.eq_unread hf5
  sl_exec (disch := first | exact hc1 | exact hc2)
  sl_step
  iapply Hk
  isplitl [H2]
  · iexists _; isplitr; · ipureintro; exact ha2.read_unread _
    iexact H2
  isplitl [H3]
  · iexists _; isplitr; · ipureintro; exact ha3.read_unread _
    iexact H3
  iexists _; isplitr
  swap; · iexact H5
  ipureintro
  sl_unfold_words
  rw [View.read_writes_eq_canon _ _ _ (fun y => ⟨_, List.mem_cons.mpr (Or.inl rfl), View.mem_set_unit_zero zeroOffsets inb_S128x1024_S128x1024_0_0 y⟩),
    View.canon_cons_unit_zero (S := S128x1024) zeroOffsets]
  simp only [View.readAt_eq_ld, ha2.read_unread, ha3.read_unread,
    View.ld_unit_zero (S := S128x512) zeroOffsets, View.ld_unit_zero (S := S512x1024) zeroOffsets,
    View.readCov_unit_zero (S := S128x1024) _ zeroOffsets]

set_option maxHeartbeats 1000000 in
/-- The last point of a row block: the accumulator `s` becomes `s` plus the product of the two blocks, and the
    output's buffer, whatever it held, is overwritten whole with the accumulator's new contents. -/
theorem run_last (c : Dev nD) (i : grid0.Coords)
    (a2 : Memref sig .tc .vmem S128x512 .f32) (ha2 : a2.IsWhole)
    (a3 : Memref sig .tc .vmem S512x1024 .f32) (ha3 : a3.IsWhole)
    (a4 : Memref sig .tc .vmem S128x1024 .f32) (ha4 : a4.IsWhole)
    (a5 : Memref sig .tc .vmem S128x1024 .f32) (ha5 : a5.IsWhole)
    (hc1 : ¬cond1 i) (hc2 : cond2 i)
    (x : Vec F S128x512 .f32) (w : Vec F S512x1024 .f32) (s : Vec F S128x1024 .f32)
    (E : Set ℕ) (K : PUnit → sProp 𝕄) :
    iprop(owns (c : Thread nD τ) a2 fullShare x ∗ owns (c : Thread nD τ) a3 fullShare w
        ∗ (∃ o, owns (c : Thread nD τ) a4 fullShare o) ∗ owns (c : Thread nD τ) a5 fullShare s
        ∗ (iprop(owns (c : Thread nD τ) a2 fullShare x ∗ owns (c : Thread nD τ) a3 fullShare w
            ∗ owns (c : Thread nD τ) a4 fullShare (k0_pay2 x w s)
            ∗ owns (c : Thread nD τ) a5 fullShare (k0_pay2 x w s)) -∗ K ⟨⟩))
      ⊢ wp frame (wpE (defs₀ (F := F)) Variants.none c none) E (cc0__matmul_kernel i a2 ha2 a3 ha3 a4 ha4 a5 ha5) K := by
  simp only [cc0__matmul_kernel_eq_skeleton]; unfold cc0__matmul_kernel_skel
  unfold owns
  iintro ⟨⟨%f2, %hf2, H2⟩, ⟨%f3, %hf3, H3⟩, ⟨%o, %f4, %hf4, H4⟩, ⟨%f5, %hf5, H5⟩, Hk⟩
  obtain rfl := ha2.eq_unread hf2; obtain rfl := ha3.eq_unread hf3
  obtain rfl := ha4.eq_unread hf4; obtain rfl := ha5.eq_unread hf5
  sl_exec (disch := first | exact hc1 | exact hc2)
  sl_step
  iapply Hk
  isplitl [H2]
  · iexists _; isplitr; · ipureintro; exact ha2.read_unread _
    iexact H2
  isplitl [H3]
  · iexists _; isplitr; · ipureintro; exact ha3.read_unread _
    iexact H3
  isplitl [H4]
  · iexists _; isplitr
    swap; · iexact H4
    ipureintro
    sl_unfold_words
    rw [View.read_writes_eq_canon _ _ _ (fun y => ⟨_, List.mem_cons.mpr (Or.inl rfl), View.mem_set_unit_zero zeroOffsets inb_S128x1024_S128x1024_0_0 y⟩),
      View.canon_cons_unit_zero (S := S128x1024) zeroOffsets]
    simp only [View.readAt_eq_ld, ha2.read_unread, ha3.read_unread, ha5.read_unread,
      View.ld_unit_zero (S := S128x512) zeroOffsets, View.ld_unit_zero (S := S512x1024) zeroOffsets, View.ld_unit_zero (S := S128x1024) zeroOffsets,
      View.readCov_unit_zero (S := S128x1024) _ zeroOffsets]
  iexists _; isplitr
  swap; · iexact H5
  ipureintro
  sl_unfold_words
  rw [View.read_writes_eq_canon _ _ _ (fun y => ⟨_, List.mem_cons.mpr (Or.inl rfl), View.mem_set_unit_zero zeroOffsets inb_S128x1024_S128x1024_0_0 y⟩),
    View.canon_cons_unit_zero (S := S128x1024) zeroOffsets]
  simp only [View.readAt_eq_ld, ha2.read_unread, ha3.read_unread, ha5.read_unread,
    View.ld_unit_zero (S := S128x512) zeroOffsets, View.ld_unit_zero (S := S512x1024) zeroOffsets, View.ld_unit_zero (S := S128x1024) zeroOffsets]

/-! ## The body at a generic point -/

/-- Each window's current staging memref at point `t`, as the pipeline passes it, and its wholeness. -/
abbrev stg0 (t : Fin cfg0.N) : Memref sig .tc .vmem S128x512 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S512x1024 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S128x1024 .f32 := win0_2.stage (cfg0.slots t 2)
abbrev stg2_whole (t : Fin cfg0.N) : (stg2 t).IsWhole := hstage0_2 ((cfg0.slots t 2).cast nbuf0_2)

/-- An input's current staging buffer holds its block: it is fetched at every point, and the fetch of an uncut
    window fills the whole buffer. -/
theorem before_x (c : Dev nD) (t : Fin cfg0.N) (d) : (dat V c).before 0 t d = blk V c 0 t :=
  ((dat V c).before_fetched 0 t (fetch0_0 t) d).trans (by unfold Dat.fetched Dat.blockOf blk; rw [A_eq]; try rfl)
theorem before_w (c : Dev nD) (t : Fin cfg0.N) (d) : (dat V c).before 1 t d = blk V c 1 t :=
  ((dat V c).before_fetched 1 t (fetch0_1 t) d).trans (by unfold Dat.fetched Dat.blockOf blk; rw [A_eq]; try rfl)

/-- The invariant at a point's start, restated at `t.val`. -/
theorem PhiM_before (c : Dev nD) (t : Fin cfg0.N) :
    (dat V c).Φ t.castSucc = PhiM V c t.val (Nat.le_of_lt t.isLt) := rfl

/-- What the body is called with at point `t` (the body obligation's precondition, the windows one by one), -/
def callPre (c : Dev nD) (t : Fin cfg0.N) : sProp 𝕄 :=
  iprop((dat V c).Φ t.castSucc ∗ (dat V c).owesAt () t.castSucc
    ∗ (∃ d, owns (c : Thread nD τ) (stg0 t) fullShare ((dat V c).before 0 t d))
    ∗ (∃ d, owns (c : Thread nD τ) (stg1 t) fullShare ((dat V c).before 1 t d))
    ∗ (∃ d, owns (c : Thread nD τ) (stg2 t) fullShare ((dat V c).before 2 t d)))

/-- and what it returns. -/
def callPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. The inputs' buffers hold their blocks; the point's residue mod 4 says which control case
    it is in; the invariant hands the body the accumulator's buffer at what the point before left (at anything, at
    the very first point) and takes it back at this point's contents; away from the last point of a row block the
    output's buffer is handed back as found, at the last it is overwritten with the accumulator. -/
theorem body_at (c : Dev nD) (t : Fin cfg0.N) :
    callPre V c t ⊢ wp frame (wpE (defs₀ (F := F)) Variants.none c none) Set.univ (bodyAt0 t) (fun _ => callPost V c t) := by
  unfold callPre callPost bodyAt0
  simp only [before_x, before_w]
  rw [show (dat V c).owesAt () t.succ = (dat V c).owesAt () t.castSucc from rfl]
  rw [show (dat V c).Φ t.succ = PhiM V c (t.val + 1) t.isLt from rfl, PhiM_succ]
  rw [show (dat V c).leavesExact 0 t = owns (c : Thread nD τ) (stg0 t) fullShare ((dat V c).after 0 t) from by
    unfold Dat.leavesExact; rw [live0 t], after_0]
  rw [show (dat V c).leavesExact 1 t = owns (c : Thread nD τ) (stg1 t) fullShare ((dat V c).after 1 t) from by
    unfold Dat.leavesExact; rw [live1 t], after_1]
  have hN : t.val < 16 := lt_of_lt_of_eq t.isLt (show cfg0.N = 16 from N_0)
  by_cases h0 : t.val % 4 = 0
  · have h3 : t.val % 4 ≠ 3 := by omega
    rw [Dat.leavesExact_idle (dat V c) 2 t (idle2 t h3) (noFlush2 t h3)]
    rw [acc_reset V c t h0]
    rw [PhiM_before V c t]
    have hforget := PhiM_forget V c t.val (Nat.le_of_lt t.isLt)
    iintro ⟨HInv, Ho, ⟨%d0, H0⟩, ⟨%d1, H1⟩, ⟨%d2, H2⟩⟩
    ihave HW := hforget $$ HInv
    icases HW with ⟨⟨⟨%s, HS⟩, Hoth⟩, Hg⟩
    iapply (run_reset c (grid0.coords t) (stg0 t) (stg0_whole t) (stg1 t) (stg1_whole t) (stg2 t) (stg2_whole t) scM (Memref.isWhole_whole _)
      ((hcond1 t).mpr h0) (fun h => h3 ((hcond2 t).mp h)) (xblk V c t) (wblk V c t) s Set.univ _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hz : t.val ≠ 0 := fun e => h0 (by rw [e])
    rw [acc_step V c t h0, PhiM_before V c t, PhiM_pos V c _ _ hz]
    by_cases h3 : t.val % 4 = 3
    · rw [show (dat V c).leavesExact 2 t = owns (c : Thread nD τ) (stg2 t) fullShare ((dat V c).after 2 t) from by
        unfold Dat.leavesExact; rw [live2 t h3], after_2, acc_step V c t h0]
      iintro ⟨⟨⟨HS, Hoth⟩, Hg⟩, Ho, ⟨%d0, H0⟩, ⟨%d1, H1⟩, ⟨%d2, H2⟩⟩
      iapply (run_last c (grid0.coords t) (stg0 t) (stg0_whole t) (stg1 t) (stg1_whole t) (stg2 t) (stg2_whole t) scM (Memref.isWhole_whole _)
        (fun h => h0 ((hcond1 t).mp h)) ((hcond2 t).mpr h3) (xblk V c t) (wblk V c t)
        (acc V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat V c) 2 t (idle2 t h3) (noFlush2 t h3)]
      iintro ⟨⟨⟨HS, Hoth⟩, Hg⟩, Ho, ⟨%d0, H0⟩, ⟨%d1, H1⟩, ⟨%d2, H2⟩⟩
      iapply (run_step c (grid0.coords t) (stg0 t) (stg0_whole t) (stg1 t) (stg1_whole t) (stg2 t) (stg2_whole t) scM (Memref.isWhole_whole _)
        (fun h => h0 ((hcond1 t).mp h)) (fun h => h3 ((hcond2 t).mp h)) (xblk V c t) (wblk V c t)
        (acc V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- THE BODY OBLIGATION of the projection region, at every point. -/
theorem body_obligation (c : Dev nD) :
    BodyObligation (dat (F := F) V c) (defs₀ (F := F)) Variants.none () Set.univ := by
  intro t
  rw [bigSep_W0, bigSep_W0]
  exact body_at V c t

/-- What the launch hands the region is the invariant before the first point, -/
theorem hin (c : Dev nD) : (Pipeline.ΦA spec0 c : sProp 𝕄) ⊢ (dat V c).Φ 0 := by
  rw [show (dat V c).Φ 0 = PhiM V c 0 (Nat.zero_le _) from rfl, PhiM_zero V c 0 _ rfl]

/-- and after the last point the invariant gives it back (the accumulator's contents forgotten). -/
theorem hout (c : Dev nD) : (dat V c).Φ (Fin.last cfg0.N) ⊢ (Pipeline.ΦA spec0 c : sProp 𝕄) := by
  rw [show (dat V c).Φ (Fin.last cfg0.N) = PhiM V c (Fin.last cfg0.N).val (Nat.le_of_lt_succ (Fin.last cfg0.N).isLt) from rfl,
    PhiA_eq]
  exact PhiM_forget V c _ _

end Cert.KernelIdeal.Mm

end
-- ==== Proof.PairwiseRegion.lean ====
/-
# The pairwise region: `exp (-L1)` summed over the minibatch, eight rows at a time

The grid is 4 x 64, point `t = 64 i + j`: row block `i` (128 rows `b`), block `j` (8 rows `b'`). Both input
windows read ONE array, the projection as 512 x 16 x 64. The body accumulates in the OUTPUT block itself (128 x 64),
which stays in its staging buffer over the 64 points of a row block and is written back at `j = 63`: at `j = 0` it is
reset to zero, at every point the eight rows' terms are added.

This module fixes what each buffer holds between points (`acc`, the proof data `dat`) and states the body obligation.
-/
import proofs.«180718_j58179626991726_1_alg».proof.Proof.Gen.KernelIdeal.Launch
import proofs.«180718_j58179626991726_1_alg».proof.Proof.Gen.KernelIdeal.Skeleton
import proofs.«180718_j58179626991726_1_alg».proof.Proof.Gen.KernelIdeal.Points
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.KernelIdeal.Pw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/- The region is stated at a PARAMETER: the contents of the core's unscoped buffers when the region is entered. -/
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 128 rows `b` of the projection at point `t` (row block `i`). -/
abbrev rowsB (c : Dev nD) (t : Fin cfg1.N) : Vec F S128x16x64 .f32 := blk V c 0 t
/-- The 8 rows `b'` of the projection at point `t` (block `j`). -/
abbrev rowsB' (c : Dev nD) (t : Fin cfg1.N) : Vec F S8x16x64 .f32 := blk V c 1 t

/-- THE ACCUMULATOR (the output block) after the body at point `n`: the point's eight terms added to what the point
    before left, or to zero at the first point of a row block (`n ≡ 0 mod 64`). -/
def acc (c : Dev nD) : (n : ℕ) → n < cfg1.N → Vec F S128x64 .f32
  | 0, h => k1_pay2 (rowsB V c ⟨0, h⟩) (rowsB' V c ⟨0, h⟩) (k1_pay1 (F := F))
  | n + 1, h => k1_pay2 (rowsB V c ⟨n + 1, h⟩) (rowsB' V c ⟨n + 1, h⟩)
      (if (n + 1) % 64 = 0 then k1_pay1 (F := F) else acc c n (Nat.lt_of_succ_lt h))

theorem acc_reset (c : Dev nD) (t : Fin cfg1.N) (h : t.val % 64 = 0) :
    acc V c t.val t.isLt = k1_pay2 (rowsB V c t) (rowsB' V c t) (k1_pay1 (F := F)) := by
  obtain ⟨n, hn⟩ := t
  cases n with
  | zero => rfl
  | succ n =>
    show k1_pay2 _ _ (if (n + 1) % 64 = 0 then k1_pay1 (F := F) else acc V c n _) = _
    rw [if_pos h]

theorem acc_step (c : Dev nD) (t : Fin cfg1.N) (h : t.val % 64 ≠ 0) :
    acc V c t.val t.isLt = k1_pay2 (rowsB V c t) (rowsB' V c t)
      (acc V c (t.val - 1) (Nat.lt_of_le_of_lt (Nat.sub_le _ _) t.isLt)) := by
  obtain ⟨n, hn⟩ := t
  cases n with
  | zero => exact absurd (Nat.zero_mod 64) h
  | succ n =>
    show k1_pay2 _ _ (if (n + 1) % 64 = 0 then k1_pay1 (F := F) else acc V c n _) = _
    rw [if_neg h]
    rfl

/-- The proof data of the pairwise region on core `c`: the arrays as the region finds them; after the body each
    input's buffer at its block, the output's at the accumulator; the invariant the scoped rest and the generator
    register, untouched; the two input windows hold their ONE array at the two halves of the full share; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => acc V c t.val t.isLt
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = acc V c t.val t.isLt := by dsimp only [dat]

/-! ## The body on whole buffers, one triple per control case

The body has one branch, on the second grid coordinate being zero. Each triple is over ANY three whole buffers at
contents `x`, `w`, `s` and names what the output buffer ends with by the payloads. -/

/-- The body's branch condition, from the grid coordinates: the second coordinate is zero. -/
abbrev cond1 (i : grid1.Coords) : Prop :=
  (Scalar.cmpi .ne (Scalar.extui (Scalar.cmpi .eq (BitVec.ofNat 32 (i 1).val) 0#32)) 0#32) = 1#1

/-- Over the grid, point `t = 64 i + j`, it holds exactly where `j = 0`. -/
theorem hcond1 : ∀ t : Fin cfg1.N, cond1 (grid1.coords t) ↔ t.val % 64 = 0 :=
  (by decide +kernel : ∀ t : Fin grid1.N, cond1 (grid1.coords t) ↔ t.val % 64 = 0)

/-- The zero offsets of the whole-buffer rectangles, rank 2 and rank 3. -/
theorem hz2 : (![0, 0] : Fin 2 → Nat) = fun _ => 0 := by funext a; fin_cases a <;> rfl
theorem hz3 : (![0, 0, 0] : Fin 3 → Nat) = fun _ => 0 := by funext a; fin_cases a <;> rfl

set_option maxHeartbeats 1000000 in
/-- Away from the first block of a row block (`j ≠ 0`): the three buffers are loaded whole and the output buffer is
    stored whole with the point's eight terms added to what it held. -/
theorem run_step (c : Dev nD) (i : grid1.Coords)
    (a2 : Memref sig .tc .vmem S128x16x64 .f32) (h2 : a2.IsWhole)
    (a3 : Memref sig .tc .vmem S8x16x64 .f32) (h3 : a3.IsWhole)
    (a4 : Memref sig .tc .vmem S128x64 .f32) (h4 : a4.IsWhole) (hc : ¬cond1 i)
    (x : Vec F S128x16x64 .f32) (w : Vec F S8x16x64 .f32) (s : Vec F S128x64 .f32)
    (E : Set ℕ) (K : PUnit → sProp 𝕄) :
    iprop(owns (c : Thread nD τ) a2 fullShare x ∗ owns (c : Thread nD τ) a3 fullShare w
        ∗ owns (c : Thread nD τ) a4 fullShare s
        ∗ (iprop(owns (c : Thread nD τ) a2 fullShare x ∗ owns (c : Thread nD τ) a3 fullShare w
            ∗ owns (c : Thread nD τ) a4 fullShare (k1_pay2 x w s)) -∗ K ⟨⟩))
      ⊢ wp frame (wpE (defs₀ (F := F)) Variants.none c none) E (cc1__pairwise_kernel i a2 h2 a3 h3 a4 h4) K := by
  simp only [cc1__pairwise_kernel_eq_skeleton]; unfold cc1__pairwise_kernel_skel
  unfold owns
  iintro ⟨⟨%f2, %hf2, H2⟩, ⟨%f3, %hf3, H3⟩, ⟨%f4, %hf4, H4⟩, Hk⟩
  obtain rfl := h2.eq_unread hf2
  obtain rfl := h3.eq_unread hf3
  obtain rfl := h4.eq_unread hf4
  sl_exec (disch := first | exact hc)
  sl_step
  iapply Hk
  isplitl [H2]
  · iexists _; isplitr; · ipureintro; exact hf2
    iexact H2
  isplitl [H3]
  · iexists _; isplitr; · ipureintro; exact hf3
    iexact H3
  iexists _; isplitr
  swap; · iexact H4
  ipureintro
  -- one whole-buffer store: the buffer reads back its payload, and each whole-buffer load read the contents
  rw [View.read_writes_eq_canon _ _ _ (fun y => ⟨_, List.mem_singleton_self _, View.mem_set_unit_zero hz2 inb_S128x64_S128x64_0_0 y⟩),
    View.canon_unit_zero (S := S128x64) hz2]
  simp only [View.readAt_eq_ld, hf2, hf3, hf4, View.ld_unit_zero (S := S128x16x64) hz3,
    View.ld_unit_zero (S := S8x16x64) hz3, View.ld_unit_zero (S := S128x64) hz2]

set_option maxHeartbeats 1000000 in
/-- At the first block of a row block (`j = 0`): the output buffer is first stored whole with zeros, whatever it
    held; the update then reads those zeros back. -/
theorem run_reset (c : Dev nD) (i : grid1.Coords)
    (a2 : Memref sig .tc .vmem S128x16x64 .f32) (h2 : a2.IsWhole)
    (a3 : Memref sig .tc .vmem S8x16x64 .f32) (h3 : a3.IsWhole)
    (a4 : Memref sig .tc .vmem S128x64 .f32) (h4 : a4.IsWhole) (hc : cond1 i)
    (x : Vec F S128x16x64 .f32) (w : Vec F S8x16x64 .f32) (s : Vec F S128x64 .f32)
    (E : Set ℕ) (K : PUnit → sProp 𝕄) :
    iprop(owns (c : Thread nD τ) a2 fullShare x ∗ owns (c : Thread nD τ) a3 fullShare w
        ∗ owns (c : Thread nD τ) a4 fullShare s
        ∗ (iprop(owns (c : Thread nD τ) a2 fullShare x ∗ owns (c : Thread nD τ) a3 fullShare w
            ∗ owns (c : Thread nD τ) a4 fullShare (k1_pay2 x w (k1_pay1 (F := F)))) -∗ K ⟨⟩))
      ⊢ wp frame (wpE (defs₀ (F := F)) Variants.none c none) E (cc1__pairwise_kernel i a2 h2 a3 h3 a4 h4) K := by
  simp only [cc1__pairwise_kernel_eq_skeleton]; unfold cc1__pairwise_kernel_skel
  unfold owns
  iintro ⟨⟨%f2, %hf2, H2⟩, ⟨%f3, %hf3, H3⟩, ⟨%f4, %hf4, H4⟩, Hk⟩
  obtain rfl := h2.eq_unread hf2
  obtain rfl := h3.eq_unread hf3
  obtain rfl := h4.eq_unread hf4
  sl_exec (disch := first | exact hc)
  sl_step
  iapply Hk
  isplitl [H2]
  · iexists _; isplitr; · ipureintro; exact hf2
    iexact H2
  isplitl [H3]
  · iexists _; isplitr; · ipureintro; exact hf3
    iexact H3
  iexists _; isplitr
  swap; · iexact H4
  ipureintro
  sl_unfold_words
  -- two whole-buffer stores, the later on top: the buffer reads back the later payload, whose third argument is the
  -- read-back of the earlier store alone, the zeros
  rw [View.read_writes_eq_canon _ _ _ (fun y => ⟨_, List.mem_cons.mpr (Or.inl rfl), View.mem_set_unit_zero hz2 inb_S128x64_S128x64_0_0 y⟩),
    View.canon_cons_unit_zero (S := S128x64) hz2, View.readCov_unit_zero (S := S128x64) _ hz2]
  simp only [View.readAt_eq_ld, hf2, hf3, View.ld_unit_zero (S := S128x16x64) hz3,
    View.ld_unit_zero (S := S8x16x64) hz3]

/-! ## What each window's buffer holds when the body runs -/

/-- The staging buffers the body is called on at point `t`, at their literal types, and their wholeness. -/
abbrev m0 (t : Fin cfg1.N) : Memref sig .tc .vmem S128x16x64 .f32 := win1_0.stage (cfg1.slots t 0)
abbrev hm0 (t : Fin cfg1.N) : (m0 t).IsWhole := hstage1_0 ((cfg1.slots t 0).cast nbuf1_0)
abbrev m1 (t : Fin cfg1.N) : Memref sig .tc .vmem S8x16x64 .f32 := win1_1.stage (cfg1.slots t 1)
abbrev hm1 (t : Fin cfg1.N) : (m1 t).IsWhole := hstage1_1 ((cfg1.slots t 1).cast nbuf1_1)
abbrev m2 (t : Fin cfg1.N) : Memref sig .tc .vmem S128x64 .f32 := win1_2.stage (cfg1.slots t 2)
abbrev hm2 (t : Fin cfg1.N) : (m2 t).IsWhole := hstage1_2 ((cfg1.slots t 2).cast nbuf1_2)

/-- The first input's buffer holds the 128 rows of its row block at every point, though fetched only at `j = 0`:
    where it is not fetched its block index has not moved, and the body leaves the block in place. -/
theorem before_0 (c : Dev nD) (t : Fin cfg1.N) (d) : (dat V c).before 0 t d = blk V c 0 t := by
  have hkeep : ∀ t', (cfg1.win 0).cut (cfg1.grid.coords t') ((dat V c).after 0 t') = (dat V c).blockOf 0 t' := fun t' => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl

/-- The second input's buffer holds the 8 rows of its block: it is fetched at every point. -/
theorem before_1 (c : Dev nD) (t : Fin cfg1.N) (d) : (dat V c).before 1 t d = blk V c 1 t := by
  rw [(dat V c).before_fetched 1 t (fetch1_1 t) d]
  unfold Dat.fetched Dat.blockOf blk; rw [A_eq]; rfl

/-- Away from `j = 0` the output's buffer holds the accumulator the point before left: the point is not the first,
    and the buffer was not written back between (that happens only after `j = 63`). -/
theorem before_2 (c : Dev nD) (t : Fin cfg1.N) (h : t.val % 64 ≠ 0) (d) :
    (dat V c).before 2 t d = acc V c (t.val - 1) (Nat.lt_of_le_of_lt (Nat.sub_le _ _) t.isLt) := by
  have h0 : t.val ≠ 0 := fun e => h (by rw [e])
  rw [Dat.before_out_kept _ 2 rfl t h0
    (Bool.eq_false_iff.mpr fun hf => by have := (flush1_2 _).mp hf; dsimp only at this; omega)
    (fun _ => rfl) (fun _ _ => rfl)]
  rw [after_2]

/-! ## The obligation at a generic point -/

/-- What the body is called with at point `t`: the windows one by one. -/
def bodyPre (c : Dev nD) (t : Fin cfg1.N) : sProp 𝕄 :=
  iprop((dat V c).Φ t.castSucc ∗ (dat V c).owesAt () t.castSucc
    ∗ (∃ d, owns (c : Thread nD τ) (m0 t) fullShare ((dat V c).before 0 t d))
    ∗ (∃ d, owns (c : Thread nD τ) (m1 t) fullShare ((dat V c).before 1 t d))
    ∗ (∃ d, owns (c : Thread nD τ) (m2 t) fullShare ((dat V c).before 2 t d)))

/-- What it returns. -/
def bodyPost (c : Dev nD) (t : Fin cfg1.N) : sProp 𝕄 :=
  iprop((dat V c).Φ t.succ ∗ (dat V c).owesAt () t.succ
    ∗ owns (c : Thread nD τ) (m0 t) fullShare ((dat V c).after 0 t)
    ∗ owns (c : Thread nD τ) (m1 t) fullShare ((dat V c).after 1 t)
    ∗ owns (c : Thread nD τ) (m2 t) fullShare ((dat V c).after 2 t))

set_option maxHeartbeats 800000 in
/-- The body at any point: the inputs' buffers hold their blocks; by the closed form of the branch condition the point
    resets (`j = 0`, the output's buffer at anything) or accumulates (`j ≠ 0`, the output's buffer at the accumulator of
    the point before); the invariant and the tallies pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  by_cases h : t.val % 64 = 0
  · rw [acc_reset V c t h]
    iintro ⟨HΦ, Ho, ⟨%d0, H0⟩, ⟨%d1, H1⟩, ⟨%d2, H2⟩⟩
    iapply (run_reset c (grid1.coords t) (m0 t) (hm0 t) (m1 t) (hm1 t) (m2 t) (hm2 t) ((hcond1 t).mpr h)
      (rowsB V c t) (rowsB' V c t) ((dat V c).before 2 t d2) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · rw [acc_step V c t h]
    simp only [before_2 V c t h]
    iintro ⟨HΦ, Ho, ⟨%d0, H0⟩, ⟨%d1, H1⟩, ⟨%d2, H2⟩⟩
    iapply (run_step c (grid1.coords t) (m0 t) (hm0 t) (m1 t) (hm1 t) (m2 t) (hm2 t) (fun hc => h ((hcond1 t).mp hc))
      (rowsB V c t) (rowsB' V c t) (acc V c (t.val - 1) (Nat.lt_of_le_of_lt (Nat.sub_le _ _) t.isLt)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- THE BODY OBLIGATION of the pairwise region, at every point. -/
theorem body_obligation (c : Dev nD) :
    BodyObligation (dat (F := F) V c) (defs₀ (F := F)) Variants.none () Set.univ := by
  intro t
  rw [bigSep_W1, bigSep_W1]
  exact sound_body V c t

end Cert.KernelIdeal.Pw

end
-- ==== Proof.Boundaries.lean ====
/-
# The buffers' contents between the items of @main

@main is: three host operations (the permutation of `T`'s columns: reshape, transpose, reshape), the projection
region, one host operation (the reshape of the projection to rows x kernel coordinates x features), the pairwise
region, one host operation (the concatenation of `x` and the features). `WJ c` is what core `c`'s unscoped buffers hold
after item J-1, from the launch memory `m`: a host stretch applies its operations; a region leaves its output array
at what its write-backs leave and everything else as it found it.
-/
import proofs.«180718_j58179626991726_1_alg».proof.Proof.MatmulRegion
import proofs.«180718_j58179626991726_1_alg».proof.Proof.PairwiseRegion
import Idealize.ShloMosaic.Lib.Pipeline.FrameSuffix
import Idealize.ShloMosaic.Lib.Pipeline.Value
import Idealize.ShloMosaic.Lib.ValueIdx
import Idealize.ShloMosaic.Lib.ValueLayout
import Idealize.ShloMosaic.Lib.StableHlo.Run
import proofs.«180718_j58179626991726_1_alg».proof.Proof.Gen.KernelIdeal.Regions

set_option maxRecDepth 16384

noncomputable section

namespace Cert.KernelIdeal.Run

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- Core `c`'s unscoped buffers at launch. -/
abbrev W0 (c : Dev nD) : Valuation τ sig (Elt F) := fun b => m (c, b)
/-- After the permutation of `T`'s columns (the projection region's entry). -/
abbrev W1 (c : Dev nD) : Valuation τ sig (Elt F) := StableHlo.after hostOps0 (W0 m c)
/-- The same read at the TensorCore's references. -/
abbrev V1 (c : Dev nD) (b : Ref sig .tc) : Buf (Elt F) ((c : Thread nD τ).loc b) := W1 m c b
/-- At the projection region's exit: its arrays at what the pipeline leaves (the inputs as entered, the output's
    write-backs folded), every other buffer as entered. -/
def W2 (c : Dev nD) : Valuation τ sig (Elt F) :=
  Pipeline.withArrays spec0 c (W1 m c) fun w => (Mm.dat (V1 m) c).arrAt w cfg0.N
abbrev V2 (c : Dev nD) (b : Ref sig .tc) : Buf (Elt F) ((c : Thread nD τ).loc b) := W2 m c b
/-- After the reshape of the projection (the pairwise region's entry). -/
abbrev W3 (c : Dev nD) : Valuation τ sig (Elt F) := StableHlo.after hostOps1 (W2 m c)
abbrev V3 (c : Dev nD) (b : Ref sig .tc) : Buf (Elt F) ((c : Thread nD τ).loc b) := W3 m c b
/-- At the pairwise region's exit: its output array `main_v5` at what its write-backs leave, every other buffer as
    entered (its two input windows read one array, which no write-back touches). -/
def W4 (c : Dev nD) : Valuation τ sig (Elt F) :=
  Function.update (W3 m c) (Proc.devRef .tc main_v5) ((Pw.dat (V3 m) c).arrAt 2 cfg1.N)
abbrev V4 (c : Dev nD) (b : Ref sig .tc) : Buf (Elt F) ((c : Thread nD τ).loc b) := W4 m c b
/-- After the concatenation: the end of @main. -/
abbrev W5 (c : Dev nD) : Valuation τ sig (Elt F) := StableHlo.after hostOps2 (W4 m c)

/-! ## The regions' exits -/

theorem W2_arr (c : Dev nD) (w : Fin cfg0.W) :
    W2 m c (Proc.devRef .tc (Pipeline.arrRef spec0 w)) = (Mm.dat (V1 m) c).arrAt w cfg0.N := by
  unfold W2
  exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2
  exact Pipeline.withArrays_of_ne spec0 c _ _ b hb
theorem W4_v5 (c : Dev nD) : W4 m c (Proc.devRef .tc main_v5) = (Pw.dat (V3 m) c).arrAt 2 cfg1.N := by
  unfold W4
  exact Function.update_self _ _ _
theorem W4_of_ne (c : Dev nD) (b : Ref sig .tc) (hb : b ≠ main_v5) :
    W4 m c (Proc.devRef .tc b) = W3 m c (Proc.devRef .tc b) := by
  unfold W4
  exact Function.update_of_ne (StableHlo.devRef_ne_of_ne hb) _ _

/-! ## The arguments end as launched -/

theorem W5_main_arg0 (c : Dev nD) : W5 m c (Proc.devRef .tc main_arg0) = m ((c : Thread nD τ).loc main_arg0) := by
  refine (StableHlo.after_of_writes_sub hostOps2 (W4 m c) hostOps2_writes (by decide : main_arg0 ∉ hostOps2_W)).trans ?_
  refine (W4_of_ne m c main_arg0 (by decide)).trans ?_
  refine (StableHlo.after_of_writes_sub hostOps1 (W2 m c) hostOps1_writes (by decide : main_arg0 ∉ hostOps1_W)).trans ?_
  refine (W2_arr m c 0).trans ?_
  rw [Dat.arrAt_in _ 0 (by decide), Mm.A_eq]
  exact StableHlo.after_of_writes_sub hostOps0 (W0 m c) hostOps0_writes (by decide : main_arg0 ∉ hostOps0_W)
theorem W5_main_arg1 (c : Dev nD) : W5 m c (Proc.devRef .tc main_arg1) = m ((c : Thread nD τ).loc main_arg1) := by
  refine (StableHlo.after_of_writes_sub hostOps2 (W4 m c) hostOps2_writes (by decide : main_arg1 ∉ hostOps2_W)).trans ?_
  refine (W4_of_ne m c main_arg1 (by decide)).trans ?_
  refine (StableHlo.after_of_writes_sub hostOps1 (W2 m c) hostOps1_writes (by decide : main_arg1 ∉ hostOps1_W)).trans ?_
  refine (W2_of_ne m c main_arg1 (by decide)).trans ?_
  exact StableHlo.after_of_writes_sub hostOps0 (W0 m c) hostOps0_writes (by decide : main_arg1 ∉ hostOps0_W)

/-! ## What the host operations compute, read at an index -/

/-- The launch contents of the two arguments, as functions of their literal index types. -/
abbrev xArr (c : Dev nD) : S512x2048.Idx → Elt F .f32 := m ((c : Thread nD τ).loc main_arg0)
abbrev tArr (c : Dev nD) : S2048x1024.Idx → Elt F .f32 := m ((c : Thread nD τ).loc main_arg1)
/-- The projection region's operands and result, the pairwise region's operand and result, and the final array. -/
abbrev lhs1 (c : Dev nD) : S512x2048.Idx → Elt F .f32 := V1 m c main_arg0
abbrev rhs1 (c : Dev nD) : S2048x1024.Idx → Elt F .f32 := V1 m c main_v2
abbrev out2 (c : Dev nD) : S512x1024.Idx → Elt F .f32 := (Mm.dat (V1 m) c).arrAt 2 cfg0.N
abbrev in3 (c : Dev nD) : S512x16x64.Idx → Elt F .f32 := V3 m c main_v4
abbrev out4 (c : Dev nD) : S512x64.Idx → Elt F .f32 := (Pw.dat (V3 m) c).arrAt 2 cfg1.N
abbrev res5 (c : Dev nD) : S512x2112.Idx → Elt F .f32 := W5 m c (Proc.devRef .tc main_v6)

/-- The projection region finds `x` as launched, -/
theorem lhs1_eq (c : Dev nD) : lhs1 m c = xArr m c := by
  exact StableHlo.after_of_writes_sub hostOps0 (W0 m c) hostOps0_writes (by decide : main_arg0 ∉ hostOps0_W)

/-- The second operand as the three host operations build it from `T`: read as 2048 x 64 x 16, the last two axes
    exchanged, read back as 2048 x 1024. -/
theorem rhs1_eq (c : Dev nD) :
    rhs1 m c = shapeCast S2048x1024 (transpose S2048x16x64 [0, 2, 1] (shapeCast S2048x64x16 (tArr m c) shapeCasts_S2048x1024_S2048x64x16)
      transposes_S2048x64x16_S2048x16x64_0_2_1) shapeCasts_S2048x16x64_S2048x1024 := by
  show StableHlo.after hostOps0 (W0 m c) (Proc.devRef .tc main_v2) = _
  after_results
  rfl

/-- and `T` with its columns permuted: column `64 k + o` of the operand is column `16 o + k` of `T`. -/
theorem rhs1_apply (c : Dev nD) (d : Fin 2048) (k : Fin 16) (o : Fin 64) :
    rhs1 m c (ix2 d (⟨64 * k.val + o.val, by omega⟩ : Fin 1024)) = tArr m c (ix2 d (⟨16 * o.val + k.val, by omega⟩ : Fin 1024)) := by
  rw [rhs1_eq]
  -- row-major position `d * 1024 + (64 k + o)` of the 2048 x 1024 array is position `(d * 16 + k) * 64 + o` of the 2048 x 16 x 64 one
  refine (shapeCast_apply _ shapeCasts_S2048x16x64_S2048x1024 _ (ix3 d k o) ?_).trans ?_
  · rw [Shape.rowMajor_val_three, Shape.rowMajor_val_two]
    show (d.val * 16 + k.val) * 64 + o.val = d.val * 1024 + (64 * k.val + o.val)
    omega
  -- the exchange of the last two axes
  refine (transpose_ix3_021_apply _ transposes_S2048x64x16_S2048x16x64_0_2_1 d k o).trans ?_
  -- position `(d * 64 + o) * 16 + k` of the 2048 x 64 x 16 array is position `d * 1024 + (16 o + k)` of `T`
  refine shapeCast_apply _ shapeCasts_S2048x1024_S2048x64x16 _ _ ?_
  rw [Shape.rowMajor_val_two, Shape.rowMajor_val_three]
  show d.val * 1024 + (16 * o.val + k.val) = (d.val * 64 + o.val) * 16 + k.val
  omega

/-- The pairwise region's operand as the host operation builds it: what the projection region left, read as
    512 x 16 x 64. -/
theorem in3_eq (c : Dev nD) : in3 m c = shapeCast S512x16x64 (out2 m c) shapeCasts_S512x1024_S512x16x64 := by
  show StableHlo.after hostOps1 (W2 m c) (Proc.devRef .tc main_v4) = _
  after_results
  have h : W2 m c (Proc.devRef .tc main_v3) = out2 m c := W2_arr m c 2
  rw [h]
  rfl

/-- The pairwise region finds the projection reshaped: entry `(b, k, o)` is entry `(b, 64 k + o)` of what the
    projection region left. -/
theorem in3_apply (c : Dev nD) (b : Fin 512) (k : Fin 16) (o : Fin 64) :
    in3 m c (ix3 b k o) = out2 m c (ix2 b (⟨64 * k.val + o.val, by omega⟩ : Fin 1024)) := by
  rw [in3_eq]
  refine shapeCast_apply _ shapeCasts_S512x1024_S512x16x64 _ _ ?_
  rw [Shape.rowMajor_val_two, Shape.rowMajor_val_three]
  show b.val * 1024 + (64 * k.val + o.val) = (b.val * 16 + k.val) * 64 + o.val
  omega

/-- The final array is `x` as launched with the pairwise region's result appended along the columns. -/
theorem res5_eq (c : Dev nD) :
    res5 m c = concatenate S512x2112 1 [⟨S512x2048, xArr m c⟩, ⟨S512x64, out4 m c⟩] concatenates_S512x2048_S512x64_S512x2112_d1 := by
  show StableHlo.after hostOps2 (W4 m c) (Proc.devRef .tc main_v6) = _
  after_results
  rw [W4_v5, W4_of_ne m c main_arg0 (by decide)]
  have hx : W3 m c (Proc.devRef .tc main_arg0) = xArr m c := by
    refine (StableHlo.after_of_writes_sub hostOps1 (W2 m c) hostOps1_writes (by decide : main_arg0 ∉ hostOps1_W)).trans ?_
    refine (W2_arr m c 0).trans ?_
    rw [Dat.arrAt_in _ 0 (by decide), Mm.A_eq]
    exact StableHlo.after_of_writes_sub hostOps0 (W0 m c) hostOps0_writes (by decide : main_arg0 ∉ hostOps0_W)
  rw [hx]

end Cert.KernelIdeal.Run

end
-- ==== Proof.SharedArray.lean ====
/-
# One array behind two windows: the pairwise region's entry and exit

The pairwise region reads ONE array, the reshaped projection `main_v4`, through two input windows. At the region's
entry the core's unscoped buffers, each whole at its contents, are sorted into the region's arrays — `main_v4` held
once per window, at the two halves of the full share, and the output array `main_v5` at the full share — and the
rest; at its exit the two halves are joined again (neither window writes: both still hold the entry contents) and
the output array is put back at what the region's write-backs left.
-/
import proofs.«180718_j58179626991726_1_alg».proof.Proof.Boundaries
import Idealize.ShloMosaic.Lib.Pipeline.RegionsLoop

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The three windows, read as points-to facts on the two buffers -/

/-- The pairwise region's windows stand on two buffers: the reshaped projection and the feature array. -/
theorem arrRef_image : (Finset.univ.image (Pipeline.arrRef spec1) : Finset (Ref sig .tc)) = {main_v4, main_v5} := by decide

/-- Window 0 holds the whole reshaped projection, as the region found it, at the left half of the full share. -/
theorem win0_eq (c : Dev nD) (n : ℕ) :
    ((cfg1.win 0).arr.view.loc (c.tc : Thread nD τ) ↦[(cfg1.win 0).arr.view.set]{(Pw.dat (V3 m) c).share 0} (Pw.dat (V3 m) c).arrAt 0 n : sProp 𝕄)
      = ((c : Thread nD τ).loc main_v4 ↦{fullShare.left} V3 m c main_v4) := by
  rw [(arr_whole1 0).set_eq_univ, (Pw.dat (V3 m) c).arrAt_in 0 rfl n]; rfl

/-- Window 1 holds the same buffer at the same contents, at the right half. -/
theorem win1_eq (c : Dev nD) (n : ℕ) :
    ((cfg1.win 1).arr.view.loc (c.tc : Thread nD τ) ↦[(cfg1.win 1).arr.view.set]{(Pw.dat (V3 m) c).share 1} (Pw.dat (V3 m) c).arrAt 1 n : sProp 𝕄)
      = ((c : Thread nD τ).loc main_v4 ↦{fullShare.right} V3 m c main_v4) := by
  rw [(arr_whole1 1).set_eq_univ, (Pw.dat (V3 m) c).arrAt_in 1 rfl n]; rfl

/-- Window 2, the output, holds the whole feature array at the full share. -/
theorem win2_eq (c : Dev nD) (n : ℕ) :
    ((cfg1.win 2).arr.view.loc (c.tc : Thread nD τ) ↦[(cfg1.win 2).arr.view.set]{(Pw.dat (V3 m) c).share 2} (Pw.dat (V3 m) c).arrAt 2 n : sProp 𝕄)
      = ((c : Thread nD τ).loc main_v5 ↦{fullShare} (Pw.dat (V3 m) c).arrAt 2 n) := by
  rw [(arr_whole1 2).set_eq_univ]; rfl

/-! ## Entry and exit -/

/-- ENTRY: every unscoped buffer at the pairwise region's entry contents is the region's arrays at the proof data's
    entry contents (the shared array split between its two windows) and the unscoped rest. -/
theorem entry1 (c : Dev nD) :
    (StableHlo.held (c : Thread nD τ) (Pipeline.ucRefs τ sig) (W3 m c) : sProp 𝕄)
      ⊢ iprop((Pw.dat (V3 m) c).arrays ((Pw.dat (V3 m) c).arrAt · 0)
          ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c)]
  rw [Pipeline.unscopedBufs_split₀ cfgs 1 winFacts₀1.arr_unscoped c]
  -- the unscoped buffers are the two buffers behind the windows and the rest; the rest is kept as it is
  refine sep_mono ?_ .rfl
  unfold Pipeline.arrBufs Dat.arrays
  rw [bigSep_W1, show Finset.univ.image (Pipeline.arrRef (cfgs 1).spec) = {main_v4, main_v5} from arrRef_image,
    bigSep_insert (by decide), bigSep_singleton]
  beta_reduce
  rw [win0_eq, win1_eq, win2_eq]
  -- the full share of the shared buffer is the composite of its two halves; the output buffer goes over whole
  refine (show iprop(((c : Thread nD τ).loc main_v4 ↦{fullShare} V3 m c main_v4)
      ∗ ((c : Thread nD τ).loc main_v5 ↦{fullShare} V3 m c main_v5)) ⊢ _ from ?_)
  iintro ⟨H4, H5⟩
  ihave H := (pointsTo_share (PosShare.mem_left_op_right fullShare)).1 $$ H4
  icases H with ⟨Hl, Hr⟩
  isplitl [Hl]; · iexact Hl
  isplitl [Hr]; · iexact Hr
  iexact H5

/-- EXIT: the region's arrays at their final contents and the unscoped rest are every unscoped buffer at the exit
    contents `W4` (the output array updated, everything else as entered). -/
theorem exit1 (c : Dev nD) :
    iprop((Pw.dat (V3 m) c).arrays ((Pw.dat (V3 m) c).arrAt · cfg1.N)
          ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c)]
  rw [Pipeline.unscopedBufs_split₀ cfgs 1 winFacts₀1.arr_unscoped c]
  refine sep_mono ?_ (Entails.of_eq ?_)
  · -- the two halves of the shared buffer, both at the entry contents, compose to the full share; the output buffer
    -- holds what the exit valuation has there
    unfold Pipeline.arrBufs Dat.arrays
    rw [bigSep_W1, show Finset.univ.image (Pipeline.arrRef (cfgs 1).spec) = {main_v4, main_v5} from arrRef_image,
      bigSep_insert (by decide), bigSep_singleton]
    beta_reduce
    rw [win0_eq, win1_eq, win2_eq, W4_v5, W4_of_ne m c main_v4 (by decide)]
    refine (show _ ⊢ iprop(((c : Thread nD τ).loc main_v4 ↦{fullShare} V3 m c main_v4)
        ∗ ((c : Thread nD τ).loc main_v5 ↦{fullShare} (Pw.dat (V3 m) c).arrAt 2 cfg1.N)) from ?_)
    iintro ⟨Hl, Hr, H5⟩
    isplitr [H5]
    · iapply (pointsTo_share (PosShare.mem_left_op_right fullShare)).2
      isplitl [Hl]; · iexact Hl
      iexact Hr
    · iexact H5
  · -- off the two buffers the exit valuation is the entry valuation
    unfold Pipeline.unscopedRest
    refine bigSep_congr fun b hb => ?_
    have hb' : b ≠ main_v5 := fun h => (Finset.mem_sdiff.mp hb).2 (by rw [arrRef_image, h]; decide)
    beta_reduce
    rw [W4_of_ne m c b hb']

end Cert.KernelIdeal.Run

end
-- ==== Proof.Run.lean ====
/-
# The run of @main: five segments, two of them kernel regions

Each weakly fair execution of @main terminates, and the final memory holds every unscoped buffer at the last
boundary's contents `W5`: in particular the result array at `W5`'s and the two arguments as launched. The segments:
the permutation of `T`'s columns, the projection region, the reshape of the projection, the pairwise region, the
concatenation. Between two segments a core holds every unscoped buffer at that boundary's contents, its generator
register at some state, and owes nothing. A region splits its arrays out of the unscoped buffers at its entry and
puts them back at the exit contents; the pairwise region's two input windows share one array, held at two half shares.
-/
import proofs.«180718_j58179626991726_1_alg».proof.Proof.Boundaries
import proofs.«180718_j58179626991726_1_alg».proof.Proof.SharedArray
import proofs.«180718_j58179626991726_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both pipelines, and what rides beside the buffers -/

/-- Both pipelines' proof data, each at its region's entry contents (a literal match on the pipeline's index). -/
def pdats : (p : Fin 2) → (c : Dev nD) → Dat τ (Elt F) Unit ℕ (UR sig nD τ) ℕ (Pipeline.pin (pcfgs (F := F)) adm p) c
  | ⟨0, _⟩ => fun c => Mm.dat (V1 m) c
  | ⟨1, _⟩ => fun c => Pw.dat (V3 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W5 m c) ∗ ∃ r, prngReg c r)

/-! ## The projection region's exit contents -/

theorem hF0 (c : Dev nD) (w : Fin cfg0.W) : (Mm.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-! ## The regions as segments -/

set_option backward.isDefEq.respectTransparency.types false in
/-- The projection region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mm.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
          ∗ Pipeline.scopedRest (Pipeline.pin (pcfgs (F := F)) adm 0).spec c)
        ⊢ (Pipeline.ΦA spec0 c : sProp 𝕄) := by
      unfold Pipeline.ΦA
      iintro ⟨Hp, -, Hr⟩
      isplitl [Hr]; · iexact Hr
      iexact Hp
    exact h.trans (Mm.hin (V1 m) c)
  hout c := by
    rw [Pipeline.ownSems0_none]
    have h : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (Mm.hout (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise region: entered from every unscoped buffer at `W3`, left at `W4`; its two input windows hold their
    one array at the two halves of the full share (`entry1`, `exit1`). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Pw.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0)
          ∗ Pipeline.unscopedRest (Ix := Unit) (Name := ℕ) (U := UR sig nD τ) (Lvl := ℕ) spec1 c (V3 m c)) := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V3 m c))
        ⊢ (StableHlo.held (c : Thread nD τ) (Pipeline.ucRefs τ sig) (W4 m c) : sProp 𝕄) := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory has the result array at the last boundary's contents and the two arguments as launched. -/
theorem run_main : θ_run defs (onTc (τ := τ) (main (F := F))) ⟨m, fun _ => 0, ρ⟩ (fun r => ∀ c : Dev nD,
      r.2.mem ((c.tc : Thread nD τ).loc main_v6) = W5 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v6 (by decide)),
       (h c _ (mem_uc main_arg0 (by decide))).trans (W5_main_arg0 m c),
       (h c _ (mem_uc main_arg1 (by decide))).trans (W5_main_arg1 m c)⟩)

end Cert.KernelIdeal.Run

end
-- ==== Proof.BitsMatmulRegion.lean ====
/-
# The projection region: `x @ T'` accumulated over four blocks of the contracted axis

The grid is 4 x 4, point `t = 4 i + k`: row block `i` (128 rows of `x`), block `k` (512 of the 2048
contracted coordinates). The body keeps a 128 x 1024 accumulator in a scratch buffer across the four points of a
row block: at `k = 0` it is reset to zero, at every point the product of the two blocks is added to it, and at
`k = 3` it is copied into the output block, which is written back there; at the other points the output's
staging buffer is left as it was found.

This module fixes WHAT each buffer holds between points (`acc`, the proof data `dat`, the invariant `PhiM`) and
states the body obligation; the values are read elsewhere.
-/
import proofs.«180718_j58179626991726_1_alg».proof.Proof.Gen.Kernel.Launch
import proofs.«180718_j58179626991726_1_alg».proof.Proof.Gen.Kernel.Skeleton
import proofs.«180718_j58179626991726_1_alg».proof.Proof.Gen.Kernel.Points
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions and the output window's idle table, in closed form over the grid -/

/-- The condition of the first `scf.if` (the reset), from the grid coordinates. -/
abbrev cond1 (i : grid0.Coords) : Prop :=
  (Scalar.cmpi .ne (Scalar.extui (Scalar.cmpi .eq (BitVec.ofNat 32 (i 1).val) 0#32)) 0#32) = 1#1
/-- It holds exactly at the first point of a row block. -/
theorem hcond1 : ∀ t : Fin cfg0.N, cond1 (grid0.coords t) ↔ t.val % 4 = 0 :=
  (by decide +kernel : ∀ t : Fin grid0.N, cond1 (grid0.coords t) ↔ t.val % 4 = 0)

/-- The condition of the second `scf.if` (the copy into the output block). -/
abbrev cond2 (i : grid0.Coords) : Prop := k0_cond2 i = 1#1
/-- It holds exactly at the last point of a row block. -/
theorem hcond2 : ∀ t : Fin cfg0.N, cond2 (grid0.coords t) ↔ t.val % 4 = 3 :=
  (by decide +kernel : ∀ t : Fin grid0.N, cond2 (grid0.coords t) ↔ t.val % 4 = 3)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- The output window is idle away from the last point of a row block, and is not written back there; -/
theorem idle2 : ∀ t : Fin cfg0.N, t.val % 4 ≠ 3 → cfg0.idle 2 (grid0.coords t) = true :=
  (by decide +kernel : ∀ t : Fin grid0.N, t.val % 4 ≠ 3 → idle0 2 (grid0.coords t) = true)
theorem noFlush2 (t : Fin cfg0.N) (h : t.val % 4 ≠ 3) : (cfg0.win 2).flush t = false := by
  cases hf : (cfg0.win 2).flush t
  · rfl
  · exact absurd ((flush0_2 t).mp hf) h
/-- at the last point of a row block it is live. -/
theorem live2 : ∀ t : Fin cfg0.N, t.val % 4 = 3 → cfg0.idle 2 (grid0.coords t) = false :=
  (by decide +kernel : ∀ t : Fin grid0.N, t.val % 4 = 3 → idle0 2 (grid0.coords t) = false)

/- The region is stated at a PARAMETER: the contents of the core's unscoped buffers when the region is entered. -/
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 128 x 512 block of `x` at point `t` (rows of block `i`, contracted coordinates of block `k`). -/
abbrev xblk (c : Dev nD) (t : Fin cfg0.N) : Vec F S128x512 .f32 := blk V c 0 t
/-- The 512 x 1024 block of the permuted `T` at point `t` (contracted coordinates of block `k`, every column). -/
abbrev wblk (c : Dev nD) (t : Fin cfg0.N) : Vec F S512x1024 .f32 := blk V c 1 t

/-- THE ACCUMULATOR after the body at point `n`: the point's product added to what the point before left, or to
    zero at the first point of a row block (`n ≡ 0 mod 4`). -/
def acc (c : Dev nD) : (n : ℕ) → n < cfg0.N → Vec F S128x1024 .f32
  | 0, h => k0_pay2 (xblk V c ⟨0, h⟩) (wblk V c ⟨0, h⟩) (k0_pay1 (F := F))
  | n + 1, h => k0_pay2 (xblk V c ⟨n + 1, h⟩) (wblk V c ⟨n + 1, h⟩)
      (if (n + 1) % 4 = 0 then k0_pay1 (F := F) else acc c n (Nat.lt_of_succ_lt h))

theorem acc_reset (c : Dev nD) (t : Fin cfg0.N) (h : t.val % 4 = 0) :
    acc V c t.val t.isLt = k0_pay2 (xblk V c t) (wblk V c t) (k0_pay1 (F := F)) := by
  obtain ⟨n, hn⟩ := t
  cases n with
  | zero => rfl
  | succ n =>
    show k0_pay2 _ _ (if (n + 1) % 4 = 0 then k0_pay1 (F := F) else acc V c n _) = _
    rw [if_pos h]

theorem acc_step (c : Dev nD) (t : Fin cfg0.N) (h : t.val % 4 ≠ 0) :
    acc V c t.val t.isLt = k0_pay2 (xblk V c t) (wblk V c t)
      (acc V c (t.val - 1) (Nat.lt_of_le_of_lt (Nat.sub_le _ _) t.isLt)) := by
  obtain ⟨n, hn⟩ := t
  cases n with
  | zero => exact absurd (Nat.zero_mod 4) h
  | succ n =>
    show k0_pay2 _ _ (if (n + 1) % 4 = 0 then k0_pay1 (F := F) else acc V c n _) = _
    rw [if_neg h]; rfl

/-- The accumulator's buffer. -/
abbrev scM : Memref sig .tc .vmem S128x1024 .f32 := Memref.whole cc0_scratch0

/-- The scoped buffers this region does not use (the other region's staging buffers), each whole at some contents. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's entry invariant (the scoped rest and the generator register) with the accumulator's buffer named. -/
theorem PhiA_eq (c : Dev nD) :
    (Pipeline.ΦA spec0 c : sProp 𝕄)
      = iprop(((∃ d, owns (c : Thread nD τ) scM fullShare d) ∗ otherScoped (F := F) c) ∗ (∃ r, prngReg c r)) := by
  unfold Pipeline.ΦA otherScoped; rw [scopedRest0_eq]; simp only [scM, owns_whole]; try rfl

/-- The invariant before position `n`: before the first point the entry invariant; afterwards the accumulator's
    buffer at what the point before left, the unused scoped buffers at anything, the generator register at some state. -/
def PhiM (c : Dev nD) : (n : ℕ) → n ≤ cfg0.N → sProp 𝕄
  | 0, _ => Pipeline.ΦA spec0 c
  | n + 1, hn => iprop((owns (c : Thread nD τ) scM fullShare (acc V c n hn) ∗ otherScoped (F := F) c) ∗ (∃ r, prngReg c r))

/-- Before the first point the invariant is the entry invariant. -/
theorem PhiM_zero (c : Dev nD) (n : ℕ) (h : n ≤ cfg0.N) (hz : n = 0) : PhiM V c n h = Pipeline.ΦA spec0 c := by
  subst hz; rfl

/-- After point `n`: the accumulator's buffer at that point's contents. -/
theorem PhiM_succ (c : Dev nD) (n : ℕ) (hn : n < cfg0.N) :
    PhiM V c (n + 1) hn
      = iprop((owns (c : Thread nD τ) scM fullShare (acc V c n hn) ∗ otherScoped (F := F) c) ∗ (∃ r, prngReg c r)) := rfl

/-- Before a point that is not the first: the accumulator's buffer at what the point before left. -/
theorem PhiM_pos (c : Dev nD) (n : ℕ) (h : n ≤ cfg0.N) (hz : n ≠ 0) :
    PhiM V c n h
      = iprop((owns (c : Thread nD τ) scM fullShare (acc V c (n - 1) (by omega)) ∗ otherScoped (F := F) c) ∗ (∃ r, prngReg c r)) := by
  cases n with
  | zero => exact absurd rfl hz
  | succ n => rfl

/-- At any position the invariant yields the accumulator's buffer at SOME contents — all a reset needs of it, and
    all the region's exit keeps of it. -/
theorem PhiM_forget (c : Dev nD) (n : ℕ) (h : n ≤ cfg0.N) :
    PhiM V c n h
      ⊢ iprop(((∃ s, owns (c : Thread nD τ) scM fullShare s) ∗ otherScoped (F := F) c) ∗ (∃ r, prngReg c r)) := by
  cases n with
  | zero => rw [PhiM_zero V c 0 h rfl, PhiA_eq]
  | succ n =>
    rw [PhiM_succ]
    iintro ⟨⟨HS, Hoth⟩, Hg⟩
    isplitl [HS Hoth]
    · isplitl [HS]
      · iexists _; iexact HS
      iexact Hoth
    iexact Hg

/-- The proof data of the projection region on core `c`: the arrays as the region finds them; after the body each
    input's buffer at its block, the output's at the accumulator (consulted only where the body stores it:
    `k = 3`); the invariant `PhiM`; full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => acc V c t.val t.isLt
  Φ t := PhiM V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = acc V c t.val t.isLt := by dsimp only [dat]

/-! ## The kernel function on arbitrary whole memrefs, one triple per control case

The buffers' contents are variables; what the accumulator's buffer holds afterwards is named by the payloads. A
whole-buffer store read back through the whole-buffer rectangle is the stored value, and a whole-buffer load of a
buffer reads its contents. -/

/-- The zero offsets of a whole-buffer rectangle of rank two. -/
theorem zeroOffsets : (![0, 0] : Fin 2 → ℕ) = fun _ => 0 := by
  funext a; fin_cases a <;> rfl

set_option maxHeartbeats 1000000 in
/-- Neither the reset nor the copy: the accumulator `s` becomes `s` plus the product of the two blocks. The
    output's buffer is not touched (the caller keeps it). -/
theorem run_step (c : Dev nD) (i : grid0.Coords)
    (a2 : Memref sig .tc .vmem S128x512 .f32) (ha2 : a2.IsWhole)
    (a3 : Memref sig .tc .vmem S512x1024 .f32) (ha3 : a3.IsWhole)
    (a4 : Memref sig .tc .vmem S128x1024 .f32) (ha4 : a4.IsWhole)
    (a5 : Memref sig .tc .vmem S128x1024 .f32) (ha5 : a5.IsWhole)
    (hc1 : ¬cond1 i) (hc2 : ¬cond2 i)
    (x : Vec F S128x512 .f32) (w : Vec F S512x1024 .f32) (s : Vec F S128x1024 .f32)
    (E : Set ℕ) (K : PUnit → sProp 𝕄) :
    iprop(owns (c : Thread nD τ) a2 fullShare x ∗ owns (c : Thread nD τ) a3 fullShare w
        ∗ owns (c : Thread nD τ) a5 fullShare s
        ∗ (iprop(owns (c : Thread nD τ) a2 fullShare x ∗ owns (c : Thread nD τ) a3 fullShare w
            ∗ owns (c : Thread nD τ) a5 fullShare (k0_pay2 x w s)) -∗ K ⟨⟩))
      ⊢ wp frame (wpE (defs₀ (F := F)) Variants.none c none) E (cc0__matmul_kernel i a2 ha2 a3 ha3 a4 ha4 a5 ha5) K := by
  simp only [cc0__matmul_kernel_eq_skeleton]; unfold cc0__matmul_kernel_skel
  unfold owns
  iintro ⟨⟨%f2, %hf2, H2⟩, ⟨%f3, %hf3, H3⟩, ⟨%f5, %hf5, H5⟩, Hk⟩
  obtain rfl := ha2.eq_unread hf2; obtain rfl := ha3.eq_unread hf3; obtain rfl := ha5.eq_unread hf5
  sl_exec (disch := first | exact hc1 | exact hc2)
  sl_step
  iapply Hk
  isplitl [H2]
  · iexists _; isplitr; · ipureintro; exact ha2.read_unread _
    iexact H2
  isplitl [H3]
  · iexists _; isplitr; · ipureintro; exact ha3.read_unread _
    iexact H3
  iexists _; isplitr
  swap; · iexact H5
  ipureintro
  rw [View.read_writes_eq_canon _ _ _ (fun y => ⟨_, List.mem_singleton_self _, View.mem_set_unit_zero zeroOffsets inb_S128x1024_S128x1024_0_0 y⟩),
    View.canon_unit_zero zeroOffsets]
  simp only [View.readAt_eq_ld, ha2.read_unread, ha3.read_unread, ha5.read_unread,
    View.ld_unit_zero (S := S128x512) zeroOffsets, View.ld_unit_zero (S := S512x1024) zeroOffsets, View.ld_unit_zero (S := S128x1024) zeroOffsets]

set_option maxHeartbeats 1000000 in
/-- The reset: whatever the accumulator's buffer held, it ends at zero plus the product of the two blocks (the zero
    stored first is what the load after it reads). The output's buffer is not touched. -/
theorem run_reset (c : Dev nD) (i : grid0.Coords)
    (a2 : Memref sig .tc .vmem S128x512 .f32) (ha2 : a2.IsWhole)
    (a3 : Memref sig .tc .vmem S512x1024 .f32) (ha3 : a3.IsWhole)
    (a4 : Memref sig .tc .vmem S128x1024 .f32) (ha4 : a4.IsWhole)
    (a5 : Memref sig .tc .vmem S128x1024 .f32) (ha5 : a5.IsWhole)
    (hc1 : cond1 i) (hc2 : ¬cond2 i)
    (x : Vec F S128x512 .f32) (w : Vec F S512x1024 .f32) (s : Vec F S128x1024 .f32)
    (E : Set ℕ) (K : PUnit → sProp 𝕄) :
    iprop(owns (c : Thread nD τ) a2 fullShare x ∗ owns (c : Thread nD τ) a3 fullShare w
        ∗ owns (c : Thread nD τ) a5 fullShare s
        ∗ (iprop(owns (c : Thread nD τ) a2 fullShare x ∗ owns (c : Thread nD τ) a3 fullShare w
            ∗ owns (c : Thread nD τ) a5 fullShare (k0_pay2 x w (k0_pay1 (F := F)))) -∗ K ⟨⟩))
      ⊢ wp frame (wpE (defs₀ (F := F)) Variants.none c none) E (cc0__matmul_kernel i a2 ha2 a3 ha3 a4 ha4 a5 ha5) K := by
  simp only [cc0__matmul_kernel_eq_skeleton]; unfold cc0__matmul_kernel_skel
  unfold owns
  iintro ⟨⟨%f2, %hf2, H2⟩, ⟨%f3, %hf3, H3⟩, ⟨%f5, %hf5, H5⟩, Hk⟩
  obtain rfl := ha2.eq_unread hf2; obtain rfl := ha3.eq_unread hf3; obtain rfl := ha5.eq_unread hf5
  sl_exec (disch := first | exact hc1 | exact hc2)
  sl_step
  iapply Hk
  isplitl [H2]
  · iexists _; isplitr; · ipureintro; exact ha2.read_unread _
    iexact H2
  isplitl [H3]
  · iexists _; isplitr; · ipureintro; exact ha3.read_unread _
    iexact H3
  iexists _; isplitr
  swap; · iexact H5
  ipureintro
  sl_unfold_words
  rw [View.read_writes_eq_canon _ _ _ (fun y => ⟨_, List.mem_cons.mpr (Or.inl rfl), View.mem_set_unit_zero zeroOffsets inb_S128x1024_S128x1024_0_0 y⟩),
    View.canon_cons_unit_zero (S := S128x1024) zeroOffsets]
  simp only [View.readAt_eq_ld, ha2.read_unread, ha3.read_unread,
    View.ld_unit_zero (S := S128x512) zeroOffsets, View.ld_unit_zero (S := S512x1024) zeroOffsets,
    View.readCov_unit_zero (S := S128x1024) _ zeroOffsets]

set_option maxHeartbeats 1000000 in
/-- The last point of a row block: the accumulator `s` becomes `s` plus the product of the two blocks, and the
    output's buffer, whatever it held, is overwritten whole with the accumulator's new contents. -/
theorem run_last (c : Dev nD) (i : grid0.Coords)
    (a2 : Memref sig .tc .vmem S128x512 .f32) (ha2 : a2.IsWhole)
    (a3 : Memref sig .tc .vmem S512x1024 .f32) (ha3 : a3.IsWhole)
    (a4 : Memref sig .tc .vmem S128x1024 .f32) (ha4 : a4.IsWhole)
    (a5 : Memref sig .tc .vmem S128x1024 .f32) (ha5 : a5.IsWhole)
    (hc1 : ¬cond1 i) (hc2 : cond2 i)
    (x : Vec F S128x512 .f32) (w : Vec F S512x1024 .f32) (s : Vec F S128x1024 .f32)
    (E : Set ℕ) (K : PUnit → sProp 𝕄) :
    iprop(owns (c : Thread nD τ) a2 fullShare x ∗ owns (c : Thread nD τ) a3 fullShare w
        ∗ (∃ o, owns (c : Thread nD τ) a4 fullShare o) ∗ owns (c : Thread nD τ) a5 fullShare s
        ∗ (iprop(owns (c : Thread nD τ) a2 fullShare x ∗ owns (c : Thread nD τ) a3 fullShare w
            ∗ owns (c : Thread nD τ) a4 fullShare (k0_pay2 x w s)
            ∗ owns (c : Thread nD τ) a5 fullShare (k0_pay2 x w s)) -∗ K ⟨⟩))
      ⊢ wp frame (wpE (defs₀ (F := F)) Variants.none c none) E (cc0__matmul_kernel i a2 ha2 a3 ha3 a4 ha4 a5 ha5) K := by
  simp only [cc0__matmul_kernel_eq_skeleton]; unfold cc0__matmul_kernel_skel
  unfold owns
  iintro ⟨⟨%f2, %hf2, H2⟩, ⟨%f3, %hf3, H3⟩, ⟨%o, %f4, %hf4, H4⟩, ⟨%f5, %hf5, H5⟩, Hk⟩
  obtain rfl := ha2.eq_unread hf2; obtain rfl := ha3.eq_unread hf3
  obtain rfl := ha4.eq_unread hf4; obtain rfl := ha5.eq_unread hf5
  sl_exec (disch := first | exact hc1 | exact hc2)
  sl_step
  iapply Hk
  isplitl [H2]
  · iexists _; isplitr; · ipureintro; exact ha2.read_unread _
    iexact H2
  isplitl [H3]
  · iexists _; isplitr; · ipureintro; exact ha3.read_unread _
    iexact H3
  isplitl [H4]
  · iexists _; isplitr
    swap; · iexact H4
    ipureintro
    sl_unfold_words
    rw [View.read_writes_eq_canon _ _ _ (fun y => ⟨_, List.mem_cons.mpr (Or.inl rfl), View.mem_set_unit_zero zeroOffsets inb_S128x1024_S128x1024_0_0 y⟩),
      View.canon_cons_unit_zero (S := S128x1024) zeroOffsets]
    simp only [View.readAt_eq_ld, ha2.read_unread, ha3.read_unread, ha5.read_unread,
      View.ld_unit_zero (S := S128x512) zeroOffsets, View.ld_unit_zero (S := S512x1024) zeroOffsets, View.ld_unit_zero (S := S128x1024) zeroOffsets,
      View.readCov_unit_zero (S := S128x1024) _ zeroOffsets]
  iexists _; isplitr
  swap; · iexact H5
  ipureintro
  sl_unfold_words
  rw [View.read_writes_eq_canon _ _ _ (fun y => ⟨_, List.mem_cons.mpr (Or.inl rfl), View.mem_set_unit_zero zeroOffsets inb_S128x1024_S128x1024_0_0 y⟩),
    View.canon_cons_unit_zero (S := S128x1024) zeroOffsets]
  simp only [View.readAt_eq_ld, ha2.read_unread, ha3.read_unread, ha5.read_unread,
    View.ld_unit_zero (S := S128x512) zeroOffsets, View.ld_unit_zero (S := S512x1024) zeroOffsets, View.ld_unit_zero (S := S128x1024) zeroOffsets]

/-! ## The body at a generic point -/

/-- Each window's current staging memref at point `t`, as the pipeline passes it, and its wholeness. -/
abbrev stg0 (t : Fin cfg0.N) : Memref sig .tc .vmem S128x512 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S512x1024 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S128x1024 .f32 := win0_2.stage (cfg0.slots t 2)
abbrev stg2_whole (t : Fin cfg0.N) : (stg2 t).IsWhole := hstage0_2 ((cfg0.slots t 2).cast nbuf0_2)

/-- An input's current staging buffer holds its block: it is fetched at every point, and the fetch of an uncut
    window fills the whole buffer. -/
theorem before_x (c : Dev nD) (t : Fin cfg0.N) (d) : (dat V c).before 0 t d = blk V c 0 t :=
  ((dat V c).before_fetched 0 t (fetch0_0 t) d).trans (by unfold Dat.fetched Dat.blockOf blk; rw [A_eq]; try rfl)
theorem before_w (c : Dev nD) (t : Fin cfg0.N) (d) : (dat V c).before 1 t d = blk V c 1 t :=
  ((dat V c).before_fetched 1 t (fetch0_1 t) d).trans (by unfold Dat.fetched Dat.blockOf blk; rw [A_eq]; try rfl)

/-- The invariant at a point's start, restated at `t.val`. -/
theorem PhiM_before (c : Dev nD) (t : Fin cfg0.N) :
    (dat V c).Φ t.castSucc = PhiM V c t.val (Nat.le_of_lt t.isLt) := rfl

/-- What the body is called with at point `t` (the body obligation's precondition, the windows one by one), -/
def callPre (c : Dev nD) (t : Fin cfg0.N) : sProp 𝕄 :=
  iprop((dat V c).Φ t.castSucc ∗ (dat V c).owesAt () t.castSucc
    ∗ (∃ d, owns (c : Thread nD τ) (stg0 t) fullShare ((dat V c).before 0 t d))
    ∗ (∃ d, owns (c : Thread nD τ) (stg1 t) fullShare ((dat V c).before 1 t d))
    ∗ (∃ d, owns (c : Thread nD τ) (stg2 t) fullShare ((dat V c).before 2 t d)))

/-- and what it returns. -/
def callPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. The inputs' buffers hold their blocks; the point's residue mod 4 says which control case
    it is in; the invariant hands the body the accumulator's buffer at what the point before left (at anything, at
    the very first point) and takes it back at this point's contents; away from the last point of a row block the
    output's buffer is handed back as found, at the last it is overwritten with the accumulator. -/
theorem body_at (c : Dev nD) (t : Fin cfg0.N) :
    callPre V c t ⊢ wp frame (wpE (defs₀ (F := F)) Variants.none c none) Set.univ (bodyAt0 t) (fun _ => callPost V c t) := by
  unfold callPre callPost bodyAt0
  simp only [before_x, before_w]
  rw [show (dat V c).owesAt () t.succ = (dat V c).owesAt () t.castSucc from rfl]
  rw [show (dat V c).Φ t.succ = PhiM V c (t.val + 1) t.isLt from rfl, PhiM_succ]
  rw [show (dat V c).leavesExact 0 t = owns (c : Thread nD τ) (stg0 t) fullShare ((dat V c).after 0 t) from by
    unfold Dat.leavesExact; rw [live0 t], after_0]
  rw [show (dat V c).leavesExact 1 t = owns (c : Thread nD τ) (stg1 t) fullShare ((dat V c).after 1 t) from by
    unfold Dat.leavesExact; rw [live1 t], after_1]
  have hN : t.val < 16 := lt_of_lt_of_eq t.isLt (show cfg0.N = 16 from N_0)
  by_cases h0 : t.val % 4 = 0
  · have h3 : t.val % 4 ≠ 3 := by omega
    rw [Dat.leavesExact_idle (dat V c) 2 t (idle2 t h3) (noFlush2 t h3)]
    rw [acc_reset V c t h0]
    rw [PhiM_before V c t]
    have hforget := PhiM_forget V c t.val (Nat.le_of_lt t.isLt)
    iintro ⟨HInv, Ho, ⟨%d0, H0⟩, ⟨%d1, H1⟩, ⟨%d2, H2⟩⟩
    ihave HW := hforget $$ HInv
    icases HW with ⟨⟨⟨%s, HS⟩, Hoth⟩, Hg⟩
    iapply (run_reset c (grid0.coords t) (stg0 t) (stg0_whole t) (stg1 t) (stg1_whole t) (stg2 t) (stg2_whole t) scM (Memref.isWhole_whole _)
      ((hcond1 t).mpr h0) (fun h => h3 ((hcond2 t).mp h)) (xblk V c t) (wblk V c t) s Set.univ _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hz : t.val ≠ 0 := fun e => h0 (by rw [e])
    rw [acc_step V c t h0, PhiM_before V c t, PhiM_pos V c _ _ hz]
    by_cases h3 : t.val % 4 = 3
    · rw [show (dat V c).leavesExact 2 t = owns (c : Thread nD τ) (stg2 t) fullShare ((dat V c).after 2 t) from by
        unfold Dat.leavesExact; rw [live2 t h3], after_2, acc_step V c t h0]
      iintro ⟨⟨⟨HS, Hoth⟩, Hg⟩, Ho, ⟨%d0, H0⟩, ⟨%d1, H1⟩, ⟨%d2, H2⟩⟩
      iapply (run_last c (grid0.coords t) (stg0 t) (stg0_whole t) (stg1 t) (stg1_whole t) (stg2 t) (stg2_whole t) scM (Memref.isWhole_whole _)
        (fun h => h0 ((hcond1 t).mp h)) ((hcond2 t).mpr h3) (xblk V c t) (wblk V c t)
        (acc V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat V c) 2 t (idle2 t h3) (noFlush2 t h3)]
      iintro ⟨⟨⟨HS, Hoth⟩, Hg⟩, Ho, ⟨%d0, H0⟩, ⟨%d1, H1⟩, ⟨%d2, H2⟩⟩
      iapply (run_step c (grid0.coords t) (stg0 t) (stg0_whole t) (stg1 t) (stg1_whole t) (stg2 t) (stg2_whole t) scM (Memref.isWhole_whole _)
        (fun h => h0 ((hcond1 t).mp h)) (fun h => h3 ((hcond2 t).mp h)) (xblk V c t) (wblk V c t)
        (acc V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- THE BODY OBLIGATION of the projection region, at every point. -/
theorem body_obligation (c : Dev nD) :
    BodyObligation (dat (F := F) V c) (defs₀ (F := F)) Variants.none () Set.univ := by
  intro t
  rw [bigSep_W0, bigSep_W0]
  exact body_at V c t

/-- What the launch hands the region is the invariant before the first point, -/
theorem hin (c : Dev nD) : (Pipeline.ΦA spec0 c : sProp 𝕄) ⊢ (dat V c).Φ 0 := by
  rw [show (dat V c).Φ 0 = PhiM V c 0 (Nat.zero_le _) from rfl, PhiM_zero V c 0 _ rfl]

/-- and after the last point the invariant gives it back (the accumulator's contents forgotten). -/
theorem hout (c : Dev nD) : (dat V c).Φ (Fin.last cfg0.N) ⊢ (Pipeline.ΦA spec0 c : sProp 𝕄) := by
  rw [show (dat V c).Φ (Fin.last cfg0.N) = PhiM V c (Fin.last cfg0.N).val (Nat.le_of_lt_succ (Fin.last cfg0.N).isLt) from rfl,
    PhiA_eq]
  exact PhiM_forget V c _ _

end Cert.Kernel.Mm

end
-- ==== Proof.BitsPairwiseRegion.lean ====
/-
# The pairwise region: `exp (-L1)` summed over the minibatch, eight rows at a time

The grid is 4 x 64, point `t = 64 i + j`: row block `i` (128 rows `b`), block `j` (8 rows `b'`). Both input
windows read ONE array, the projection as 512 x 16 x 64. The body accumulates in the OUTPUT block itself (128 x 64),
which stays in its staging buffer over the 64 points of a row block and is written back at `j = 63`: at `j = 0` it is
reset to zero, at every point the eight rows' terms are added.

This module fixes what each buffer holds between points (`acc`, the proof data `dat`) and states the body obligation.
-/
import proofs.«180718_j58179626991726_1_alg».proof.Proof.Gen.Kernel.Launch
import proofs.«180718_j58179626991726_1_alg».proof.Proof.Gen.Kernel.Skeleton
import proofs.«180718_j58179626991726_1_alg».proof.Proof.Gen.Kernel.Points
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.Kernel.Pw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/- The region is stated at a PARAMETER: the contents of the core's unscoped buffers when the region is entered. -/
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 128 rows `b` of the projection at point `t` (row block `i`). -/
abbrev rowsB (c : Dev nD) (t : Fin cfg1.N) : Vec F S128x16x64 .f32 := blk V c 0 t
/-- The 8 rows `b'` of the projection at point `t` (block `j`). -/
abbrev rowsB' (c : Dev nD) (t : Fin cfg1.N) : Vec F S8x16x64 .f32 := blk V c 1 t

/-- THE ACCUMULATOR (the output block) after the body at point `n`: the point's eight terms added to what the point
    before left, or to zero at the first point of a row block (`n ≡ 0 mod 64`). -/
def acc (c : Dev nD) : (n : ℕ) → n < cfg1.N → Vec F S128x64 .f32
  | 0, h => k1_pay2 (rowsB V c ⟨0, h⟩) (rowsB' V c ⟨0, h⟩) (k1_pay1 (F := F))
  | n + 1, h => k1_pay2 (rowsB V c ⟨n + 1, h⟩) (rowsB' V c ⟨n + 1, h⟩)
      (if (n + 1) % 64 = 0 then k1_pay1 (F := F) else acc c n (Nat.lt_of_succ_lt h))

theorem acc_reset (c : Dev nD) (t : Fin cfg1.N) (h : t.val % 64 = 0) :
    acc V c t.val t.isLt = k1_pay2 (rowsB V c t) (rowsB' V c t) (k1_pay1 (F := F)) := by
  obtain ⟨n, hn⟩ := t
  cases n with
  | zero => rfl
  | succ n =>
    show k1_pay2 _ _ (if (n + 1) % 64 = 0 then k1_pay1 (F := F) else acc V c n _) = _
    rw [if_pos h]

theorem acc_step (c : Dev nD) (t : Fin cfg1.N) (h : t.val % 64 ≠ 0) :
    acc V c t.val t.isLt = k1_pay2 (rowsB V c t) (rowsB' V c t)
      (acc V c (t.val - 1) (Nat.lt_of_le_of_lt (Nat.sub_le _ _) t.isLt)) := by
  obtain ⟨n, hn⟩ := t
  cases n with
  | zero => exact absurd (Nat.zero_mod 64) h
  | succ n =>
    show k1_pay2 _ _ (if (n + 1) % 64 = 0 then k1_pay1 (F := F) else acc V c n _) = _
    rw [if_neg h]
    rfl

/-- The proof data of the pairwise region on core `c`: the arrays as the region finds them; after the body each
    input's buffer at its block, the output's at the accumulator; the invariant the scoped rest and the generator
    register, untouched; the two input windows hold their ONE array at the two halves of the full share; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => acc V c t.val t.isLt
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = acc V c t.val t.isLt := by dsimp only [dat]

/-! ## The body on whole buffers, one triple per control case

The body has one branch, on the second grid coordinate being zero. Each triple is over ANY three whole buffers at
contents `x`, `w`, `s` and names what the output buffer ends with by the payloads. -/

/-- The body's branch condition, from the grid coordinates: the second coordinate is zero. -/
abbrev cond1 (i : grid1.Coords) : Prop :=
  (Scalar.cmpi .ne (Scalar.extui (Scalar.cmpi .eq (BitVec.ofNat 32 (i 1).val) 0#32)) 0#32) = 1#1

/-- Over the grid, point `t = 64 i + j`, it holds exactly where `j = 0`. -/
theorem hcond1 : ∀ t : Fin cfg1.N, cond1 (grid1.coords t) ↔ t.val % 64 = 0 :=
  (by decide +kernel : ∀ t : Fin grid1.N, cond1 (grid1.coords t) ↔ t.val % 64 = 0)

/-- The zero offsets of the whole-buffer rectangles, rank 2 and rank 3. -/
theorem hz2 : (![0, 0] : Fin 2 → Nat) = fun _ => 0 := by funext a; fin_cases a <;> rfl
theorem hz3 : (![0, 0, 0] : Fin 3 → Nat) = fun _ => 0 := by funext a; fin_cases a <;> rfl

set_option maxHeartbeats 1000000 in
/-- Away from the first block of a row block (`j ≠ 0`): the three buffers are loaded whole and the output buffer is
    stored whole with the point's eight terms added to what it held. -/
theorem run_step (c : Dev nD) (i : grid1.Coords)
    (a2 : Memref sig .tc .vmem S128x16x64 .f32) (h2 : a2.IsWhole)
    (a3 : Memref sig .tc .vmem S8x16x64 .f32) (h3 : a3.IsWhole)
    (a4 : Memref sig .tc .vmem S128x64 .f32) (h4 : a4.IsWhole) (hc : ¬cond1 i)
    (x : Vec F S128x16x64 .f32) (w : Vec F S8x16x64 .f32) (s : Vec F S128x64 .f32)
    (E : Set ℕ) (K : PUnit → sProp 𝕄) :
    iprop(owns (c : Thread nD τ) a2 fullShare x ∗ owns (c : Thread nD τ) a3 fullShare w
        ∗ owns (c : Thread nD τ) a4 fullShare s
        ∗ (iprop(owns (c : Thread nD τ) a2 fullShare x ∗ owns (c : Thread nD τ) a3 fullShare w
            ∗ owns (c : Thread nD τ) a4 fullShare (k1_pay2 x w s)) -∗ K ⟨⟩))
      ⊢ wp frame (wpE (defs₀ (F := F)) Variants.none c none) E (cc1__pairwise_kernel i a2 h2 a3 h3 a4 h4) K := by
  simp only [cc1__pairwise_kernel_eq_skeleton]; unfold cc1__pairwise_kernel_skel
  unfold owns
  iintro ⟨⟨%f2, %hf2, H2⟩, ⟨%f3, %hf3, H3⟩, ⟨%f4, %hf4, H4⟩, Hk⟩
  obtain rfl := h2.eq_unread hf2
  obtain rfl := h3.eq_unread hf3
  obtain rfl := h4.eq_unread hf4
  sl_exec (disch := first | exact hc)
  sl_step
  iapply Hk
  isplitl [H2]
  · iexists _; isplitr; · ipureintro; exact hf2
    iexact H2
  isplitl [H3]
  · iexists _; isplitr; · ipureintro; exact hf3
    iexact H3
  iexists _; isplitr
  swap; · iexact H4
  ipureintro
  -- one whole-buffer store: the buffer reads back its payload, and each whole-buffer load read the contents
  rw [View.read_writes_eq_canon _ _ _ (fun y => ⟨_, List.mem_singleton_self _, View.mem_set_unit_zero hz2 inb_S128x64_S128x64_0_0 y⟩),
    View.canon_unit_zero (S := S128x64) hz2]
  simp only [View.readAt_eq_ld, hf2, hf3, hf4, View.ld_unit_zero (S := S128x16x64) hz3,
    View.ld_unit_zero (S := S8x16x64) hz3, View.ld_unit_zero (S := S128x64) hz2]

set_option maxHeartbeats 1000000 in
/-- At the first block of a row block (`j = 0`): the output buffer is first stored whole with zeros, whatever it
    held; the update then reads those zeros back. -/
theorem run_reset (c : Dev nD) (i : grid1.Coords)
    (a2 : Memref sig .tc .vmem S128x16x64 .f32) (h2 : a2.IsWhole)
    (a3 : Memref sig .tc .vmem S8x16x64 .f32) (h3 : a3.IsWhole)
    (a4 : Memref sig .tc .vmem S128x64 .f32) (h4 : a4.IsWhole) (hc : cond1 i)
    (x : Vec F S128x16x64 .f32) (w : Vec F S8x16x64 .f32) (s : Vec F S128x64 .f32)
    (E : Set ℕ) (K : PUnit → sProp 𝕄) :
    iprop(owns (c : Thread nD τ) a2 fullShare x ∗ owns (c : Thread nD τ) a3 fullShare w
        ∗ owns (c : Thread nD τ) a4 fullShare s
        ∗ (iprop(owns (c : Thread nD τ) a2 fullShare x ∗ owns (c : Thread nD τ) a3 fullShare w
            ∗ owns (c : Thread nD τ) a4 fullShare (k1_pay2 x w (k1_pay1 (F := F)))) -∗ K ⟨⟩))
      ⊢ wp frame (wpE (defs₀ (F := F)) Variants.none c none) E (cc1__pairwise_kernel i a2 h2 a3 h3 a4 h4) K := by
  simp only [cc1__pairwise_kernel_eq_skeleton]; unfold cc1__pairwise_kernel_skel
  unfold owns
  iintro ⟨⟨%f2, %hf2, H2⟩, ⟨%f3, %hf3, H3⟩, ⟨%f4, %hf4, H4⟩, Hk⟩
  obtain rfl := h2.eq_unread hf2
  obtain rfl := h3.eq_unread hf3
  obtain rfl := h4.eq_unread hf4
  sl_exec (disch := first | exact hc)
  sl_step
  iapply Hk
  isplitl [H2]
  · iexists _; isplitr; · ipureintro; exact hf2
    iexact H2
  isplitl [H3]
  · iexists _; isplitr; · ipureintro; exact hf3
    iexact H3
  iexists _; isplitr
  swap; · iexact H4
  ipureintro
  sl_unfold_words
  -- two whole-buffer stores, the later on top: the buffer reads back the later payload, whose third argument is the
  -- read-back of the earlier store alone, the zeros
  rw [View.read_writes_eq_canon _ _ _ (fun y => ⟨_, List.mem_cons.mpr (Or.inl rfl), View.mem_set_unit_zero hz2 inb_S128x64_S128x64_0_0 y⟩),
    View.canon_cons_unit_zero (S := S128x64) hz2, View.readCov_unit_zero (S := S128x64) _ hz2]
  simp only [View.readAt_eq_ld, hf2, hf3, View.ld_unit_zero (S := S128x16x64) hz3,
    View.ld_unit_zero (S := S8x16x64) hz3]

/-! ## What each window's buffer holds when the body runs -/

/-- The staging buffers the body is called on at point `t`, at their literal types, and their wholeness. -/
abbrev m0 (t : Fin cfg1.N) : Memref sig .tc .vmem S128x16x64 .f32 := win1_0.stage (cfg1.slots t 0)
abbrev hm0 (t : Fin cfg1.N) : (m0 t).IsWhole := hstage1_0 ((cfg1.slots t 0).cast nbuf1_0)
abbrev m1 (t : Fin cfg1.N) : Memref sig .tc .vmem S8x16x64 .f32 := win1_1.stage (cfg1.slots t 1)
abbrev hm1 (t : Fin cfg1.N) : (m1 t).IsWhole := hstage1_1 ((cfg1.slots t 1).cast nbuf1_1)
abbrev m2 (t : Fin cfg1.N) : Memref sig .tc .vmem S128x64 .f32 := win1_2.stage (cfg1.slots t 2)
abbrev hm2 (t : Fin cfg1.N) : (m2 t).IsWhole := hstage1_2 ((cfg1.slots t 2).cast nbuf1_2)

/-- The first input's buffer holds the 128 rows of its row block at every point, though fetched only at `j = 0`:
    where it is not fetched its block index has not moved, and the body leaves the block in place. -/
theorem before_0 (c : Dev nD) (t : Fin cfg1.N) (d) : (dat V c).before 0 t d = blk V c 0 t := by
  have hkeep : ∀ t', (cfg1.win 0).cut (cfg1.grid.coords t') ((dat V c).after 0 t') = (dat V c).blockOf 0 t' := fun t' => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl

/-- The second input's buffer holds the 8 rows of its block: it is fetched at every point. -/
theorem before_1 (c : Dev nD) (t : Fin cfg1.N) (d) : (dat V c).before 1 t d = blk V c 1 t := by
  rw [(dat V c).before_fetched 1 t (fetch1_1 t) d]
  unfold Dat.fetched Dat.blockOf blk; rw [A_eq]; rfl

/-- Away from `j = 0` the output's buffer holds the accumulator the point before left: the point is not the first,
    and the buffer was not written back between (that happens only after `j = 63`). -/
theorem before_2 (c : Dev nD) (t : Fin cfg1.N) (h : t.val % 64 ≠ 0) (d) :
    (dat V c).before 2 t d = acc V c (t.val - 1) (Nat.lt_of_le_of_lt (Nat.sub_le _ _) t.isLt) := by
  have h0 : t.val ≠ 0 := fun e => h (by rw [e])
  rw [Dat.before_out_kept _ 2 rfl t h0
    (Bool.eq_false_iff.mpr fun hf => by have := (flush1_2 _).mp hf; dsimp only at this; omega)
    (fun _ => rfl) (fun _ _ => rfl)]
  rw [after_2]

/-! ## The obligation at a generic point -/

/-- What the body is called with at point `t`: the windows one by one. -/
def bodyPre (c : Dev nD) (t : Fin cfg1.N) : sProp 𝕄 :=
  iprop((dat V c).Φ t.castSucc ∗ (dat V c).owesAt () t.castSucc
    ∗ (∃ d, owns (c : Thread nD τ) (m0 t) fullShare ((dat V c).before 0 t d))
    ∗ (∃ d, owns (c : Thread nD τ) (m1 t) fullShare ((dat V c).before 1 t d))
    ∗ (∃ d, owns (c : Thread nD τ) (m2 t) fullShare ((dat V c).before 2 t d)))

/-- What it returns. -/
def bodyPost (c : Dev nD) (t : Fin cfg1.N) : sProp 𝕄 :=
  iprop((dat V c).Φ t.succ ∗ (dat V c).owesAt () t.succ
    ∗ owns (c : Thread nD τ) (m0 t) fullShare ((dat V c).after 0 t)
    ∗ owns (c : Thread nD τ) (m1 t) fullShare ((dat V c).after 1 t)
    ∗ owns (c : Thread nD τ) (m2 t) fullShare ((dat V c).after 2 t))

set_option maxHeartbeats 800000 in
/-- The body at any point: the inputs' buffers hold their blocks; by the closed form of the branch condition the point
    resets (`j = 0`, the output's buffer at anything) or accumulates (`j ≠ 0`, the output's buffer at the accumulator of
    the point before); the invariant and the tallies pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  by_cases h : t.val % 64 = 0
  · rw [acc_reset V c t h]
    iintro ⟨HΦ, Ho, ⟨%d0, H0⟩, ⟨%d1, H1⟩, ⟨%d2, H2⟩⟩
    iapply (run_reset c (grid1.coords t) (m0 t) (hm0 t) (m1 t) (hm1 t) (m2 t) (hm2 t) ((hcond1 t).mpr h)
      (rowsB V c t) (rowsB' V c t) ((dat V c).before 2 t d2) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · rw [acc_step V c t h]
    simp only [before_2 V c t h]
    iintro ⟨HΦ, Ho, ⟨%d0, H0⟩, ⟨%d1, H1⟩, ⟨%d2, H2⟩⟩
    iapply (run_step c (grid1.coords t) (m0 t) (hm0 t) (m1 t) (hm1 t) (m2 t) (hm2 t) (fun hc => h ((hcond1 t).mp hc))
      (rowsB V c t) (rowsB' V c t) (acc V c (t.val - 1) (Nat.lt_of_le_of_lt (Nat.sub_le _ _) t.isLt)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- THE BODY OBLIGATION of the pairwise region, at every point. -/
theorem body_obligation (c : Dev nD) :
    BodyObligation (dat (F := F) V c) (defs₀ (F := F)) Variants.none () Set.univ := by
  intro t
  rw [bigSep_W1, bigSep_W1]
  exact sound_body V c t

end Cert.Kernel.Pw

end
-- ==== Proof.BitsBoundaries.lean ====
/-
# The buffers' contents between the items of @main

@main is: three host operations (the permutation of `T`'s columns: reshape, transpose, reshape), the projection
region, one host operation (the reshape of the projection to rows x kernel coordinates x features), the pairwise
region, one host operation (the concatenation of `x` and the features). `WJ c` is what core `c`'s unscoped buffers hold
after item J-1, from the launch memory `m`: a host stretch applies its operations; a region leaves its output array
at what its write-backs leave and everything else as it found it.
-/
import proofs.«180718_j58179626991726_1_alg».proof.Proof.BitsMatmulRegion
import proofs.«180718_j58179626991726_1_alg».proof.Proof.BitsPairwiseRegion
import Idealize.ShloMosaic.Lib.Pipeline.FrameSuffix
import Idealize.ShloMosaic.Lib.Pipeline.Value
import Idealize.ShloMosaic.Lib.ValueIdx
import Idealize.ShloMosaic.Lib.ValueLayout
import Idealize.ShloMosaic.Lib.StableHlo.Run
import proofs.«180718_j58179626991726_1_alg».proof.Proof.Gen.Kernel.Regions

set_option maxRecDepth 16384

noncomputable section

namespace Cert.Kernel.Run

open Idealize.ShloMosaic Idealize.ShloMosaic.TcCoe Idealize.ShloMosaic.ValueIdx
open Idealize.SL Idealize.SL.Sem
open Idealize.ShloMosaic.Pipeline (Dat Cfg Window)
open Cert.Kernel Cert.Kernel.Gen

variable {F : FTy → Type} [FloatOps F]
variable (m : (ℓ : Loc nD τ sig) → Buf (Elt F) ℓ)

/-- Core `c`'s unscoped buffers at launch. -/
abbrev W0 (c : Dev nD) : Valuation τ sig (Elt F) := fun b => m (c, b)
/-- After the permutation of `T`'s columns (the projection region's entry). -/
abbrev W1 (c : Dev nD) : Valuation τ sig (Elt F) := StableHlo.after hostOps0 (W0 m c)
/-- The same read at the TensorCore's references. -/
abbrev V1 (c : Dev nD) (b : Ref sig .tc) : Buf (Elt F) ((c : Thread nD τ).loc b) := W1 m c b
/-- At the projection region's exit: its arrays at what the pipeline leaves (the inputs as entered, the output's
    write-backs folded), every other buffer as entered. -/
def W2 (c : Dev nD) : Valuation τ sig (Elt F) :=
  Pipeline.withArrays spec0 c (W1 m c) fun w => (Mm.dat (V1 m) c).arrAt w cfg0.N
abbrev V2 (c : Dev nD) (b : Ref sig .tc) : Buf (Elt F) ((c : Thread nD τ).loc b) := W2 m c b
/-- After the reshape of the projection (the pairwise region's entry). -/
abbrev W3 (c : Dev nD) : Valuation τ sig (Elt F) := StableHlo.after hostOps1 (W2 m c)
abbrev V3 (c : Dev nD) (b : Ref sig .tc) : Buf (Elt F) ((c : Thread nD τ).loc b) := W3 m c b
/-- At the pairwise region's exit: its output array `main_v5` at what its write-backs leave, every other buffer as
    entered (its two input windows read one array, which no write-back touches). -/
def W4 (c : Dev nD) : Valuation τ sig (Elt F) :=
  Function.update (W3 m c) (Proc.devRef .tc main_v5) ((Pw.dat (V3 m) c).arrAt 2 cfg1.N)
abbrev V4 (c : Dev nD) (b : Ref sig .tc) : Buf (Elt F) ((c : Thread nD τ).loc b) := W4 m c b
/-- After the concatenation: the end of @main. -/
abbrev W5 (c : Dev nD) : Valuation τ sig (Elt F) := StableHlo.after hostOps2 (W4 m c)

/-! ## The regions' exits -/

theorem W2_arr (c : Dev nD) (w : Fin cfg0.W) :
    W2 m c (Proc.devRef .tc (Pipeline.arrRef spec0 w)) = (Mm.dat (V1 m) c).arrAt w cfg0.N := by
  unfold W2
  exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2
  exact Pipeline.withArrays_of_ne spec0 c _ _ b hb
theorem W4_v5 (c : Dev nD) : W4 m c (Proc.devRef .tc main_v5) = (Pw.dat (V3 m) c).arrAt 2 cfg1.N := by
  unfold W4
  exact Function.update_self _ _ _
theorem W4_of_ne (c : Dev nD) (b : Ref sig .tc) (hb : b ≠ main_v5) :
    W4 m c (Proc.devRef .tc b) = W3 m c (Proc.devRef .tc b) := by
  unfold W4
  exact Function.update_of_ne (StableHlo.devRef_ne_of_ne hb) _ _

/-! ## The arguments end as launched -/

theorem W5_main_arg0 (c : Dev nD) : W5 m c (Proc.devRef .tc main_arg0) = m ((c : Thread nD τ).loc main_arg0) := by
  refine (StableHlo.after_of_writes_sub hostOps2 (W4 m c) hostOps2_writes (by decide : main_arg0 ∉ hostOps2_W)).trans ?_
  refine (W4_of_ne m c main_arg0 (by decide)).trans ?_
  refine (StableHlo.after_of_writes_sub hostOps1 (W2 m c) hostOps1_writes (by decide : main_arg0 ∉ hostOps1_W)).trans ?_
  refine (W2_arr m c 0).trans ?_
  rw [Dat.arrAt_in _ 0 (by decide), Mm.A_eq]
  exact StableHlo.after_of_writes_sub hostOps0 (W0 m c) hostOps0_writes (by decide : main_arg0 ∉ hostOps0_W)
theorem W5_main_arg1 (c : Dev nD) : W5 m c (Proc.devRef .tc main_arg1) = m ((c : Thread nD τ).loc main_arg1) := by
  refine (StableHlo.after_of_writes_sub hostOps2 (W4 m c) hostOps2_writes (by decide : main_arg1 ∉ hostOps2_W)).trans ?_
  refine (W4_of_ne m c main_arg1 (by decide)).trans ?_
  refine (StableHlo.after_of_writes_sub hostOps1 (W2 m c) hostOps1_writes (by decide : main_arg1 ∉ hostOps1_W)).trans ?_
  refine (W2_of_ne m c main_arg1 (by decide)).trans ?_
  exact StableHlo.after_of_writes_sub hostOps0 (W0 m c) hostOps0_writes (by decide : main_arg1 ∉ hostOps0_W)

/-! ## What the host operations compute, read at an index -/

/-- The launch contents of the two arguments, as functions of their literal index types. -/
abbrev xArr (c : Dev nD) : S512x2048.Idx → Elt F .f32 := m ((c : Thread nD τ).loc main_arg0)
abbrev tArr (c : Dev nD) : S2048x1024.Idx → Elt F .f32 := m ((c : Thread nD τ).loc main_arg1)
/-- The projection region's operands and result, the pairwise region's operand and result, and the final array. -/
abbrev lhs1 (c : Dev nD) : S512x2048.Idx → Elt F .f32 := V1 m c main_arg0
abbrev rhs1 (c : Dev nD) : S2048x1024.Idx → Elt F .f32 := V1 m c main_v2
abbrev out2 (c : Dev nD) : S512x1024.Idx → Elt F .f32 := (Mm.dat (V1 m) c).arrAt 2 cfg0.N
abbrev in3 (c : Dev nD) : S512x16x64.Idx → Elt F .f32 := V3 m c main_v4
abbrev out4 (c : Dev nD) : S512x64.Idx → Elt F .f32 := (Pw.dat (V3 m) c).arrAt 2 cfg1.N
abbrev res5 (c : Dev nD) : S512x2112.Idx → Elt F .f32 := W5 m c (Proc.devRef .tc main_v6)

/-- The projection region finds `x` as launched, -/
theorem lhs1_eq (c : Dev nD) : lhs1 m c = xArr m c := by
  exact StableHlo.after_of_writes_sub hostOps0 (W0 m c) hostOps0_writes (by decide : main_arg0 ∉ hostOps0_W)

/-- The second operand as the three host operations build it from `T`: read as 2048 x 64 x 16, the last two axes
    exchanged, read back as 2048 x 1024. -/
theorem rhs1_eq (c : Dev nD) :
    rhs1 m c = shapeCast S2048x1024 (transpose S2048x16x64 [0, 2, 1] (shapeCast S2048x64x16 (tArr m c) shapeCasts_S2048x1024_S2048x64x16)
      transposes_S2048x64x16_S2048x16x64_0_2_1) shapeCasts_S2048x16x64_S2048x1024 := by
  show StableHlo.after hostOps0 (W0 m c) (Proc.devRef .tc main_v2) = _
  after_results
  rfl

/-- and `T` with its columns permuted: column `64 k + o` of the operand is column `16 o + k` of `T`. -/
theorem rhs1_apply (c : Dev nD) (d : Fin 2048) (k : Fin 16) (o : Fin 64) :
    rhs1 m c (ix2 d (⟨64 * k.val + o.val, by omega⟩ : Fin 1024)) = tArr m c (ix2 d (⟨16 * o.val + k.val, by omega⟩ : Fin 1024)) := by
  rw [rhs1_eq]
  -- row-major position `d * 1024 + (64 k + o)` of the 2048 x 1024 array is position `(d * 16 + k) * 64 + o` of the 2048 x 16 x 64 one
  refine (shapeCast_apply _ shapeCasts_S2048x16x64_S2048x1024 _ (ix3 d k o) ?_).trans ?_
  · rw [Shape.rowMajor_val_three, Shape.rowMajor_val_two]
    show (d.val * 16 + k.val) * 64 + o.val = d.val * 1024 + (64 * k.val + o.val)
    omega
  -- the exchange of the last two axes
  refine (transpose_ix3_021_apply _ transposes_S2048x64x16_S2048x16x64_0_2_1 d k o).trans ?_
  -- position `(d * 64 + o) * 16 + k` of the 2048 x 64 x 16 array is position `d * 1024 + (16 o + k)` of `T`
  refine shapeCast_apply _ shapeCasts_S2048x1024_S2048x64x16 _ _ ?_
  rw [Shape.rowMajor_val_two, Shape.rowMajor_val_three]
  show d.val * 1024 + (16 * o.val + k.val) = (d.val * 64 + o.val) * 16 + k.val
  omega

/-- The pairwise region's operand as the host operation builds it: what the projection region left, read as
    512 x 16 x 64. -/
theorem in3_eq (c : Dev nD) : in3 m c = shapeCast S512x16x64 (out2 m c) shapeCasts_S512x1024_S512x16x64 := by
  show StableHlo.after hostOps1 (W2 m c) (Proc.devRef .tc main_v4) = _
  after_results
  have h : W2 m c (Proc.devRef .tc main_v3) = out2 m c := W2_arr m c 2
  rw [h]
  rfl

/-- The pairwise region finds the projection reshaped: entry `(b, k, o)` is entry `(b, 64 k + o)` of what the
    projection region left. -/
theorem in3_apply (c : Dev nD) (b : Fin 512) (k : Fin 16) (o : Fin 64) :
    in3 m c (ix3 b k o) = out2 m c (ix2 b (⟨64 * k.val + o.val, by omega⟩ : Fin 1024)) := by
  rw [in3_eq]
  refine shapeCast_apply _ shapeCasts_S512x1024_S512x16x64 _ _ ?_
  rw [Shape.rowMajor_val_two, Shape.rowMajor_val_three]
  show b.val * 1024 + (64 * k.val + o.val) = (b.val * 16 + k.val) * 64 + o.val
  omega

/-- The final array is `x` as launched with the pairwise region's result appended along the columns. -/
theorem res5_eq (c : Dev nD) :
    res5 m c = concatenate S512x2112 1 [⟨S512x2048, xArr m c⟩, ⟨S512x64, out4 m c⟩] concatenates_S512x2048_S512x64_S512x2112_d1 := by
  show StableHlo.after hostOps2 (W4 m c) (Proc.devRef .tc main_v6) = _
  after_results
  rw [W4_v5, W4_of_ne m c main_arg0 (by decide)]
  have hx : W3 m c (Proc.devRef .tc main_arg0) = xArr m c := by
    refine (StableHlo.after_of_writes_sub hostOps1 (W2 m c) hostOps1_writes (by decide : main_arg0 ∉ hostOps1_W)).trans ?_
    refine (W2_arr m c 0).trans ?_
    rw [Dat.arrAt_in _ 0 (by decide), Mm.A_eq]
    exact StableHlo.after_of_writes_sub hostOps0 (W0 m c) hostOps0_writes (by decide : main_arg0 ∉ hostOps0_W)
  rw [hx]

end Cert.Kernel.Run

end
-- ==== Proof.BitsSharedArray.lean ====
/-
# One array behind two windows: the pairwise region's entry and exit

The pairwise region reads ONE array, the reshaped projection `main_v4`, through two input windows. At the region's
entry the core's unscoped buffers, each whole at its contents, are sorted into the region's arrays — `main_v4` held
once per window, at the two halves of the full share, and the output array `main_v5` at the full share — and the
rest; at its exit the two halves are joined again (neither window writes: both still hold the entry contents) and
the output array is put back at what the region's write-backs left.
-/
import proofs.«180718_j58179626991726_1_alg».proof.Proof.BitsBoundaries
import Idealize.ShloMosaic.Lib.Pipeline.RegionsLoop

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The three windows, read as points-to facts on the two buffers -/

/-- The pairwise region's windows stand on two buffers: the reshaped projection and the feature array. -/
theorem arrRef_image : (Finset.univ.image (Pipeline.arrRef spec1) : Finset (Ref sig .tc)) = {main_v4, main_v5} := by decide

/-- Window 0 holds the whole reshaped projection, as the region found it, at the left half of the full share. -/
theorem win0_eq (c : Dev nD) (n : ℕ) :
    ((cfg1.win 0).arr.view.loc (c.tc : Thread nD τ) ↦[(cfg1.win 0).arr.view.set]{(Pw.dat (V3 m) c).share 0} (Pw.dat (V3 m) c).arrAt 0 n : sProp 𝕄)
      = ((c : Thread nD τ).loc main_v4 ↦{fullShare.left} V3 m c main_v4) := by
  rw [(arr_whole1 0).set_eq_univ, (Pw.dat (V3 m) c).arrAt_in 0 rfl n]; rfl

/-- Window 1 holds the same buffer at the same contents, at the right half. -/
theorem win1_eq (c : Dev nD) (n : ℕ) :
    ((cfg1.win 1).arr.view.loc (c.tc : Thread nD τ) ↦[(cfg1.win 1).arr.view.set]{(Pw.dat (V3 m) c).share 1} (Pw.dat (V3 m) c).arrAt 1 n : sProp 𝕄)
      = ((c : Thread nD τ).loc main_v4 ↦{fullShare.right} V3 m c main_v4) := by
  rw [(arr_whole1 1).set_eq_univ, (Pw.dat (V3 m) c).arrAt_in 1 rfl n]; rfl

/-- Window 2, the output, holds the whole feature array at the full share. -/
theorem win2_eq (c : Dev nD) (n : ℕ) :
    ((cfg1.win 2).arr.view.loc (c.tc : Thread nD τ) ↦[(cfg1.win 2).arr.view.set]{(Pw.dat (V3 m) c).share 2} (Pw.dat (V3 m) c).arrAt 2 n : sProp 𝕄)
      = ((c : Thread nD τ).loc main_v5 ↦{fullShare} (Pw.dat (V3 m) c).arrAt 2 n) := by
  rw [(arr_whole1 2).set_eq_univ]; rfl

/-! ## Entry and exit -/

/-- ENTRY: every unscoped buffer at the pairwise region's entry contents is the region's arrays at the proof data's
    entry contents (the shared array split between its two windows) and the unscoped rest. -/
theorem entry1 (c : Dev nD) :
    (StableHlo.held (c : Thread nD τ) (Pipeline.ucRefs τ sig) (W3 m c) : sProp 𝕄)
      ⊢ iprop((Pw.dat (V3 m) c).arrays ((Pw.dat (V3 m) c).arrAt · 0)
          ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c)]
  rw [Pipeline.unscopedBufs_split₀ cfgs 1 winFacts₀1.arr_unscoped c]
  -- the unscoped buffers are the two buffers behind the windows and the rest; the rest is kept as it is
  refine sep_mono ?_ .rfl
  unfold Pipeline.arrBufs Dat.arrays
  rw [bigSep_W1, show Finset.univ.image (Pipeline.arrRef (cfgs 1).spec) = {main_v4, main_v5} from arrRef_image,
    bigSep_insert (by decide), bigSep_singleton]
  beta_reduce
  rw [win0_eq, win1_eq, win2_eq]
  -- the full share of the shared buffer is the composite of its two halves; the output buffer goes over whole
  refine (show iprop(((c : Thread nD τ).loc main_v4 ↦{fullShare} V3 m c main_v4)
      ∗ ((c : Thread nD τ).loc main_v5 ↦{fullShare} V3 m c main_v5)) ⊢ _ from ?_)
  iintro ⟨H4, H5⟩
  ihave H := (pointsTo_share (PosShare.mem_left_op_right fullShare)).1 $$ H4
  icases H with ⟨Hl, Hr⟩
  isplitl [Hl]; · iexact Hl
  isplitl [Hr]; · iexact Hr
  iexact H5

/-- EXIT: the region's arrays at their final contents and the unscoped rest are every unscoped buffer at the exit
    contents `W4` (the output array updated, everything else as entered). -/
theorem exit1 (c : Dev nD) :
    iprop((Pw.dat (V3 m) c).arrays ((Pw.dat (V3 m) c).arrAt · cfg1.N)
          ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c)]
  rw [Pipeline.unscopedBufs_split₀ cfgs 1 winFacts₀1.arr_unscoped c]
  refine sep_mono ?_ (Entails.of_eq ?_)
  · -- the two halves of the shared buffer, both at the entry contents, compose to the full share; the output buffer
    -- holds what the exit valuation has there
    unfold Pipeline.arrBufs Dat.arrays
    rw [bigSep_W1, show Finset.univ.image (Pipeline.arrRef (cfgs 1).spec) = {main_v4, main_v5} from arrRef_image,
      bigSep_insert (by decide), bigSep_singleton]
    beta_reduce
    rw [win0_eq, win1_eq, win2_eq, W4_v5, W4_of_ne m c main_v4 (by decide)]
    refine (show _ ⊢ iprop(((c : Thread nD τ).loc main_v4 ↦{fullShare} V3 m c main_v4)
        ∗ ((c : Thread nD τ).loc main_v5 ↦{fullShare} (Pw.dat (V3 m) c).arrAt 2 cfg1.N)) from ?_)
    iintro ⟨Hl, Hr, H5⟩
    isplitr [H5]
    · iapply (pointsTo_share (PosShare.mem_left_op_right fullShare)).2
      isplitl [Hl]; · iexact Hl
      iexact Hr
    · iexact H5
  · -- off the two buffers the exit valuation is the entry valuation
    unfold Pipeline.unscopedRest
    refine bigSep_congr fun b hb => ?_
    have hb' : b ≠ main_v5 := fun h => (Finset.mem_sdiff.mp hb).2 (by rw [arrRef_image, h]; decide)
    beta_reduce
    rw [W4_of_ne m c b hb']

end Cert.Kernel.Run

end
-- ==== Proof.BitsRun.lean ====
/-
# The run of @main: five segments, two of them kernel regions

Each weakly fair execution of @main terminates, and the final memory holds every unscoped buffer at the last
boundary's contents `W5`: in particular the result array at `W5`'s and the two arguments as launched. The segments:
the permutation of `T`'s columns, the projection region, the reshape of the projection, the pairwise region, the
concatenation. Between two segments a core holds every unscoped buffer at that boundary's contents, its generator
register at some state, and owes nothing. A region splits its arrays out of the unscoped buffers at its entry and
puts them back at the exit contents; the pairwise region's two input windows share one array, held at two half shares.
-/
import proofs.«180718_j58179626991726_1_alg».proof.Proof.BitsBoundaries
import proofs.«180718_j58179626991726_1_alg».proof.Proof.BitsSharedArray
import proofs.«180718_j58179626991726_1_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both pipelines, and what rides beside the buffers -/

/-- Both pipelines' proof data, each at its region's entry contents (a literal match on the pipeline's index). -/
def pdats : (p : Fin 2) → (c : Dev nD) → Dat τ (Elt F) Unit ℕ (UR sig nD τ) ℕ (Pipeline.pin (pcfgs (F := F)) adm p) c
  | ⟨0, _⟩ => fun c => Mm.dat (V1 m) c
  | ⟨1, _⟩ => fun c => Pw.dat (V3 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W5 m c) ∗ ∃ r, prngReg c r)

/-! ## The projection region's exit contents -/

theorem hF0 (c : Dev nD) (w : Fin cfg0.W) : (Mm.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-! ## The regions as segments -/

set_option backward.isDefEq.respectTransparency.types false in
/-- The projection region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mm.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
          ∗ Pipeline.scopedRest (Pipeline.pin (pcfgs (F := F)) adm 0).spec c)
        ⊢ (Pipeline.ΦA spec0 c : sProp 𝕄) := by
      unfold Pipeline.ΦA
      iintro ⟨Hp, -, Hr⟩
      isplitl [Hr]; · iexact Hr
      iexact Hp
    exact h.trans (Mm.hin (V1 m) c)
  hout c := by
    rw [Pipeline.ownSems0_none]
    have h : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (Mm.hout (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise region: entered from every unscoped buffer at `W3`, left at `W4`; its two input windows hold their
    one array at the two halves of the full share (`entry1`, `exit1`). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Pw.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0)
          ∗ Pipeline.unscopedRest (Ix := Unit) (Name := ℕ) (U := UR sig nD τ) (Lvl := ℕ) spec1 c (V3 m c)) := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V3 m c))
        ⊢ (StableHlo.held (c : Thread nD τ) (Pipeline.ucRefs τ sig) (W4 m c) : sProp 𝕄) := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory has the result array at the last boundary's contents and the two arguments as launched. -/
theorem run_main : θ_run defs (onTc (τ := τ) (main (F := F))) ⟨m, fun _ => 0, ρ⟩ (fun r => ∀ c : Dev nD,
      r.2.mem ((c.tc : Thread nD τ).loc main_v6) = W5 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v6 (by decide)),
       (h c _ (mem_uc main_arg0 (by decide))).trans (W5_main_arg0 m c),
       (h c _ (mem_uc main_arg1 (by decide))).trans (W5_main_arg1 m c)⟩)

end Cert.Kernel.Run

end
-- ==== Proof.MatmulValue.lean ====
/-
# What the projection region leaves in its output array, on the extended reals

Entry `(b, n)` of the 512 x 1024 output is the sum over ALL 2048 contracted coordinates `d` of `x[b,d] * w[d,n]`:
the four blocks of 512 the accumulator adds one after the other, from zero, are the one sum regrouped (addition of
extended reals is commutative and associative; no finiteness is needed). Row block `i` is written back at the
point `4 i + 3`, and the four row blocks cover the array.
-/
import proofs.«180718_j58179626991726_1_alg».proof.Proof.MatmulRegion
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MmValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/- The region-entry contents of the core's unscoped buffers, at the extended reals. -/
variable (V : (c : Dev nD) → (b : Ref sig .tc) → Buf (Elt Ideal) ((c : Thread nD τ).loc b))

/-- The first operand's array (512 x 2048), the second's (2048 x 1024) and the output array after the region (512 x 1024),
    each as a function of its literal index type into the extended reals. -/
abbrev lhsArr (c : Dev nD) : S512x2048.Idx → EReal := V c main_arg0
abbrev rhsArr (c : Dev nD) : S2048x1024.Idx → EReal := V c main_v2
abbrev outArr (c : Dev nD) : S512x1024.Idx → EReal := (Mm.dat (F := Ideal) V c).arrAt 2 cfg0.N

/-! ## The body's arithmetic at an index -/

/- The matrix product's operand indices, axis by axis: the left operand is read at (the output's row, the contracted
   coordinate), the right at (the contracted coordinate, the output's column). -/
theorem lhs_dot_0 (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide),
    dif_pos (show (0 : Fin S128x512.rank) ∈ dot_S128x512_S512x1024_S128x1024_1_0_0_1_n_n.lhsNonContracting by decide)]
  rfl
theorem lhs_dot_1 (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
theorem rhs_dot_0 (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
theorem rhs_dot_1 (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide),
    dif_pos (show (1 : Fin S512x1024.rank) ∈ dot_S128x512_S512x1024_S128x1024_1_0_0_1_n_n.rhsNonContracting by decide)]
  rfl

/-- The product of a 128 x 512 block and a 512 x 1024 block onto the zero block, at entry `(r, n)`: the sum over the
    512 contracted coordinates. -/
theorem product_apply (x : FVec Ideal S128x512 .bf16) (w : FVec Ideal S512x1024 .bf16) (r : Fin 128) (n : Fin 1024) :
    matmul dot_S128x512_S512x1024_S128x1024_1_0_0_1_n_n none x w (constant (F := Ideal) S128x1024 .f32 0x00000000#32) (ix2 r n)
      = ∑ e : Fin 512, x (ix2 r e) * w (ix2 e n) := by
  simp only [matmul]
  rw [Ideal.matmul_constant_zero_apply,
    ← Equiv.sum_comp (contrEquiv1 dot_S128x512_S512x1024_S128x1024_1_0_0_1_n_n 512 rfl rfl).symm]
  refine Finset.sum_congr rfl fun e _ => ?_
  have he := contrEquiv1_symm_val dot_S128x512_S512x1024_S128x1024_1_0_0_1_n_n 512 rfl rfl e
  have el : dot_S128x512_S512x1024_S128x1024_1_0_0_1_n_n.lhsIdx (ix2 r n)
      ((contrEquiv1 dot_S128x512_S512x1024_S128x1024_1_0_0_1_n_n 512 rfl rfl).symm e) = ix2 r e :=
    funext fun a => Fin.ext (by
      match a with
      | ⟨0, _⟩ => exact lhs_dot_0 _ _
      | ⟨1, _⟩ => exact (lhs_dot_1 _ _).trans he)
  have er : dot_S128x512_S512x1024_S128x1024_1_0_0_1_n_n.rhsIdx (ix2 r n)
      ((contrEquiv1 dot_S128x512_S512x1024_S128x1024_1_0_0_1_n_n 512 rfl rfl).symm e) = ix2 e n :=
    funext fun a => Fin.ext (by
      match a with
      | ⟨0, _⟩ => exact (rhs_dot_0 _ _).trans he
      | ⟨1, _⟩ => exact rhs_dot_1 _ _)
  rw [el, er]

/-- The reset value of the accumulator is zero at every entry. -/
theorem zero_apply (r : Fin 128) (n : Fin 1024) : k0_pay1 (F := Ideal) (ix2 r n) = 0 := by
  unfold k0_pay1
  rw [shapeCast_self]
  exact Ideal.ofBits_zero_f32

/-- One step of the body at entry `(r, n)`: what the accumulator held there plus the sum, over the 512 contracted
    coordinates of the point's blocks, of the products (on the extended reals the narrowing is the identity). -/
theorem step_apply (x : Vec Ideal S128x512 .f32) (w : Vec Ideal S512x1024 .f32) (a : Vec Ideal S128x1024 .f32)
    (r : Fin 128) (n : Fin 1024) :
    k0_pay2 (F := Ideal) x w a (ix2 r n) = a (ix2 r n) + ∑ e : Fin 512, x (ix2 r e) * w (ix2 e n) := by
  unfold k0_pay2
  rw [shapeCast_self, shapeCast_self]
  refine (addf_apply _ _ _).trans ?_
  exact congrArg (a (ix2 r n) + ·) (product_apply _ _ r n)

/-! ## The accumulator after a point, as a partial sum -/

/-- The sum the body adds at point `t`, at entry `(r, n)` of the accumulator: the products of the point's two blocks
    over the block's 512 contracted coordinates (zero past the grid, where it is never read). -/
def addend (c : Dev nD) (t : ℕ) (r : Fin 128) (n : Fin 1024) : EReal :=
  if h : t < cfg0.N then ∑ e : Fin 512, Mm.xblk V c ⟨t, h⟩ (ix2 r e) * Mm.wblk V c ⟨t, h⟩ (ix2 e n) else 0

theorem addend_of_lt (c : Dev nD) (t : ℕ) (h : t < cfg0.N) (r : Fin 128) (n : Fin 1024) :
    addend V c t r n = ∑ e : Fin 512, Mm.xblk V c ⟨t, h⟩ (ix2 r e) * Mm.wblk V c ⟨t, h⟩ (ix2 e n) := by
  unfold addend
  rw [dif_pos h]

/-- The accumulator depends on the point only (not on how the point is named). -/
theorem acc_congr (c : Dev nD) (u t : ℕ) (hu : u < cfg0.N) (ht : t < cfg0.N) (e : u = t) :
    Mm.acc V c u hu = Mm.acc V c t ht := by
  subst e; rfl

/-- After the point `4 q + j` (`j < 4`) the accumulator holds, at entry `(r, n)`, the addends of the points
    `4 q, …, 4 q + j`: it is zero plus the first addend at `j = 0` and gains one addend per point. -/
theorem acc_apply (c : Dev nD) (q : ℕ) (r : Fin 128) (n : Fin 1024) :
    ∀ (j : ℕ) (_ : j < 4) (h : 4 * q + j < cfg0.N),
      Mm.acc V c (4 * q + j) h (ix2 r n) = ∑ s ∈ Finset.range (j + 1), addend V c (4 * q + s) r n
  | 0, _, h => by
    have hr := Mm.acc_reset V c ⟨4 * q + 0, h⟩ (by show (4 * q + 0) % 4 = 0; omega)
    refine (congrFun hr (ix2 r n)).trans ?_
    rw [step_apply, zero_apply, zero_add, Finset.sum_range_one, addend_of_lt V c (4 * q + 0) h]
  | j + 1, hj, h => by
    have hs := Mm.acc_step V c ⟨4 * q + (j + 1), h⟩ (by show (4 * q + (j + 1)) % 4 ≠ 0; omega)
    refine (congrFun hs (ix2 r n)).trans ?_
    rw [step_apply, Finset.sum_range_succ _ (j + 1), ← addend_of_lt V c (4 * q + (j + 1)) h,
      ← acc_apply c q r n j (Nat.lt_of_succ_lt hj) (by omega)]
    exact congrArg (· + addend V c (4 * q + (j + 1)) r n)
      (congrFun (acc_congr V c _ _ _ _ (by show 4 * q + (j + 1) - 1 = 4 * q + j; omega)) (ix2 r n))

/-! ## Regrouping a sum over `B * P` consecutive naturals into `P` blocks of `B` -/

theorem sum_range_blocks {M : Type*} [AddCommMonoid M] (B : ℕ) (f : ℕ → M) :
    ∀ P : ℕ, ∑ j ∈ Finset.range (B * P), f j = ∑ p ∈ Finset.range P, ∑ e ∈ Finset.range B, f (B * p + e)
  | 0 => by simp
  | P + 1 => by
    rw [Nat.mul_succ, Finset.sum_range_add, Finset.sum_range_succ, sum_range_blocks B f P]

/-! ## A block's entry is its array's entry -/

/-- The blocks' index maps over the grid: at the point `t` the first operand's block is (row block `t / 4`, contracted
    block `t % 4`), the second's (contracted block `t % 4`, the one column block), the output's (row block `t / 4`, the
    one column block). -/
theorem index_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0)

/-- Entry `(r, e)` of the first operand's block at the point `t` is entry `(128 (t / 4) + r, 512 (t % 4) + e)` of its array. -/
theorem xblk_apply (c : Dev nD) (t : Fin cfg0.N) (r : Fin 128) (e : Fin 512) (b : Fin 512) (d : Fin 2048)
    (hb : b.val = 128 * (t.val / 4) + r.val) (hd : d.val = 512 * (t.val % 4) + e.val) :
    Mm.xblk V c t (ix2 r e) = lhsArr V c (ix2 b d) := by
  obtain ⟨e0, e1, -⟩ := index_facts t
  show Mm.blk V c 0 t (ix2 r e) = _
  unfold Mm.blk
  rw [View.read_apply]
  show V c main_arg0 _ = V c main_arg0 _
  congr 1
  funext a
  apply Fin.ext
  match a with
  | ⟨0, _⟩ => show win0_0.index t (0 : Fin 2) * 128 + 1 * r.val = b.val; omega
  | ⟨1, _⟩ => show win0_0.index t (1 : Fin 2) * 512 + 1 * e.val = d.val; omega

/-- Entry `(e, n)` of the second operand's block at the point `t` is entry `(512 (t % 4) + e, n)` of its array. -/
theorem wblk_apply (c : Dev nD) (t : Fin cfg0.N) (e : Fin 512) (n : Fin 1024) (d : Fin 2048)
    (hd : d.val = 512 * (t.val % 4) + e.val) :
    Mm.wblk V c t (ix2 e n) = rhsArr V c (ix2 d n) := by
  obtain ⟨-, -, e2, e3, -⟩ := index_facts t
  show Mm.blk V c 1 t (ix2 e n) = _
  unfold Mm.blk
  rw [View.read_apply]
  show V c main_v2 _ = V c main_v2 _
  congr 1
  funext a
  apply Fin.ext
  match a with
  | ⟨0, _⟩ => show win0_1.index t (0 : Fin 2) * 512 + 1 * e.val = d.val; omega
  | ⟨1, _⟩ => show win0_1.index t (1 : Fin 2) * 1024 + 1 * n.val = n.val; omega

/-! ## One row block's last accumulator is the whole contraction -/

/-- The product at the contracted coordinate `j` of row `b` of the first array and column `n` of the second (zero past
    the contracted extent, where it is never read). -/
def prodAt (c : Dev nD) (b : Fin 512) (n : Fin 1024) (j : ℕ) : EReal :=
  if h : j < 2048 then lhsArr V c (ix2 b ⟨j, h⟩) * rhsArr V c (ix2 ⟨j, h⟩ n) else 0

/-- The whole contraction, as a sum over the first 2048 naturals. -/
theorem whole_eq (c : Dev nD) (b : Fin 512) (n : Fin 1024) :
    ∑ d : Fin 2048, lhsArr V c (ix2 b d) * rhsArr V c (ix2 d n) = ∑ j ∈ Finset.range 2048, prodAt V c b n j := by
  rw [← Fin.sum_univ_eq_sum_range]
  refine Finset.sum_congr rfl fun d _ => ?_
  unfold prodAt
  rw [dif_pos d.isLt]

/-- The addend of the point `4 i + s` at row `r` of row block `i` is the products over the `s`-th block of 512
    contracted coordinates of the arrays' row `128 i + r` and column `n`. -/
theorem addend_eq (c : Dev nD) (i s : ℕ) (hi : i < 4) (hs : s < 4) (r : Fin 128) (n : Fin 1024) (b : Fin 512)
    (hb : b.val = 128 * i + r.val) :
    addend V c (4 * i + s) r n = ∑ e ∈ Finset.range 512, prodAt V c b n (512 * s + e) := by
  have hN : cfg0.N = 16 := N_0
  have h : 4 * i + s < cfg0.N := by omega
  rw [addend_of_lt V c (4 * i + s) h, ← Fin.sum_univ_eq_sum_range (fun e => prodAt V c b n (512 * s + e)) 512]
  refine Finset.sum_congr rfl fun e _ => ?_
  have he : 512 * s + e.val < 2048 := by have := e.isLt; omega
  unfold prodAt
  rw [dif_pos he,
    xblk_apply V c ⟨4 * i + s, h⟩ r e b ⟨512 * s + e.val, he⟩
      (by show b.val = 128 * ((4 * i + s) / 4) + r.val; omega)
      (by show 512 * s + e.val = 512 * ((4 * i + s) % 4) + e.val; omega),
    wblk_apply V c ⟨4 * i + s, h⟩ e n ⟨512 * s + e.val, he⟩
      (by show 512 * s + e.val = 512 * ((4 * i + s) % 4) + e.val; omega)]

/-- After the last point `4 i + 3` of row block `i` the accumulator holds, at row `r`, the whole contraction of the arrays'
    row `128 i + r`: four blocks of 512 are the 2048 contracted coordinates regrouped. -/
theorem acc_last (c : Dev nD) (i : ℕ) (hi : i < 4) (h : 4 * i + 3 < cfg0.N) (r : Fin 128) (n : Fin 1024) (b : Fin 512)
    (hb : b.val = 128 * i + r.val) :
    Mm.acc V c (4 * i + 3) h (ix2 r n) = ∑ d : Fin 2048, lhsArr V c (ix2 b d) * rhsArr V c (ix2 d n) := by
  rw [acc_apply V c i r n 3 (by omega) h, whole_eq]
  refine Eq.trans ?_ (sum_range_blocks 512 (prodAt V c b n) 4).symm
  refine Finset.sum_congr rfl fun s hs => ?_
  exact addend_eq V c i s hi (Finset.mem_range.mp hs) r n b hb

/-! ## From the written-back blocks to the array -/

/-- The array the region leaves: every entry the whole contraction of its row and its column. -/
def contraction (c : Dev nD) : S512x1024.Idx → EReal := fun i =>
  ∑ d : Fin 2048, lhsArr V c (ix2 (⟨(i 0).val, (i 0).isLt⟩ : Fin 512) d) * rhsArr V c (ix2 d (⟨(i 1).val, (i 1).isLt⟩ : Fin 1024))

theorem contraction_apply (c : Dev nD) (i : S512x1024.Idx) (b : Fin 512) (n : Fin 1024) (h0 : (i 0).val = b.val)
    (h1 : (i 1).val = n.val) :
    contraction V c i = ∑ d : Fin 2048, lhsArr V c (ix2 b d) * rhsArr V c (ix2 d n) := by
  have e : i = ix2 b n := funext fun a => Fin.ext (by
    match a with
    | ⟨0, _⟩ => exact h0
    | ⟨1, _⟩ => exact h1)
  subst e
  rfl

/-- What a point that writes the output block back writes is that point's block of the contraction array. -/
theorem flushed_eq (c : Dev nD) (t : Fin cfg0.N) (hf : (cfg0.win 2).flush t = true) :
    (Mm.dat (F := Ideal) V c).flushed 2 t = ((cfg0.win 2).blk t).view.read (Elt Ideal) (contraction V c) := by
  have h3 : t.val % 4 = 3 := (flush0_2 t).mp hf
  have hN : cfg0.N = 16 := N_0
  have hlt := t.isLt
  obtain ⟨-, -, -, -, e4, e5⟩ := index_facts t
  show (cfg0.win 2).cut (grid0.coords t) ((Mm.dat (F := Ideal) V c).after 2 t) = _
  rw [Mm.after_2]
  refine funext fun (y : S128x1024.Idx) => ?_
  obtain ⟨r, n, rfl⟩ : ∃ (r : Fin 128) (n : Fin 1024), y = ix2 r n := ⟨y 0, y 1, eq_ix2 y⟩
  rw [View.read_apply]
  show Mm.acc V c t.val t.isLt (ix2 r n) = contraction V c (((cfg0.win 2).blk t).view.emb (ix2 r n))
  have hr := r.isLt
  refine (congrFun (acc_congr V c t.val (4 * (t.val / 4) + 3) t.isLt (by omega) (by omega)) (ix2 r n)).trans ?_
  refine (acc_last V c (t.val / 4) (by omega) (by omega) r n ⟨128 * (t.val / 4) + r.val, by omega⟩ rfl).trans ?_
  refine (contraction_apply V c _ _ _ ?_ ?_).symm
  · show win0_2.index t (0 : Fin 2) * 128 + 1 * r.val = 128 * (t.val / 4) + r.val
    omega
  · show win0_2.index t (1 : Fin 2) * 1024 + 1 * n.val = n.val
    omega

/-- An index of the output array is in the point `t`'s block iff each coordinate is in the block's range on its axis. -/
theorem mem_blk (t : Fin cfg0.N) (i : S512x1024.Idx) :
    i ∈ ((cfg0.win 2).blk t).view.set ↔ ∀ a : Fin 2, win0_2.index t a * S128x1024.size a ≤ (i a).val
      ∧ (i a).val < win0_2.index t a * S128x1024.size a + S128x1024.size a := by
  show i ∈ ((View.whole main_v3).slice (win0_2.rect t)).set ↔ _
  rw [View.set_slice_whole, Rect.mem_set_unit]
  exact Iff.rfl

/-- Row `b` lies in row block `b / 128`, which the point `4 (b / 128) + 3` writes back: the four written-back blocks cover
    the array. -/
theorem cover (i : S512x1024.Idx) :
    ∃ t : Fin cfg0.N, (cfg0.win 2).flush t = true ∧ i ∈ ((cfg0.win 2).blk t).view.set := by
  have h0 : (i 0).val < 512 := (i 0).isLt
  have h1 : (i 1).val < 1024 := (i 1).isLt
  have hN : cfg0.N = 16 := N_0
  have ht : 4 * ((i 0).val / 128) + 3 < cfg0.N := by omega
  obtain ⟨-, -, -, -, e4, e5⟩ := index_facts ⟨4 * ((i 0).val / 128) + 3, ht⟩
  have e4' : win0_2.index ⟨4 * ((i 0).val / 128) + 3, ht⟩ (0 : Fin 2) = (4 * ((i 0).val / 128) + 3) / 4 := e4
  refine ⟨⟨4 * ((i 0).val / 128) + 3, ht⟩, (flush0_2 _).mpr (by show (4 * ((i 0).val / 128) + 3) % 4 = 3; omega), ?_⟩
  rw [mem_blk]
  intro a
  match a with
  | ⟨0, _⟩ =>
    show win0_2.index ⟨4 * ((i 0).val / 128) + 3, ht⟩ (0 : Fin 2) * 128 ≤ (i 0).val
      ∧ (i 0).val < win0_2.index ⟨4 * ((i 0).val / 128) + 3, ht⟩ (0 : Fin 2) * 128 + 128
    omega
  | ⟨1, _⟩ =>
    show win0_2.index ⟨4 * ((i 0).val / 128) + 3, ht⟩ (1 : Fin 2) * 1024 ≤ (i 1).val
      ∧ (i 1).val < win0_2.index ⟨4 * ((i 0).val / 128) + 3, ht⟩ (1 : Fin 2) * 1024 + 1024
    omega

/-- The output array after the region is the contraction array. -/
theorem outArr_eq (c : Dev nD) : outArr V c = contraction V c :=
  (Mm.dat (F := Ideal) V c).arrAt_eq_of_cover 2 (contraction V c) (fun t hf => flushed_eq V c t hf) cover

/-- After the region, entry `(b, n)` of the output array `main_v3` is the whole contraction of row `b` of the first
    operand's array (`main_arg0`) with column `n` of the second's (`main_v2`). -/
theorem final_apply (c : Dev nD) (b : Fin 512) (n : Fin 1024) :
    outArr V c (ix2 b n) = ∑ d : Fin 2048, lhsArr V c (ix2 b d) * rhsArr V c (ix2 d n) := by
  rw [outArr_eq V c]
  exact contraction_apply V c (ix2 b n) b n rfl rfl

end Cert.KernelIdeal.MmValue

end
-- ==== Proof.LibBlockSum.lean ====
import Mathlib.Algebra.BigOperators.Fin
import Mathlib.Logic.Equiv.Fin.Basic
import Mathlib.Algebra.BigOperators.Group.Finset.Sigma

/-!
# A finite sum in consecutive blocks

A sum over `N = P * B` consecutive indices is the sum over the `P` blocks of the sums over the `B` indices of each
block, in any commutative monoid (no subtraction, no finiteness: it holds for extended reals). And a sum taken block
after block from zero — `s 0 = 0`, `s (p + 1) = s p + (block p's sum)` — is the whole sum.
-/

namespace Cert.LibBlockSum

open Finset

/-- Index `B * p + r` of block `p`, position `r`, among `N = P * B`. -/
def blockIdx {P B N : ℕ} (hN : N = P * B) (p : Fin P) (r : Fin B) : Fin N :=
  ⟨B * p.val + r.val, by
    subst hN
    calc B * p.val + r.val < B * p.val + B := Nat.add_lt_add_left r.isLt _
      _ = B * (p.val + 1) := (Nat.mul_succ _ _).symm
      _ ≤ B * P := Nat.mul_le_mul_left _ p.isLt
      _ = P * B := Nat.mul_comm _ _⟩

@[simp] theorem blockIdx_val {P B N : ℕ} (hN : N = P * B) (p : Fin P) (r : Fin B) :
    (blockIdx hN p r).val = B * p.val + r.val := rfl

/-- The sum over `N = P * B` indices, block by block. -/
theorem sum_blocks {M : Type*} [AddCommMonoid M] {P B N : ℕ} (hN : N = P * B) (f : Fin N → M) :
    ∑ j : Fin N, f j = ∑ p : Fin P, ∑ r : Fin B, f (blockIdx hN p r) := by
  subst hN
  rw [← Fintype.sum_prod_type' (f := fun p r => f (blockIdx rfl p r)),
    ← (finProdFinEquiv (m := P) (n := B)).sum_comp]
  refine Fintype.sum_congr _ _ fun x => congrArg f (Fin.ext ?_)
  rw [blockIdx_val, finProdFinEquiv_apply_val, Nat.add_comm]

/-- Partial sums over the first `p` blocks. -/
def upTo {M : Type*} [AddCommMonoid M] {P : ℕ} (g : Fin P → M) (p : ℕ) : M :=
  ∑ q ∈ (Finset.univ : Finset (Fin P)).filter (fun q => q.val < p), g q

theorem upTo_zero {M : Type*} [AddCommMonoid M] {P : ℕ} (g : Fin P → M) : upTo g 0 = 0 := by
  unfold upTo
  rw [Finset.filter_false_of_mem (fun q _ => Nat.not_lt_zero _), Finset.sum_empty]

theorem upTo_succ {M : Type*} [AddCommMonoid M] {P : ℕ} (g : Fin P → M) (p : ℕ) (hp : p < P) :
    upTo g (p + 1) = upTo g p + g ⟨p, hp⟩ := by
  unfold upTo
  have hsplit : (Finset.univ : Finset (Fin P)).filter (fun q => q.val < p + 1)
      = insert ⟨p, hp⟩ ((Finset.univ : Finset (Fin P)).filter (fun q => q.val < p)) := by
    ext q
    simp only [Finset.mem_filter, Finset.mem_univ, true_and, Finset.mem_insert, Fin.ext_iff]
    omega
  rw [hsplit, Finset.sum_insert (by simp), add_comm]

theorem upTo_all {M : Type*} [AddCommMonoid M] {P : ℕ} (g : Fin P → M) : upTo g P = ∑ q : Fin P, g q := by
  unfold upTo
  rw [Finset.filter_true_of_mem (fun q _ => q.isLt)]

/-- A sum accumulated block after block from zero is the whole sum: if `s 0 = 0` and `s (p + 1) = s p + g p` for
    every block `p < P`, then `s P` is the sum of all blocks. -/
theorem acc_eq_sum {M : Type*} [AddCommMonoid M] {P : ℕ} (g : Fin P → M) (s : ℕ → M)
    (h0 : s 0 = 0) (hs : ∀ (p : ℕ) (hp : p < P), s (p + 1) = s p + g ⟨p, hp⟩) :
    s P = ∑ q : Fin P, g q := by
  have h : ∀ p, p ≤ P → s p = upTo g p := by
    intro p
    induction p with
    | zero => intro _; rw [h0, upTo_zero]
    | succ p ih =>
      intro hp
      rw [hs p hp, upTo_succ g p hp, ih (Nat.le_of_lt hp)]
  rw [h P le_rfl, upTo_all]

end Cert.LibBlockSum
-- ==== Proof.PairwiseValue.lean ====
/-
# What the pairwise region leaves in its output array, on the extended reals

Entry `(b, o)` of the 512 x 64 output is the sum over ALL 512 rows `b'` of `exp (0 - sum over k of |M[b,k,o] - M[b',k,o]|)`,
where `M` is the 512 x 16 x 64 array both input windows read: the 64 blocks of eight rows the output block adds one
after the other, from zero, are the one sum regrouped. Row block `i` is written back at the point `64 i + 63`, and the
four row blocks cover the array.
-/
import proofs.«180718_j58179626991726_1_alg».proof.Proof.PairwiseRegion
import proofs.«180718_j58179626991726_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PwValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/- The region-entry contents of the core's unscoped buffers, at the extended reals. -/
variable (V : (c : Dev nD) → (b : Ref sig .tc) → Buf (Elt Ideal) ((c : Thread nD τ).loc b))

/-- The array both input windows read (512 rows x 16 kernel coordinates x 64 features) and the output array after the
    region (512 x 64), each as a function of its literal index type into the extended reals. -/
abbrev inArr (c : Dev nD) : S512x16x64.Idx → EReal := V c main_v4
abbrev outArr (c : Dev nD) : S512x64.Idx → EReal := (Pw.dat (F := Ideal) V c).arrAt 2 cfg1.N

/-! ## The body's arithmetic at an index -/

/-- The zero block reads zero everywhere. -/
theorem zero_apply (j : S128x64.Idx) : k1_pay1 (F := Ideal) j = 0 := by
  show Ideal.ofBits .f32 0x00000000#32 = 0
  exact Ideal.ofBits_zero_f32

/-- The 128 rows with a unit axis inserted and broadcast along it: entry (r, s, k, o) is the row block's (r, k, o). -/
theorem rows_bcast_apply (v3 : Vec Ideal S128x16x64 .f32) (r : Fin 128) (s : Fin 8) (k : Fin 16) (o : Fin 64) :
    broadcastTo S128x8x16x64 (shapeCast S128x1x16x64 v3 shapeCasts_S128x16x64_S128x1x16x64)
        broadcasts_S128x1x16x64_S128x8x16x64 (ix4 r s k o) = v3 (ix3 r k o) := by
  rw [broadcastTo_apply _ _ (ix4 r s k o) (ix4 r (0 : Fin 1) k o)
    (fun a => by match a with | ⟨0, _⟩ => rfl | ⟨1, _⟩ => rfl | ⟨2, _⟩ => rfl | ⟨3, _⟩ => rfl)]
  refine shapeCast_apply _ _ _ _ ?_
  rw [Shape.rowMajor_val_three, Shape.rowMajor_val_four]
  show (r.val * 16 + k.val) * 64 + o.val = ((r.val * 1 + 0) * 16 + k.val) * 64 + o.val
  omega

/-- The 8 rows with a leading unit axis and broadcast along it: entry (r, s, k, o) is the block's (s, k, o). -/
theorem rows'_bcast_apply (v5 : Vec Ideal S8x16x64 .f32) (r : Fin 128) (s : Fin 8) (k : Fin 16) (o : Fin 64) :
    broadcastTo S128x8x16x64 (shapeCast S1x8x16x64 v5 shapeCasts_S8x16x64_S1x8x16x64)
        broadcasts_S1x8x16x64_S128x8x16x64 (ix4 r s k o) = v5 (ix3 s k o) := by
  rw [broadcastTo_apply _ _ (ix4 r s k o) (ix4 (0 : Fin 1) s k o)
    (fun a => by match a with | ⟨0, _⟩ => rfl | ⟨1, _⟩ => rfl | ⟨2, _⟩ => rfl | ⟨3, _⟩ => rfl)]
  refine shapeCast_apply _ _ _ _ ?_
  rw [Shape.rowMajor_val_three, Shape.rowMajor_val_four]
  show (s.val * 16 + k.val) * 64 + o.val = ((0 * 8 + s.val) * 16 + k.val) * 64 + o.val
  omega

/-- The sum along the coordinate axis of a 128 x 8 x 16 x 64 array, at (r, s, o). -/
theorem sum_coord_apply (x : FVec Ideal S128x8x16x64 .f32) (hφ : FKind.Formats .f32)
    (hacc : (0x00000000#32 : BitVec 32) = 0x00000000#32) (r : Fin 128) (s : Fin 8) (o : Fin 64) :
    multiReduction (F := Ideal) .add [2] S128x8x64 x 0x00000000#32 reduces_S128x8x16x64_S128x8x64 hφ hacc (ix3 r s o)
      = ∑ k : Fin 16, x (ix4 r s k o) := by
  refine (Ideal.multiReduction_add_single x _ reduces_S128x8x16x64_S128x8x64 hφ hacc (ix3 r s o)).trans ?_
  refine Finset.sum_congr rfl fun k _ => congrArg x ?_
  funext a
  match a with
  | ⟨0, _⟩ => rfl
  | ⟨1, _⟩ => rfl
  | ⟨2, _⟩ => rfl
  | ⟨3, _⟩ => rfl

/-- The sum along the axis of the eight rows of a 128 x 8 x 64 array, at (r, o). -/
theorem sum_rows_apply (x : FVec Ideal S128x8x64 .f32) (hφ : FKind.Formats .f32)
    (hacc : (0x00000000#32 : BitVec 32) = 0x00000000#32) (r : Fin 128) (o : Fin 64) :
    multiReduction (F := Ideal) .add [1] S128x64 x 0x00000000#32 reduces_S128x8x64_S128x64 hφ hacc (ix2 r o)
      = ∑ s : Fin 8, x (ix3 r s o) := by
  refine (Ideal.multiReduction_add_single x _ reduces_S128x8x64_S128x64 hφ hacc (ix2 r o)).trans ?_
  refine Finset.sum_congr rfl fun s _ => congrArg x ?_
  funext a
  match a with
  | ⟨0, _⟩ => rfl
  | ⟨1, _⟩ => rfl
  | ⟨2, _⟩ => rfl

/-- The exponential of a vector at an index. -/
theorem exp_apply {s : Shape} (a : FVec Ideal s .f32) (i : s.Idx) : exp a i = Ideal.exp (a i) := rfl
/-- The absolute value of a vector at an index: the larger of the entry and its negation. -/
theorem absf_apply {s : Shape} (a : FVec Ideal s .f32) (i : s.Idx) : absf a i = max (a i) (-(a i)) := rfl

/-- THE BODY'S UPDATE AT (r, o): the accumulator's entry plus, over the eight rows `s` of the small block, the exponential
    of minus the L1 distance along the 16 coordinates between row `r` of the large block and row `s` of the small one. -/
theorem pay2_apply (v3 : Vec Ideal S128x16x64 .f32) (v5 : Vec Ideal S8x16x64 .f32) (v17 : Vec Ideal S128x64 .f32)
    (r : Fin 128) (o : Fin 64) :
    k1_pay2 (F := Ideal) v3 v5 v17 (ix2 r o)
      = v17 (ix2 r o) + ∑ s : Fin 8, Ideal.exp (-(∑ k : Fin 16,
          max (v3 (ix3 r k o) - v5 (ix3 s k o)) (-(v3 (ix3 r k o) - v5 (ix3 s k o))))) := by
  unfold k1_pay2
  rw [addf_apply, sum_rows_apply, shapeCast_self, shapeCast_self, shapeCast_self]
  refine congrArg (v17 (ix2 r o) + ·) (Finset.sum_congr rfl fun s _ => ?_)
  rw [exp_apply, subf_apply, broadcast_apply, sum_coord_apply]
  show Ideal.exp (Ideal.ofBits .f32 0x00000000#32 - _) = _
  rw [Ideal.ofBits_zero_f32, zero_sub]
  refine congrArg (fun y => Ideal.exp (-y)) (Finset.sum_congr rfl fun k _ => ?_)
  rw [absf_apply, subf_apply, rows_bcast_apply, rows'_bcast_apply]

/-- The printed index maps over the grid: the large block moves with the row block `t / 64`, the small one with `t % 64`,
    the output block with the row block; the other axes' block index is zero. -/
theorem idx_facts : ∀ t : Fin cfg1.N,
    win1_0.index t (0 : Fin 3) = t.val / 64 ∧ win1_0.index t (1 : Fin 3) = 0 ∧ win1_0.index t (2 : Fin 3) = 0
    ∧ win1_1.index t (0 : Fin 3) = t.val % 64 ∧ win1_1.index t (1 : Fin 3) = 0 ∧ win1_1.index t (2 : Fin 3) = 0
    ∧ win1_2.index t (0 : Fin 2) = t.val / 64 ∧ win1_2.index t (1 : Fin 2) = 0 :=
  (by decide +kernel : ∀ t : Fin grid1.N, _)

/-! ## A block's entry is the array's entry -/

/-- Entry (r, k, o) of the 128-row block at point `t` is the array's entry at row `128 (t / 64) + r`. -/
theorem rowsB_apply (c : Dev nD) (t : Fin cfg1.N) (r : Fin 128) (k : Fin 16) (o : Fin 64) (b : Fin 512)
    (hb : b.val = 128 * (t.val / 64) + r.val) :
    Pw.rowsB (F := Ideal) V c t (ix3 r k o) = inArr V c (ix3 b k o) := by
  obtain ⟨e0, e1, e2, -⟩ := idx_facts t
  unfold Pw.rowsB Pw.blk
  rw [View.read_apply]
  show V c main_v4 (((cfg1.win 0).blk t).view.emb (ix3 r k o)) = V c main_v4 (ix3 b k o)
  refine congrArg (V c main_v4) (funext fun a => Fin.ext ?_)
  match a with
  | ⟨0, _⟩ => show win1_0.index t (0 : Fin 3) * 128 + 1 * r.val = b.val; rw [e0, hb]; omega
  | ⟨1, _⟩ => show win1_0.index t (1 : Fin 3) * 16 + 1 * k.val = k.val; rw [e1]; omega
  | ⟨2, _⟩ => show win1_0.index t (2 : Fin 3) * 64 + 1 * o.val = o.val; rw [e2]; omega

/-- Entry (s, k, o) of the 8-row block at point `t` is the array's entry at row `8 (t % 64) + s`. -/
theorem rowsB'_apply (c : Dev nD) (t : Fin cfg1.N) (s : Fin 8) (k : Fin 16) (o : Fin 64) (b' : Fin 512)
    (hb : b'.val = 8 * (t.val % 64) + s.val) :
    Pw.rowsB' (F := Ideal) V c t (ix3 s k o) = inArr V c (ix3 b' k o) := by
  obtain ⟨-, -, -, e0, e1, e2, -⟩ := idx_facts t
  unfold Pw.rowsB' Pw.blk
  rw [View.read_apply]
  show V c main_v4 (((cfg1.win 1).blk t).view.emb (ix3 s k o)) = V c main_v4 (ix3 b' k o)
  refine congrArg (V c main_v4) (funext fun a => Fin.ext ?_)
  match a with
  | ⟨0, _⟩ => show win1_1.index t (0 : Fin 3) * 8 + 1 * s.val = b'.val; rw [e0, hb]; omega
  | ⟨1, _⟩ => show win1_1.index t (1 : Fin 3) * 16 + 1 * k.val = k.val; rw [e1]; omega
  | ⟨2, _⟩ => show win1_1.index t (2 : Fin 3) * 64 + 1 * o.val = o.val; rw [e2]; omega

/-! ## The accumulator after a point is a partial sum over blocks of eight rows -/

/-- The term of row `b'` in the entry (b, o): the exponential of minus the L1 distance, along the 16 coordinates,
    between rows `b` and `b'` of the array at feature `o`. -/
def term (c : Dev nD) (o : Fin 64) (b b' : Fin 512) : EReal :=
  Ideal.exp (-(∑ k : Fin 16,
    max (inArr V c (ix3 b k o) - inArr V c (ix3 b' k o)) (-(inArr V c (ix3 b k o) - inArr V c (ix3 b' k o)))))

/-- The 512 rows are 64 blocks of 8. -/
theorem rows_blocks : 512 = 64 * 8 := rfl

/-- The sum of the terms of the eight rows of block `q`. -/
def blockTerm (c : Dev nD) (o : Fin 64) (b : Fin 512) (q : Fin 64) : EReal :=
  ∑ s : Fin 8, term V c o b (LibBlockSum.blockIdx rows_blocks q s)

/-- ONE POINT'S UPDATE at (r, o), over the array: the body adds block `t % 64`'s eight terms of row `128 (t / 64) + r`. -/
theorem step_apply (c : Dev nD) (t : Fin cfg1.N) (v17 : Vec Ideal S128x64 .f32) (r : Fin 128) (o : Fin 64)
    (b : Fin 512) (hb : b.val = 128 * (t.val / 64) + r.val) (q : Fin 64) (hq : t.val % 64 = q.val) :
    k1_pay2 (F := Ideal) (Pw.rowsB V c t) (Pw.rowsB' V c t) v17 (ix2 r o) = v17 (ix2 r o) + blockTerm V c o b q := by
  refine (pay2_apply (Pw.rowsB V c t) (Pw.rowsB' V c t) v17 r o).trans ?_
  refine congrArg (v17 (ix2 r o) + ·) (Finset.sum_congr rfl fun s _ => ?_)
  unfold term
  refine congrArg (fun y => Ideal.exp (-y)) (Finset.sum_congr rfl fun k _ => ?_)
  rw [rowsB_apply V c t r k o b hb,
    rowsB'_apply V c t s k o (LibBlockSum.blockIdx rows_blocks q s) (by rw [LibBlockSum.blockIdx_val, hq])]

/-- The accumulator depends on the point's number only. -/
theorem acc_congr (c : Dev nD) (n n' : ℕ) (h : n < cfg1.N) (h' : n' < cfg1.N) (e : n = n') :
    Pw.acc (F := Ideal) V c n h = Pw.acc (F := Ideal) V c n' h' := by
  subst e; rfl

/-- AFTER THE POINT `64 i + p` the accumulator's entry (r, o) is the sum of the terms of the first `p + 1` blocks of
    eight rows, for row `128 i + r`: zero plus the first block's terms at `p = 0`, one more block at each later point. -/
theorem acc_eq (c : Dev nD) (i : ℕ) (hi : i < 4) (r : Fin 128) (o : Fin 64) (b : Fin 512) (hb : b.val = 128 * i + r.val) :
    ∀ (p : ℕ) (hp : p < 64) (h : 64 * i + p < cfg1.N),
      Pw.acc (F := Ideal) V c (64 * i + p) h (ix2 r o) = LibBlockSum.upTo (blockTerm V c o b) (p + 1)
  | 0, hp, h => by
    have hdiv : (64 * i + 0) / 64 = i := by omega
    have hmod : (64 * i + 0) % 64 = 0 := by omega
    rw [Pw.acc_reset V c ⟨64 * i + 0, h⟩ hmod,
      step_apply V c ⟨64 * i + 0, h⟩ _ r o b (by rw [hb]; show _ = 128 * ((64 * i + 0) / 64) + _; rw [hdiv]) ⟨0, hp⟩ hmod,
      zero_apply, LibBlockSum.upTo_succ _ 0 hp, LibBlockSum.upTo_zero]
  | p + 1, hp, h => by
    have hdiv : (64 * i + (p + 1)) / 64 = i := by omega
    have hmod : (64 * i + (p + 1)) % 64 = p + 1 := by omega
    have hne : (64 * i + (p + 1)) % 64 ≠ 0 := by omega
    rw [Pw.acc_step V c ⟨64 * i + (p + 1), h⟩ hne,
      step_apply V c ⟨64 * i + (p + 1), h⟩ _ r o b (by rw [hb]; show _ = 128 * ((64 * i + (p + 1)) / 64) + _; rw [hdiv]) ⟨p + 1, hp⟩ hmod,
      LibBlockSum.upTo_succ _ (p + 1) hp,
      acc_congr V c _ (64 * i + p) _ (by omega) (by show 64 * i + (p + 1) - 1 = 64 * i + p; omega),
      acc_eq c i hi r o b hb p (by omega) (by omega)]

/-! ## From the written-back blocks to the array -/

/-- After the LAST point of a row block (`t % 64 = 63`) the accumulator's entry (r, o) is the sum over all 512 rows:
    the 64 blocks of eight rows are the one sum regrouped. -/
theorem acc_last (c : Dev nD) (t : Fin cfg1.N) (ht : t.val % 64 = 63) (r : Fin 128) (o : Fin 64) (b : Fin 512)
    (hb : b.val = 128 * (t.val / 64) + r.val) :
    Pw.acc (F := Ideal) V c t.val t.isLt (ix2 r o) = ∑ b' : Fin 512, term V c o b b' := by
  have hN : cfg1.N = 256 := N_1
  have hlt : t.val < 256 := hN ▸ t.isLt
  have e : t.val = 64 * (t.val / 64) + 63 := by omega
  rw [acc_congr V c t.val (64 * (t.val / 64) + 63) t.isLt (by omega) e,
    acc_eq V c (t.val / 64) (by omega) r o b hb 63 (by omega) (by omega),
    LibBlockSum.upTo_all, LibBlockSum.sum_blocks rows_blocks]
  rfl

/-- The output array after the region: entry (b, o) is the sum over all 512 rows `b'` of the term of `b'`. -/
def G (c : Dev nD) : S512x64.Idx → EReal := fun i => ∑ b' : Fin 512, term V c (i 1) (i 0) b'

/-- `G` at the entry (b, o), its coordinates named. -/
theorem G_apply (c : Dev nD) (b : Fin 512) (o : Fin 64) : G V c (ix2 b o) = ∑ b' : Fin 512, term V c o b b' := rfl

/-- WHAT A POINT WRITES BACK is its block of `G`: the write-back is at the last point of a row block, where the
    accumulator holds the whole sums, and the output block at `t` is rows `128 (t / 64) …` of the array. -/
theorem flushed_eq (c : Dev nD) (t : Fin cfg1.N) (hf : (cfg1.win 2).flush t = true) :
    (Pw.dat (F := Ideal) V c).flushed 2 t = ((cfg1.win 2).blk t).view.read (Elt Ideal) (G V c) := by
  have ht : t.val % 64 = 63 := (flush1_2 t).mp hf
  have hN : cfg1.N = 256 := N_1
  have hlt : t.val < 256 := hN ▸ t.isLt
  obtain ⟨-, -, -, -, -, -, e0, e1⟩ := idx_facts t
  show (cfg1.win 2).cut (cfg1.grid.coords t) ((Pw.dat (F := Ideal) V c).after 2 t) = _
  rw [Pw.after_2]
  funext j
  obtain ⟨r, o, rfl⟩ : ∃ (r : Fin 128) (o : Fin 64), j = ix2 r o := ⟨j 0, j 1, eq_ix2 j⟩
  rw [View.read_apply]
  show Pw.acc (F := Ideal) V c t.val t.isLt (ix2 r o) = G V c (((cfg1.win 2).blk t).view.emb (ix2 r o))
  have hy : ((cfg1.win 2).blk t).view.emb (ix2 r o)
      = ix2 (⟨128 * (t.val / 64) + r.val, by omega⟩ : Fin 512) o := by
    funext a
    refine Fin.ext ?_
    match a with
    | ⟨0, _⟩ => show win1_2.index t (0 : Fin 2) * 128 + 1 * r.val = 128 * (t.val / 64) + r.val; rw [e0]; omega
    | ⟨1, _⟩ => show win1_2.index t (1 : Fin 2) * 64 + 1 * o.val = o.val; rw [e1]; omega
  rw [hy, G_apply]
  exact acc_last V c t ht r o _ rfl

/-- An entry of the array is in the output block at point `t` iff each coordinate is in the block's range on its axis. -/
theorem mem_blk (t : Fin cfg1.N) (i : S512x64.Idx) :
    i ∈ ((cfg1.win 2).blk t).view.set
      ↔ ∀ a : Fin 2, win1_2.index t a * S128x64.size a ≤ (i a).val
          ∧ (i a).val < win1_2.index t a * S128x64.size a + S128x64.size a := by
  show i ∈ ((View.whole main_v5).slice (win1_2.rect t)).set ↔ _
  rw [View.set_slice_whole, Rect.mem_set_unit]
  exact Iff.rfl

/-- Every entry of the array is in the block written back at the last point of its row block: row `b` is in row block
    `b / 128`, written back at the point `64 (b / 128) + 63`. -/
theorem cover (i : S512x64.Idx) :
    ∃ t : Fin cfg1.N, (cfg1.win 2).flush t = true ∧ i ∈ ((cfg1.win 2).blk t).view.set := by
  have hN : cfg1.N = 256 := N_1
  have h0 : (i 0).val < 512 := (i 0).isLt
  have h1 : (i 1).val < 64 := (i 1).isLt
  have hlt : 64 * ((i 0).val / 128) + 63 < cfg1.N := by omega
  have hv : (64 * ((i 0).val / 128) + 63) / 64 = (i 0).val / 128 := by omega
  obtain ⟨-, -, -, -, -, -, e0, e1⟩ := idx_facts ⟨64 * ((i 0).val / 128) + 63, hlt⟩
  refine ⟨⟨64 * ((i 0).val / 128) + 63, hlt⟩, (flush1_2 _).mpr (by show (64 * ((i 0).val / 128) + 63) % 64 = 63; omega), ?_⟩
  rw [mem_blk]
  intro a
  match a with
  | ⟨0, _⟩ =>
    show win1_2.index ⟨64 * ((i 0).val / 128) + 63, hlt⟩ (0 : Fin 2) * 128 ≤ (i 0).val
      ∧ (i 0).val < win1_2.index ⟨64 * ((i 0).val / 128) + 63, hlt⟩ (0 : Fin 2) * 128 + 128
    rw [e0]
    show (64 * ((i 0).val / 128) + 63) / 64 * 128 ≤ (i 0).val ∧ (i 0).val < (64 * ((i 0).val / 128) + 63) / 64 * 128 + 128
    rw [hv]
    omega
  | ⟨1, _⟩ =>
    show win1_2.index ⟨64 * ((i 0).val / 128) + 63, hlt⟩ (1 : Fin 2) * 64 ≤ (i 1).val
      ∧ (i 1).val < win1_2.index ⟨64 * ((i 0).val / 128) + 63, hlt⟩ (1 : Fin 2) * 64 + 64
    rw [e1]
    omega

/-- THE OUTPUT ARRAY after the region is `G`: the four written-back blocks are blocks of `G` and cover the array. -/
theorem final (c : Dev nD) : outArr V c = G V c :=
  (Pw.dat (F := Ideal) V c).arrAt_eq_of_cover 2 (G V c) (flushed_eq V c) cover

/-- After the region, entry `(b, o)` of the output array `main_v5` is the minibatch feature of row `b` in feature `o`,
    from the array `main_v4`. -/
theorem final_apply (c : Dev nD) (b : Fin 512) (o : Fin 64) :
    outArr V c (ix2 b o)
      = ∑ b' : Fin 512, Ideal.exp (-(∑ k : Fin 16,
          max (inArr V c (ix3 b k o) - inArr V c (ix3 b' k o)) (-(inArr V c (ix3 b k o) - inArr V c (ix3 b' k o))))) := by
  rw [final V c, G_apply]
  rfl

end Cert.KernelIdeal.PwValue

end
-- ==== Proof.Spec.lean ====
import Idealize.ShloMosaic.PureOps.Ideal
import Idealize.ShloMosaic.PureOps.Ideal.Laws
import Idealize.ShloMosaic.Lib.ValueIdx

/-!
# The function both programs compute, on the extended reals

Inputs: `x` of shape 512 x 2048 and `T` of shape 2048 x 1024; a column `n` of `T` is the pair
(feature `o`, kernel coordinate `k`) with `n = 16 o + k`, 64 features by 16 coordinates.

* `proj x T b n = sum over d of x[b,d] * T[d,n]` : the projection of row `b`.
* `dist x T b b' o = sum over k of |proj b (16 o + k) - proj b' (16 o + k)|` : the L1 distance of two rows'
  projections inside feature `o`.
* `feat x T b o = sum over b' of exp (-(dist b b' o))` : the minibatch feature.

The result array is `x` with the 64 columns `feat x T b ·` appended.
-/

noncomputable section

namespace Cert.Spec

open Idealize.ShloMosaic Idealize.ShloMosaic.ValueIdx

/-- The argument arrays' and the feature block's shapes. -/
abbrev SX : Shape := ⟨2, ![512, 2048]⟩
abbrev ST : Shape := ⟨2, ![2048, 1024]⟩
abbrev SFeat : Shape := ⟨2, ![512, 64]⟩

/-- Column `16 o + k` of `T`: feature `o`, kernel coordinate `k`. -/
def col (o : Fin 64) (k : Fin 16) : Fin 1024 := ⟨o.val * 16 + k.val, by omega⟩

/-- Row `b` of `x` against column `n` of `T`. -/
def proj (x : SX.Idx → EReal) (T : ST.Idx → EReal) (b : Fin 512) (n : Fin 1024) : EReal :=
  ∑ d : Fin 2048, x (ix2 b d) * T (ix2 d n)

/-- The L1 distance between rows `b` and `b'` of the projection, inside feature `o`. -/
def dist (x : SX.Idx → EReal) (T : ST.Idx → EReal) (b b' : Fin 512) (o : Fin 64) : EReal :=
  ∑ k : Fin 16, max (proj x T b (col o k) - proj x T b' (col o k)) (-(proj x T b (col o k) - proj x T b' (col o k)))

/-- The minibatch feature: the sum over the batch of `exp (-(dist))`. -/
def feat (x : SX.Idx → EReal) (T : ST.Idx → EReal) (b : Fin 512) (o : Fin 64) : EReal :=
  ∑ b' : Fin 512, Ideal.exp (-(dist x T b b' o))

/-- The feature block as an array. -/
def featArr (x : SX.Idx → EReal) (T : ST.Idx → EReal) : SFeat.Idx → EReal :=
  fun i => feat x T (i 0) (i 1)

end Cert.Spec

end
-- ==== Proof.Bridge.lean ====
/-
# The kernel's feature block is the specification's

What the pairwise region leaves in its output array, from the launch contents of `x` and `T`: the pairwise region's
sum over the minibatch, of the reshaped projection, which is the whole contraction of `x` with the column-permuted
`T`; the permutation sends column `64 k + o` to `T`'s column `16 o + k`, so entry `(b, k, o)` of the reshaped
projection is `proj x T b (16 o + k)`.
-/
import proofs.«180718_j58179626991726_1_alg».proof.Proof.Boundaries
import proofs.«180718_j58179626991726_1_alg».proof.Proof.MatmulValue
import proofs.«180718_j58179626991726_1_alg».proof.Proof.PairwiseValue
import proofs.«180718_j58179626991726_1_alg».proof.Proof.Spec

set_option maxRecDepth 16384

noncomputable section

namespace Cert.KernelIdeal.Bridge

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- Entry `(b, k, o)` of the array the pairwise region reads is the projection of row `b` on column `16 o + k`. -/
theorem in3_proj (c : Dev nD) (b : Fin 512) (k : Fin 16) (o : Fin 64) :
    Run.in3 (F := Ideal) m c (ix3 b k o) = Cert.Spec.proj (Run.xArr m c) (Run.tArr m c) b (Cert.Spec.col o k) := by
  rw [Run.in3_apply]
  refine (MmValue.final_apply (Run.V1 m) c b _).trans ?_
  unfold Cert.Spec.proj
  refine Finset.sum_congr rfl fun d _ => ?_
  -- the first operand is `x` as launched; the second at column `64 k + o` is `T` at column `16 o + k`
  have hl : MmValue.lhsArr (Run.V1 m) c = Run.xArr m c := Run.lhs1_eq m c
  have hr : MmValue.rhsArr (Run.V1 m) c (ix2 d (⟨64 * k.val + o.val, by omega⟩ : Fin 1024))
      = Run.tArr m c (ix2 d (⟨16 * o.val + k.val, by omega⟩ : Fin 1024)) := Run.rhs1_apply m c d k o
  have hc : (⟨16 * o.val + k.val, by omega⟩ : Fin 1024) = Cert.Spec.col o k :=
    Fin.ext (by show 16 * o.val + k.val = o.val * 16 + k.val; omega)
  rw [hl, hr, hc]

/-- The pairwise region's output array is the specification's feature block of the launch contents. -/
theorem kernel_feat (c : Dev nD) :
    Run.out4 (F := Ideal) m c = Cert.Spec.featArr (Run.xArr m c) (Run.tArr m c) := by
  funext i
  obtain ⟨b, o, rfl⟩ : ∃ b o, i = ix2 b o := ⟨i 0, i 1, eq_ix2 i⟩
  refine (PwValue.final_apply (Run.V3 m) c b o).trans ?_
  show _ = Cert.Spec.feat (Run.xArr m c) (Run.tArr m c) b o
  unfold Cert.Spec.feat Cert.Spec.dist
  refine Finset.sum_congr rfl fun b' _ => ?_
  refine congrArg (fun z => Ideal.exp (-z)) (Finset.sum_congr rfl fun k _ => ?_)
  -- both rows' entries of the reshaped projection are the specification's projections on column `16 o + k`
  have h1 : PwValue.inArr (Run.V3 m) c (ix3 b k o) = Cert.Spec.proj (Run.xArr m c) (Run.tArr m c) b (Cert.Spec.col o k) :=
    in3_proj m c b k o
  have h2 : PwValue.inArr (Run.V3 m) c (ix3 b' k o) = Cert.Spec.proj (Run.xArr m c) (Run.tArr m c) b' (Cert.Spec.col o k) :=
    in3_proj m c b' k o
  rw [h1, h2]

end Cert.KernelIdeal.Bridge

end
-- ==== Proof.RefValue.lean ====
import proofs.«180718_j58179626991726_1_alg».proof.Proof.Gen.ReferenceIdeal.Run
import proofs.«180718_j58179626991726_1_alg».proof.Proof.Gen.ReferenceIdeal.Read
import proofs.«180718_j58179626991726_1_alg».proof.Proof.Spec

/-!
# The reference's feature block is the specification's

The reference forms the 512 x 1024 projection by one contraction over `d`, reads it as a 512 x 64 x 16 array
(row-major: flat position `(b * 64 + o) * 16 + k` is row `b`, column `16 o + k`), broadcasts it along a new
row axis in two ways, subtracts, takes absolute values, sums over the coordinate `k`, negates, exponentiates and
sums over the second row `b'`. Read one element at a time, each stage is the matching stage of the specification:

* the reshaped projection at `(b, o, k)` is `proj x T b (col o k)`;
* the sum over `k` of the absolute differences at `(b, b', o)` is `dist x T b b' o`;
* the sum over `b'` of the exponentials at `(b, o)` is `feat x T b o`.

Both reductions start from the constant `0`, which is the additive unit of the extended reals.
-/

noncomputable section

namespace Cert.ReferenceIdeal.RefValue

open Cert.ReferenceIdeal Cert.ReferenceIdeal.Read Cert.Spec Idealize.ShloMosaic Idealize.ShloMosaic.ValueIdx

/-! ## Index arithmetic of the row-major reshape -/

/-- Flat position `(b * 64 + o) * 16 + k` lies in row `b` of a 1024-wide array. -/
theorem flat_div (b : Fin 512) (o : Fin 64) (k : Fin 16) : ((b.val * 64 + o.val) * 16 + k.val) / 1024 = b.val := by
  have hb := b.isLt; have ho := o.isLt; have hk := k.isLt
  omega

/-- … and in column `16 o + k` of it. -/
theorem flat_mod (b : Fin 512) (o : Fin 64) (k : Fin 16) :
    ((b.val * 64 + o.val) * 16 + k.val) % 1024 = o.val * 16 + k.val := by
  have hb := b.isLt; have ho := o.isLt; have hk := k.isLt
  omega

/-- The left operand's index of the contraction behind element `(b, o, k)`: row `b`, position `d`. -/
theorem lidx_reshape (b : Fin 512) (o : Fin 64) (k : Fin 16) (d : Fin 2048) :
    lidx_main_v0 (idx_main_v1 (ix3 b o k)) d = ix2 b d :=
  funext fun a => Fin.ext (by
    match a with
    | ⟨0, _⟩ => exact flat_div b o k
    | ⟨1, _⟩ => rfl)

/-- The right operand's index: position `d`, column `16 o + k`. -/
theorem ridx_reshape (b : Fin 512) (o : Fin 64) (k : Fin 16) (d : Fin 2048) :
    ridx_main_v0 (idx_main_v1 (ix3 b o k)) d = ix2 d (col o k) :=
  funext fun a => Fin.ext (by
    match a with
    | ⟨0, _⟩ => rfl
    | ⟨1, _⟩ => exact flat_mod b o k)

/-! ## The three stages -/

/-- The reshaped projection at `(b, o, k)` is the specification's projection of row `b` on column `16 o + k`. -/
theorem v1_eq (x : (⟨S512x2048, .f32⟩ : BufTy).Contents (Elt Ideal)) (T : (⟨S2048x1024, .f32⟩ : BufTy).Contents (Elt Ideal))
    (b : Fin 512) (o : Fin 64) (k : Fin 16) :
    val_main_v1 (F := Ideal) x T (ix3 b o k) = proj x T b (col o k) := by
  rw [val_main_v1_apply, val_main_v0_apply]
  unfold Cert.Spec.proj
  refine Finset.sum_congr rfl fun d _ => ?_
  rw [lidx_reshape, ridx_reshape]

/-- The row-`b` operand of the subtraction at `(b, b', o, k)` comes from the reshaped projection at `(b, o, k)`. -/
theorem idx_left (b b' : Fin 512) (o : Fin 64) (k : Fin 16) :
    idx_main_v2 (idx_main_v4 (idx_main_v8 (ix3 b b' o) k)) = ix3 b o k :=
  funext fun a => Fin.ext (by
    match a with
    | ⟨0, _⟩ => rfl
    | ⟨1, _⟩ => rfl
    | ⟨2, _⟩ => rfl)

/-- The row-`b'` operand comes from the reshaped projection at `(b', o, k)`. -/
theorem idx_right (b b' : Fin 512) (o : Fin 64) (k : Fin 16) :
    idx_main_v3 (idx_main_v5 (idx_main_v8 (ix3 b b' o) k)) = ix3 b' o k :=
  funext fun a => Fin.ext (by
    match a with
    | ⟨0, _⟩ => rfl
    | ⟨1, _⟩ => rfl
    | ⟨2, _⟩ => rfl)

/-- The sum over the coordinate of the absolute differences is the L1 distance; the absolute value of the extended
    reals is `max a (-a)` and the reduction's initial value is zero. -/
theorem v8_eq (x : (⟨S512x2048, .f32⟩ : BufTy).Contents (Elt Ideal)) (T : (⟨S2048x1024, .f32⟩ : BufTy).Contents (Elt Ideal))
    (b b' : Fin 512) (o : Fin 64) :
    val_main_v8 (F := Ideal) x T (ix3 b b' o) = dist x T b b' o := by
  rw [val_main_v8_apply, val_main_cst_apply]
  show Ideal.ofBits .f32 0x00000000#32 + _ = _
  rw [Ideal.ofBits_zero_f32, zero_add]
  unfold Cert.Spec.dist
  refine Finset.sum_congr rfl fun k _ => ?_
  rw [val_main_v7_apply, val_main_v6_apply, val_main_v4_apply, val_main_v5_apply, val_main_v2_apply, val_main_v3_apply,
    idx_left, idx_right, v1_eq, v1_eq]
  rfl

/-- The exponential stage at `(b, b', o)` is read from the distance stage at the same index. -/
theorem idx_outer (b b' : Fin 512) (o : Fin 64) : idx_main_v11 (ix2 b o) b' = ix3 b b' o :=
  funext fun a => Fin.ext (by
    match a with
    | ⟨0, _⟩ => rfl
    | ⟨1, _⟩ => rfl
    | ⟨2, _⟩ => rfl)

/-- The sum over the second row of `exp (-(dist))` is the feature. -/
theorem v11_eq (x : (⟨S512x2048, .f32⟩ : BufTy).Contents (Elt Ideal)) (T : (⟨S2048x1024, .f32⟩ : BufTy).Contents (Elt Ideal))
    (b : Fin 512) (o : Fin 64) :
    val_main_v11 (F := Ideal) x T (ix2 b o) = feat x T b o := by
  rw [val_main_v11_apply, val_main_cst_0_apply]
  show Ideal.ofBits .f32 0x00000000#32 + _ = _
  rw [Ideal.ofBits_zero_f32, zero_add]
  unfold Cert.Spec.feat
  refine Finset.sum_congr rfl fun b' _ => ?_
  rw [val_main_v10_apply, val_main_v9_apply, idx_outer, v8_eq]
  rfl

/-- The reference's feature block is the specification's feature array. -/
theorem ref_feat (x : (⟨Cert.ReferenceIdeal.S512x2048, .f32⟩ : BufTy).Contents (Elt Ideal)) (T : (⟨Cert.ReferenceIdeal.S2048x1024, .f32⟩ : BufTy).Contents (Elt Ideal)) :
    Cert.ReferenceIdeal.Read.val_main_v11 (F := Ideal) x T = Cert.Spec.featArr x T := by
  funext i
  obtain ⟨b, o, rfl⟩ : ∃ b o, i = ix2 b o := ⟨i 0, i 1, eq_ix2 i⟩
  exact v11_eq x T b o

end Cert.ReferenceIdeal.RefValue

end
-- ==== Proof.lean ====
/-
  The certificate of the minibatch-feature kernel against its jnp reference, on the extended reals.

  Both programs compute, from `x` (512 x 2048) and `T` (2048 x 1024, column `16 o + k` = feature `o`, kernel
  coordinate `k`): `proj b n = sum_d x[b,d] T[d,n]`, `dist b b' o = sum_k |proj b (16 o + k) - proj b' (16 o + k)|`,
  `feat b o = sum_b' exp (-(dist b b' o))`, and return `x` with the 64 columns `feat` appended (Proof/Spec.lean).

  The reference does so literally (Proof/RefValue.lean, over its generated run). The kernel permutes `T`'s columns to
  (k, o) order, computes the projection by a matmul accumulated over four blocks of the contracted axis in a scratch
  buffer (Proof/MatmulRegion.lean, Proof/MatmulValue.lean), reshapes it to rows x kernel coordinates x features, and
  accumulates `exp (0 - sum_k |.|)` over the minibatch eight rows at a time in the output block (Proof/PairwiseRegion.lean,
  Proof/PairwiseValue.lean). On the extended reals a change of float format is the identity and addition is commutative
  and associative, so the blocked sums are the whole sums, `0 - d = -d`, and the permutation of the columns is undone
  by the reshape (Proof/Boundaries.lean, Proof/Bridge.lean): no finiteness of the inputs is used.

  The frames (every weakly fair execution terminates, faults nowhere, leaves the arguments unchanged) of the two
  kernel programs are the run of @main as five segments, two of them kernel regions (Proof/Run.lean at the idealized
  program, Proof/BitsRun.lean the same text at the word-level program); the pairwise region's two input windows read
  one array, held at two half shares (Proof/SharedArray.lean). The reference's frame is its generated run.
-/
import proofs.«180718_j58179626991726_1_alg».proof.Defs
import proofs.«180718_j58179626991726_1_alg».proof.Proof.Gen.Kernel
import proofs.«180718_j58179626991726_1_alg».proof.Proof.Gen.KernelIdeal
import proofs.«180718_j58179626991726_1_alg».proof.Proof.Gen.ReferenceIdeal
import proofs.«180718_j58179626991726_1_alg».proof.Proof.Gen.Pre_finite_inputs
import proofs.«180718_j58179626991726_1_alg».proof.Proof.Gen.ReferenceIdeal.Run
import proofs.«180718_j58179626991726_1_alg».proof.Proof.Gen.ReferenceIdeal.Read
import proofs.«180718_j58179626991726_1_alg».proof.Proof.Run
import proofs.«180718_j58179626991726_1_alg».proof.Proof.BitsRun
import proofs.«180718_j58179626991726_1_alg».proof.Proof.Bridge
import proofs.«180718_j58179626991726_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: its run, the result forgotten. -/
theorem frame_kernel [Cert.Kernel.Facts] [Cert.Pre_finite_inputs.Facts] : Cert.frame_Kernel := fun m ρ _ =>
  (θ_run Cert.Kernel.defs _ _).mono (fun _ h c => (h c).2) (Cert.Kernel.Run.run_main (F := Bits) m ρ)

/-- The idealized kernel program runs and leaves its arguments unchanged. -/
theorem frame_kernelIdeal [Cert.KernelIdeal.Facts] [Cert.Pre_finite_inputs.Facts] : Cert.frame_KernelIdeal := fun m ρ _ =>
  (θ_run Cert.KernelIdeal.defs _ _).mono (fun _ h c => (h c).2) (Cert.KernelIdeal.Run.run_main (F := Ideal) m ρ)

/-- The reference runs and leaves its arguments unchanged: its generated run, the result forgotten. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The two runs end with equal result arrays: `x` with the specification's feature block appended, on both sides. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Run.W5 m c (Proc.devRef .tc Cert.KernelIdeal.main_v6),
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v12_eq]
  unfold Cert.ReferenceIdeal.Read.val_main_v12
  rw [Cert.ReferenceIdeal.RefValue.ref_feat]
  refine Eq.trans ?_ (Cert.KernelIdeal.Run.res5_eq m c).symm
  rw [Cert.KernelIdeal.Bridge.kernel_feat]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
